-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x5 : Shape := ⟨2, ![50000, 5]⟩
abbrev S2x800000 : Shape := ⟨2, ![2, 800000]⟩
abbrev S800000x128 : Shape := ⟨2, ![800000, 128]⟩
abbrev S800000 : Shape := ⟨1, ![800000]⟩
abbrev S5x128 : Shape := ⟨2, ![5, 128]⟩
abbrev S128 : Shape := ⟨1, ![128]⟩
abbrev S128x128 : Shape := ⟨2, ![128, 128]⟩
abbrev S_ : Shape := ⟨0, ![]⟩
abbrev S1x800000 : Shape := ⟨2, ![1, 800000]⟩

class Facts : Prop where
  bcast_S_S50000x5 : S_.BroadcastsInDim S50000x5 (![] : Fin 0 → Fin S50000x5.rank)
  reducesTo_S50000x5_S_d0_1 : S50000x5.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S800000 : S_.BroadcastsInDim S800000 (![] : Fin 0 → Fin S800000.rank)
  reducesTo_S800000_S_d0 : S800000.ReducesTo [0] S_
  bcast_S_S5x128 : S_.BroadcastsInDim S5x128 (![] : Fin 0 → Fin S5x128.rank)
  reducesTo_S5x128_S_d0_1 : S5x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  slices_S2x800000_S1x800000_0_0 : S2x800000.Slices ![0, 0] S1x800000
  shapeCasts_S1x800000_S800000 : S1x800000.ShapeCasts S800000

variable [Facts]

def fn_part4 {F : FTy → Type} [FloatOps F] (main_arg1 : IVec S2x800000 32) (main_arg15 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : IVec S1x800000 32 := (extractStridedSlice S1x800000 ![0, 0] · slices_S2x800000_S1x800000_0_0) main_arg1
  let main_v75 : IVec S800000 32 := shapeCast S800000 main_v74 shapeCasts_S1x800000_S800000
  let main_c_28 : IVec S_ 32 := constantI S_ 32 4294917296#32
  let main_v76 : IVec S800000 32 := broadcastInDim S800000 ![] bcast_S_S800000 main_c_28
  let main_v77 : IVec S800000 1 := cmpi .sge main_v75 main_v76
  let main_c_29 : IVec S_ 1 := constantI S_ 1 1#1
  let main_v78 : IVec S_ 1 := (fun x v => Host.reduce IntOp.andi x v reducesTo_S800000_S_d0 h_S_) main_v77 main_c_29
  let main_v79 : IVec S_ 1 := andi main_v73 main_v78
  let main_v80 : IVec S1x800000 32 := (extractStridedSlice S1x800000 ![0, 0] · slices_S2x800000_S1x800000_0_0) main_arg1
  let main_v81 : IVec S800000 32 := shapeCast S800000 main_v80 shapeCasts_S1x800000_S800000
  let main_c_30 : IVec S_ 32 := constantI S_ 32 50000#32
  let main_v82 : IVec S800000 32 := broadcastInDim S800000 ![] bcast_S_S800000 main_c_30
  let main_v83 : IVec S800000 1 := cmpi .slt main_v81 main_v82
  let main_c_31 : IVec S_ 1 := constantI S_ 1 1#1
  let main_v84 : IVec S_ 1 := (fun x v => Host.reduce IntOp.andi x v reducesTo_S800000_S_d0 h_S_) main_v83 main_c_31
  let main_v85 : IVec S_ 1 := andi main_v79 main_v84
  main_v85

def fn_part3 {F : FTy → Type} [FloatOps F] (main_arg1 : IVec S2x800000 32) (main_arg12 : FVec F S128x128 .f32) (main_arg13 : FVec F S128 .f32) (main_arg14 : FVec F S128x128 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg1 main_arg15 main_v63 main_v67

def fn_part2 {F : FTy → Type} [FloatOps F] (main_arg1 : IVec S2x800000 32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg1 main_arg12 main_arg13 main_arg14 main_arg15 main_v48 main_v49 main_v50

def fn_part1 {F : FTy → Type} [FloatOps F] (main_arg1 : IVec S2x800000 32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_v13 : IVec S_ 1) (main_v16 : IVec S5x128 1) : IVec S_ 1 :=
  let main_c_5 : IVec S_ 1 := constantI S_ 1 1#1
  let main_v17 : IVec S_ 1 := (fun x v => Host.reduce IntOp.andi x v reducesTo_S5x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_arg11 main_arg12 main_arg13 main_arg14 main_arg15 main_v33

def fn {F : FTy → Type} [FloatOps F] (main_arg0 : FVec F S50000x5 .f32) (main_arg1 : IVec S2x800000 32) (main_arg2 : FVec F S800000x128 .f32) (main_arg3 : FVec F S800000 .f32) (main_arg4 : FVec F S5x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) : IVec S_ 1 :=
  let main_v0 : FVec F S50000x5 .f32 := Host.absf main_arg0
  let main_cst : FVec F S_ .f32 := constant S_ .f32 0x7F800000#32
  let main_v1 : FVec F S50000x5 .f32 := broadcastInDim S50000x5 ![] bcast_S_S50000x5 main_cst
  let main_v2 : IVec S50000x5 1 := cmpf .olt main_v0 main_v1
  let main_c : IVec S_ 1 := constantI S_ 1 1#1
  let main_v3 : IVec S_ 1 := (fun x v => Host.reduce IntOp.andi x v reducesTo_S50000x5_S_d0_1 h_S_) main_v2 main_c
  let main_v4 : FVec F S800000x128 .f32 := Host.absf main_arg2
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S800000 .f32 := Host.absf main_arg3
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S5x128 .f32 := Host.absf main_arg4
  let main_cst_4 : FVec F S_ .f32 := constant S_ .f32 0x7F800000#32
  let main_v15 : FVec F S5x128 .f32 := broadcastInDim S5x128 ![] bcast_S_S5x128 main_cst_4
  let main_v16 : IVec S5x128 1 := cmpf .olt main_v14 main_v15
  fn_part1 (F := F) main_arg1 main_arg5 main_arg6 main_arg7 main_arg8 main_arg9 main_arg10 main_arg11 main_arg12 main_arg13 main_arg14 main_arg15 main_v13 main_v16
-- ==== Kernel.lean ====
abbrev S50000x5 : Shape := ⟨2, ![50000, 5]⟩
abbrev S2x800000 : Shape := ⟨2, ![2, 800000]⟩
abbrev S800000x128 : Shape := ⟨2, ![800000, 128]⟩
abbrev S800000 : Shape := ⟨1, ![800000]⟩
abbrev S5x128 : Shape := ⟨2, ![5, 128]⟩
abbrev S128 : Shape := ⟨1, ![128]⟩
abbrev S128x128 : Shape := ⟨2, ![128, 128]⟩
abbrev S1x128 : Shape := ⟨2, ![1, 128]⟩
abbrev S50000x128 : Shape := ⟨2, ![50000, 128]⟩
abbrev S5000x5 : Shape := ⟨2, ![5000, 5]⟩
abbrev S5000x128 : Shape := ⟨2, ![5000, 128]⟩
abbrev S_ : Shape := ⟨0, ![]⟩
abbrev S800000x1 : Shape := ⟨2, ![800000, 1]⟩
abbrev S6400x128 : Shape := ⟨2, ![6400, 128]⟩
abbrev S6400x1 : Shape := ⟨2, ![6400, 1]⟩
abbrev S1x800000 : Shape := ⟨2, ![1, 800000]⟩
abbrev S1 : Shape := ⟨1, ![1]⟩
abbrev S1x1 : Shape := ⟨2, ![1, 1]⟩

abbrev nBuf : Space → Nat
  | .hbm => 134
  | .vmem => 48
  | .smem => 0
  | _ => 0

abbrev hbmTy0_0 (i : Nat) : BufTy := match i % 128 with
  | 0 => ⟨S50000x5, .f32⟩
  | 1 => ⟨S2x800000, .i32⟩
  | 2 => ⟨S800000x128, .f32⟩
  | 3 => ⟨S800000, .f32⟩
  | 4 => ⟨S5x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S1x128, .f32⟩
  | 17 => ⟨S1x128, .f32⟩
  | 18 => ⟨S50000x128, .f32⟩
  | 19 => ⟨S_, .f32⟩
  | 20 => ⟨S800000, .f32⟩
  | 21 => ⟨S800000, .i1⟩
  | 22 => ⟨S800000, .f32⟩
  | 23 => ⟨S800000x1, .f32⟩
  | 24 => ⟨S1x128, .f32⟩
  | 25 => ⟨S1x128, .f32⟩
  | 26 => ⟨S800000x128, .bf16⟩
  | 27 => ⟨S1x800000, .i32⟩
  | 28 => ⟨S800000, .i32⟩
  | 29 => ⟨S1x800000, .i32⟩
  | 30 => ⟨S800000, .i32⟩
  | 31 => ⟨S800000x128, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S1, .i32⟩
  | 41 => ⟨S_, .i32⟩
  | 42 => ⟨S800000x1, .i32⟩
  | 43 => ⟨S800000x1, .i1⟩
  | 44 => ⟨S1x1, .i32⟩
  | 45 => ⟨S800000x1, .i32⟩
  | 46 => ⟨S800000x1, .i1⟩
  | 47 => ⟨S800000x1, .i1⟩
  | 48 => ⟨S_, .i1⟩
  | 49 => ⟨S800000, .i1⟩
  | 50 => ⟨S800000x128, .f32⟩
  | 51 => ⟨S800000x128, .i1⟩
  | 52 => ⟨S_, .f32⟩
  | 53 => ⟨S800000x128, .f32⟩
  | 54 => ⟨S800000x128, .f32⟩
  | 55 => ⟨S800000x128, .f32⟩
  | 56 => ⟨S_, .f32⟩
  | 57 => ⟨S800000x128, .f32⟩
  | 58 => ⟨S800000x128, .f32⟩
  | 59 => ⟨S_, .f32⟩
  | 60 => ⟨S50000x128, .f32⟩
  | 61 => ⟨S800000x1, .i32⟩
  | 62 => ⟨S50000x128, .f32⟩
  | 63 => ⟨S1x128, .f32⟩
  | 64 => ⟨S1x128, .f32⟩
  | 65 => ⟨S50000x128, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S1, .i32⟩
  | 75 => ⟨S_, .i32⟩
  | 76 => ⟨S800000x1, .i32⟩
  | 77 => ⟨S800000x1, .i1⟩
  | 78 => ⟨S1x1, .i32⟩
  | 79 => ⟨S800000x1, .i32⟩
  | 80 => ⟨S800000x1, .i1⟩
  | 81 => ⟨S800000x1, .i1⟩
  | 82 => ⟨S_, .i1⟩
  | 83 => ⟨S800000, .i1⟩
  | 84 => ⟨S800000x128, .f32⟩
  | 85 => ⟨S800000x128, .i1⟩
  | 86 => ⟨S_, .f32⟩
  | 87 => ⟨S800000x128, .f32⟩
  | 88 => ⟨S800000x128, .f32⟩
  | 89 => ⟨S800000x128, .f32⟩
  | 90 => ⟨S_, .f32⟩
  | 91 => ⟨S800000x128, .f32⟩
  | 92 => ⟨S800000x128, .f32⟩
  | 93 => ⟨S_, .f32⟩
  | 94 => ⟨S50000x128, .f32⟩
  | 95 => ⟨S800000x1, .i32⟩
  | 96 => ⟨S50000x128, .f32⟩
  | 97 => ⟨S1x128, .f32⟩
  | 98 => ⟨S1x128, .f32⟩
  | 99 => ⟨S50000x128, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S1, .i32⟩
  | 109 => ⟨S_, .i32⟩
  | 110 => ⟨S800000x1, .i32⟩
  | 111 => ⟨S800000x1, .i1⟩
  | 112 => ⟨S1x1, .i32⟩
  | 113 => ⟨S800000x1, .i32⟩
  | 114 => ⟨S800000x1, .i1⟩
  | 115 => ⟨S800000x1, .i1⟩
  | 116 => ⟨S_, .i1⟩
  | 117 => ⟨S800000, .i1⟩
  | 118 => ⟨S800000x128, .f32⟩
  | 119 => ⟨S800000x128, .i1⟩
  | 120 => ⟨S_, .f32⟩
  | 121 => ⟨S800000x128, .f32⟩
  | 122 => ⟨S800000x128, .f32⟩
  | 123 => ⟨S800000x128, .f32⟩
  | 124 => ⟨S_, .f32⟩
  | 125 => ⟨S800000x128, .f32⟩
  | 126 => ⟨S800000x128, .f32⟩
  | 127 => ⟨S_, .f32⟩
  | _ => ⟨S50000x5, .f32⟩

abbrev hbmTy0_1 (i : Nat) : BufTy := match i % 128 with
  | 0 => ⟨S50000x128, .f32⟩
  | 1 => ⟨S800000x1, .i32⟩
  | 2 => ⟨S50000x128, .f32⟩
  | 3 => ⟨S1x128, .f32⟩
  | 4 => ⟨S1x128, .f32⟩
  | 5 => ⟨S50000x128, .f32⟩
  | _ => ⟨S50000x5, .f32⟩

abbrev hbmTy (i : Nat) : BufTy := match i / 128 with
  | 0 => hbmTy0_0 i
  | 1 => hbmTy0_1 i
  | _ => ⟨S50000x5, .f32⟩

abbrev bufTy : (tb : Table) → Fin (tcTables nBuf tb) → BufTy
  | .hbm, ⟨i, _⟩ => hbmTy i
  | .local _ .vmem, ⟨0, _⟩ => ⟨S5000x5, .f32⟩
  | .local _ .vmem, ⟨1, _⟩ => ⟨S5000x5, .f32⟩
  | .local _ .vmem, ⟨2, _⟩ => ⟨S5x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S6400x128, .f32⟩
  | .local _ .vmem, ⟨9, _⟩ => ⟨S6400x128, .f32⟩
  | .local _ .vmem, ⟨10, _⟩ => ⟨S6400x1, .f32⟩
  | .local _ .vmem, ⟨11, _⟩ => ⟨S6400x1, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S6400x128, .bf16⟩
  | .local _ .vmem, ⟨17, _⟩ => ⟨S6400x128, .bf16⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x128, .f32⟩
  | .local _ .vmem, ⟨33, _⟩ => ⟨S1x128, .f32⟩
  | .local _ .vmem, ⟨34, _⟩ => ⟨S128x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S128x128, .f32⟩
  | .local _ .vmem, ⟨43, _⟩ => ⟨S1x128, .f32⟩
  | .local _ .vmem, ⟨44, _⟩ => ⟨S128x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | _, _ => ⟨S50000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_call0_c : Ref sig .tc := ⟨.hbm, 32, rfl⟩
abbrev main_call0_v0 : Ref sig .tc := ⟨.hbm, 33, rfl⟩
abbrev main_call0_v1 : Ref sig .tc := ⟨.hbm, 34, rfl⟩
abbrev main_call0_c_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_c_1 : Ref sig .tc := ⟨.hbm, 40, rfl⟩
abbrev main_call0_c_2 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_c_3 : Ref sig .tc := ⟨.hbm, 48, rfl⟩
abbrev main_call0_v12 : Ref sig .tc := ⟨.hbm, 49, rfl⟩
abbrev main_call0_v13 : Ref sig .tc := ⟨.hbm, 50, rfl⟩
abbrev main_call0_v14 : Ref sig .tc := ⟨.hbm, 51, rfl⟩
abbrev main_call0_cst : Ref sig .tc := ⟨.hbm, 52, rfl⟩
abbrev main_call0_v15 : Ref sig .tc := ⟨.hbm, 53, rfl⟩
abbrev main_v15 : Ref sig .tc := ⟨.hbm, 54, rfl⟩
abbrev main_v16 : Ref sig .tc := ⟨.hbm, 55, rfl⟩
abbrev main_call1_cst : Ref sig .tc := ⟨.hbm, 56, rfl⟩
abbrev main_call1_v0 : Ref sig .tc := ⟨.hbm, 57, rfl⟩
abbrev main_v17 : Ref sig .tc := ⟨.hbm, 58, rfl⟩
abbrev main_cst_0 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_call2_c : Ref sig .tc := ⟨.hbm, 66, rfl⟩
abbrev main_call2_v0 : Ref sig .tc := ⟨.hbm, 67, rfl⟩
abbrev main_call2_v1 : Ref sig .tc := ⟨.hbm, 68, rfl⟩
abbrev main_call2_c_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_c_1 : Ref sig .tc := ⟨.hbm, 74, rfl⟩
abbrev main_call2_c_2 : Ref sig .tc := ⟨.hbm, 75, rfl⟩
abbrev main_call2_v6 : Ref sig .tc := ⟨.hbm, 76, rfl⟩
abbrev main_call2_v7 : Ref sig .tc := ⟨.hbm, 77, rfl⟩
abbrev main_call2_v8 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_c_3 : Ref sig .tc := ⟨.hbm, 82, rfl⟩
abbrev main_call2_v12 : Ref sig .tc := ⟨.hbm, 83, rfl⟩
abbrev main_call2_v13 : Ref sig .tc := ⟨.hbm, 84, rfl⟩
abbrev main_call2_v14 : Ref sig .tc := ⟨.hbm, 85, rfl⟩
abbrev main_call2_cst : Ref sig .tc := ⟨.hbm, 86, rfl⟩
abbrev main_call2_v15 : Ref sig .tc := ⟨.hbm, 87, rfl⟩
abbrev main_v24 : Ref sig .tc := ⟨.hbm, 88, rfl⟩
abbrev main_v25 : Ref sig .tc := ⟨.hbm, 89, rfl⟩
abbrev main_call3_cst : Ref sig .tc := ⟨.hbm, 90, rfl⟩
abbrev main_call3_v0 : Ref sig .tc := ⟨.hbm, 91, rfl⟩
abbrev main_v26 : Ref sig .tc := ⟨.hbm, 92, rfl⟩
abbrev main_cst_1 : Ref sig .tc := ⟨.hbm, 93, rfl⟩
abbrev main_v27 : Ref sig .tc := ⟨.hbm, 94, rfl⟩
abbrev main_v28 : Ref sig .tc := ⟨.hbm, 95, rfl⟩
abbrev main_v29 : Ref sig .tc := ⟨.hbm, 96, rfl⟩
abbrev main_v30 : Ref sig .tc := ⟨.hbm, 97, rfl⟩
abbrev main_v31 : Ref sig .tc := ⟨.hbm, 98, rfl⟩
abbrev main_v32 : Ref sig .tc := ⟨.hbm, 99, rfl⟩
abbrev main_call4_c : Ref sig .tc := ⟨.hbm, 100, rfl⟩
abbrev main_call4_v0 : Ref sig .tc := ⟨.hbm, 101, rfl⟩
abbrev main_call4_v1 : Ref sig .tc := ⟨.hbm, 102, rfl⟩
abbrev main_call4_c_0 : Ref sig .tc := ⟨.hbm, 103, rfl⟩
abbrev main_call4_v2 : Ref sig .tc := ⟨.hbm, 104, rfl⟩
abbrev main_call4_v3 : Ref sig .tc := ⟨.hbm, 105, rfl⟩
abbrev main_call4_v4 : Ref sig .tc := ⟨.hbm, 106, rfl⟩
abbrev main_call4_v5 : Ref sig .tc := ⟨.hbm, 107, rfl⟩
abbrev main_call4_c_1 : Ref sig .tc := ⟨.hbm, 108, rfl⟩
abbrev main_call4_c_2 : Ref sig .tc := ⟨.hbm, 109, rfl⟩
abbrev main_call4_v6 : Ref sig .tc := ⟨.hbm, 110, rfl⟩
abbrev main_call4_v7 : Ref sig .tc := ⟨.hbm, 111, rfl⟩
abbrev main_call4_v8 : Ref sig .tc := ⟨.hbm, 112, rfl⟩
abbrev main_call4_v9 : Ref sig .tc := ⟨.hbm, 113, rfl⟩
abbrev main_call4_v10 : Ref sig .tc := ⟨.hbm, 114, rfl⟩
abbrev main_call4_v11 : Ref sig .tc := ⟨.hbm, 115, rfl⟩
abbrev main_call4_c_3 : Ref sig .tc := ⟨.hbm, 116, rfl⟩
abbrev main_call4_v12 : Ref sig .tc := ⟨.hbm, 117, rfl⟩
abbrev main_call4_v13 : Ref sig .tc := ⟨.hbm, 118, rfl⟩
abbrev main_call4_v14 : Ref sig .tc := ⟨.hbm, 119, rfl⟩
abbrev main_call4_cst : Ref sig .tc := ⟨.hbm, 120, rfl⟩
abbrev main_call4_v15 : Ref sig .tc := ⟨.hbm, 121, rfl⟩
abbrev main_v33 : Ref sig .tc := ⟨.hbm, 122, rfl⟩
abbrev main_v34 : Ref sig .tc := ⟨.hbm, 123, rfl⟩
abbrev main_call5_cst : Ref sig .tc := ⟨.hbm, 124, rfl⟩
abbrev main_call5_v0 : Ref sig .tc := ⟨.hbm, 125, rfl⟩
abbrev main_v35 : Ref sig .tc := ⟨.hbm, 126, rfl⟩
abbrev main_cst_2 : Ref sig .tc := ⟨.hbm, 127, rfl⟩
abbrev main_v36 : Ref sig .tc := ⟨.hbm, 128, rfl⟩
abbrev main_v37 : Ref sig .tc := ⟨.hbm, 129, rfl⟩
abbrev main_v38 : Ref sig .tc := ⟨.hbm, 130, rfl⟩
abbrev main_v39 : Ref sig .tc := ⟨.hbm, 131, rfl⟩
abbrev main_v40 : Ref sig .tc := ⟨.hbm, 132, rfl⟩
abbrev main_v41 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg6_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg6_0 : Ref sig .tc := ⟨.vmem, 46, rfl⟩
abbrev cc4_stg6_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem6_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem3_0 : DmaSem sig := 43
abbrev cc4_sem4_0 : DmaSem sig := 44
abbrev cc4_sem5_0 : DmaSem sig := 45
abbrev cc4_sem6_0 : DmaSem sig := 46
abbrev cc4_sem6_1 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S6400x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  shapeCasts_S128_S1x128 : S128.ShapeCasts S1x128
  inb_S5000x5_S5000x5_0_0 : ∀ a, (![0, 0] : Fin 2 → Nat) a + S5000x5.size a ≤ S5000x5.size a
  h_S5000x5 : 0 < S5000x5.numel
  bitsLt_bf16_f32 : FTy.bits .bf16 < FTy.bits .f32
  inb_S5x128_S5x128_0_0 : ∀ a, (![0, 0] : Fin 2 → Nat) a + S5x128.size a ≤ S5x128.size a
  h_S5x128 : 0 < S5x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  bcast_S_S800000 : S_.BroadcastsInDim S800000 (![] : Fin 0 → Fin S800000.rank)
  shapeCasts_S800000_S800000x1 : S800000.ShapeCasts S800000x1
  inb_S6400x128_S6400x128_0_0 : ∀ a, (![0, 0] : Fin 2 → Nat) a + S6400x128.size a ≤ S6400x128.size a
  h_S6400x128 : 0 < S6400x128.numel
  broadcasts_S1x128_S6400x128 : S1x128.Broadcasts S6400x128
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  broadcasts_S6400x1_S6400x128 : S6400x1.Broadcasts S6400x128
  packedbf16_S6400x128_S6400x128_0_0 : (Rect.unit (s := S6400x128) ![0, 0] S6400x128.size inb_S6400x128_S6400x128_0_0).PackedRows (EltTy.packing .bf16)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  shapeCasts_S5000x128_S5000x128 : S5000x128.ShapeCasts S5000x128
  dot_S5000x5_S5x128_S5000x128_1_0_0_1_n_n_wf : DotDims.WF S5000x5 S5x128 S5000x128 [1] [0] [0] [1] [] []
  dot_S5000x128_S128x128_S5000x128_1_0_0_1_n_n_wf : DotDims.WF S5000x128 S128x128 S5000x128 [1] [0] [0] [1] [] []
  dot_S6400x128_S128x128_S6400x128_1_0_0_1_n_n_wf : DotDims.WF S6400x128 S128x128 S6400x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x5.size a ≤ S50000x5.size a
  hwx0_0 : ∀ i : grid0.Coords, EltTy.bits .f32 = 32 ∨ (Rect.block (s := S50000x5) S5000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x128.size a ≤ S5x128.size a
  hwx0_1 : ∀ i : grid0.Coords, EltTy.bits .f32 = 32 ∨ (Rect.block (s := S5x128) S5x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x128.size a ≤ S800000x128.size a
  hwx1_0 : ∀ i : grid1.Coords, EltTy.bits .f32 = 32 ∨ (Rect.block (s := S800000x128) S6400x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x1.size a ≤ S800000x1.size a
  hwx1_1 : ∀ i : grid1.Coords, EltTy.bits .f32 = 32 ∨ (Rect.block (s := S800000x1) S6400x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S6400x128.size a ≤ S800000x128.size a
  hwx1_6 : ∀ i : grid1.Coords, EltTy.bits .bf16 = 32 ∨ (Rect.block (s := S800000x128) S6400x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S50000x128.size a
  hwx4_6 : ∀ i : grid4.Coords, EltTy.bits .f32 = 32 ∨ (Rect.block (s := S50000x128) S5000x128.size (cc4_transform_6 i) (hinb4_6 i)).WholeWords (EltTy.packing .f32)

variable [Facts₀]

def dot_S5000x5_S5x128_S5000x128_1_0_0_1_n_n : DotDims S5000x5 S5x128 S5000x128 where
  lhsContracting := [1]
  rhsContracting := [0]
  lhsNonContracting := [0]
  rhsNonContracting := [1]
  lhsBatch := []
  rhsBatch := []
  wf := dot_S5000x5_S5x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S5x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg2) S6400x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S6400x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg12) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg14) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S6400x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v20) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v21) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v22) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v23) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v29) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v23) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v30) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg10) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v31) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v32) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v38) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v32) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg8) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v39) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg10) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v40) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v41) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S50000x5 : Shape := ⟨2, ![50000, 5]⟩
abbrev S2x800000 : Shape := ⟨2, ![2, 800000]⟩
abbrev S800000x128 : Shape := ⟨2, ![800000, 128]⟩
abbrev S800000 : Shape := ⟨1, ![800000]⟩
abbrev S5x128 : Shape := ⟨2, ![5, 128]⟩
abbrev S128 : Shape := ⟨1, ![128]⟩
abbrev S128x128 : Shape := ⟨2, ![128, 128]⟩
abbrev S50000x128 : Shape := ⟨2, ![50000, 128]⟩
abbrev S1x128 : Shape := ⟨2, ![1, 128]⟩
abbrev S_ : Shape := ⟨0, ![]⟩
abbrev S800000x1 : Shape := ⟨2, ![800000, 1]⟩
abbrev S1x800000 : Shape := ⟨2, ![1, 800000]⟩

abbrev nBuf : Space → Nat
  | .hbm => 154
  | .vmem => 0
  | .smem => 0
  | _ => 0

abbrev hbmTy0_0 (i : Nat) : BufTy := match i % 128 with
  | 0 => ⟨S50000x5, .f32⟩
  | 1 => ⟨S2x800000, .i32⟩
  | 2 => ⟨S800000x128, .f32⟩
  | 3 => ⟨S800000, .f32⟩
  | 4 => ⟨S5x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S50000x128, .f32⟩
  | 17 => ⟨S1x128, .f32⟩
  | 18 => ⟨S50000x128, .f32⟩
  | 19 => ⟨S50000x128, .f32⟩
  | 20 => ⟨S_, .f32⟩
  | 21 => ⟨S50000x128, .f32⟩
  | 22 => ⟨S50000x128, .f32⟩
  | 23 => ⟨S50000x128, .f32⟩
  | 24 => ⟨S1x128, .f32⟩
  | 25 => ⟨S50000x128, .f32⟩
  | 26 => ⟨S50000x128, .f32⟩
  | 27 => ⟨S_, .f32⟩
  | 28 => ⟨S800000, .f32⟩
  | 29 => ⟨S800000, .i1⟩
  | 30 => ⟨S800000, .f32⟩
  | 31 => ⟨S800000x1, .f32⟩
  | 32 => ⟨S800000x128, .f32⟩
  | 33 => ⟨S1x128, .f32⟩
  | 34 => ⟨S800000x128, .f32⟩
  | 35 => ⟨S800000x128, .f32⟩
  | 36 => ⟨S_, .f32⟩
  | 37 => ⟨S800000x128, .f32⟩
  | 38 => ⟨S800000x128, .f32⟩
  | 39 => ⟨S800000x128, .f32⟩
  | 40 => ⟨S1x128, .f32⟩
  | 41 => ⟨S800000x128, .f32⟩
  | 42 => ⟨S800000x128, .f32⟩
  | 43 => ⟨S800000x128, .f32⟩
  | 44 => ⟨S800000x128, .f32⟩
  | 45 => ⟨S1x800000, .i32⟩
  | 46 => ⟨S800000, .i32⟩
  | 47 => ⟨S1x800000, .i32⟩
  | 48 => ⟨S800000, .i32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x128, .f32⟩
  | 58 => ⟨S800000x128, .f32⟩
  | 59 => ⟨S_, .f32⟩
  | 60 => ⟨S800000x128, .f32⟩
  | 61 => ⟨S800000x128, .f32⟩
  | 62 => ⟨S_, .f32⟩
  | 63 => ⟨S50000x128, .f32⟩
  | 64 => ⟨S800000x1, .i32⟩
  | 65 => ⟨S50000x128, .f32⟩
  | 66 => ⟨S_, .f32⟩
  | 67 => ⟨S50000x128, .f32⟩
  | 68 => ⟨S50000x128, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S50000x128, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000x128, .f32⟩
  | 94 => ⟨S800000x128, .f32⟩
  | 95 => ⟨S_, .f32⟩
  | 96 => ⟨S800000x128, .f32⟩
  | 97 => ⟨S800000x128, .f32⟩
  | 98 => ⟨S_, .f32⟩
  | 99 => ⟨S50000x128, .f32⟩
  | 100 => ⟨S800000x1, .i32⟩
  | 101 => ⟨S50000x128, .f32⟩
  | 102 => ⟨S_, .f32⟩
  | 103 => ⟨S50000x128, .f32⟩
  | 104 => ⟨S50000x128, .f32⟩
  | 105 => ⟨S50000x128, .f32⟩
  | 106 => ⟨S50000x128, .f32⟩
  | 107 => ⟨S1x128, .f32⟩
  | 108 => ⟨S50000x128, .f32⟩
  | 109 => ⟨S50000x128, .f32⟩
  | 110 => ⟨S_, .f32⟩
  | 111 => ⟨S50000x128, .f32⟩
  | 112 => ⟨S50000x128, .f32⟩
  | 113 => ⟨S50000x128, .f32⟩
  | 114 => ⟨S1x128, .f32⟩
  | 115 => ⟨S50000x128, .f32⟩
  | 116 => ⟨S50000x128, .f32⟩
  | 117 => ⟨S_, .f32⟩
  | 118 => ⟨S50000x128, .f32⟩
  | 119 => ⟨S50000x128, .f32⟩
  | 120 => ⟨S50000x128, .f32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S50000x5, .f32⟩

abbrev hbmTy0_1 (i : Nat) : BufTy := match i % 128 with
  | 0 => ⟨S800000x1, .i32⟩
  | 1 => ⟨S800000x128, .f32⟩
  | 2 => ⟨S800000x128, .f32⟩
  | 3 => ⟨S_, .f32⟩
  | 4 => ⟨S800000x128, .f32⟩
  | 5 => ⟨S800000x128, .f32⟩
  | 6 => ⟨S_, .f32⟩
  | 7 => ⟨S50000x128, .f32⟩
  | 8 => ⟨S800000x1, .i32⟩
  | 9 => ⟨S50000x128, .f32⟩
  | 10 => ⟨S_, .f32⟩
  | 11 => ⟨S50000x128, .f32⟩
  | 12 => ⟨S50000x128, .f32⟩
  | 13 => ⟨S50000x128, .f32⟩
  | 14 => ⟨S50000x128, .f32⟩
  | 15 => ⟨S1x128, .f32⟩
  | 16 => ⟨S50000x128, .f32⟩
  | 17 => ⟨S50000x128, .f32⟩
  | 18 => ⟨S_, .f32⟩
  | 19 => ⟨S50000x128, .f32⟩
  | 20 => ⟨S50000x128, .f32⟩
  | 21 => ⟨S50000x128, .f32⟩
  | 22 => ⟨S1x128, .f32⟩
  | 23 => ⟨S50000x128, .f32⟩
  | 24 => ⟨S50000x128, .f32⟩
  | 25 => ⟨S50000x128, .f32⟩
  | _ => ⟨S50000x5, .f32⟩

abbrev hbmTy (i : Nat) : BufTy := match i / 128 with
  | 0 => hbmTy0_0 i
  | 1 => hbmTy0_1 i
  | _ => ⟨S50000x5, .f32⟩

abbrev bufTy : (tb : Table) → Fin (tcTables nBuf tb) → BufTy
  | .hbm, ⟨i, _⟩ => hbmTy i
  | _, _ => ⟨S50000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_call1_cst : Ref sig .tc := ⟨.hbm, 36, rfl⟩
abbrev main_call1_v0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c : Ref sig .tc := ⟨.hbm, 49, rfl⟩
abbrev main_v28 : Ref sig .tc := ⟨.hbm, 50, rfl⟩
abbrev main_v29 : Ref sig .tc := ⟨.hbm, 51, rfl⟩
abbrev main_c_0 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_call2_cst : Ref sig .tc := ⟨.hbm, 59, rfl⟩
abbrev main_call2_v0 : Ref sig .tc := ⟨.hbm, 60, rfl⟩
abbrev main_v36 : Ref sig .tc := ⟨.hbm, 61, rfl⟩
abbrev main_cst_1 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_2 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call3_cst : Ref sig .tc := ⟨.hbm, 74, rfl⟩
abbrev main_call3_v0 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_call4_cst : Ref sig .tc := ⟨.hbm, 81, rfl⟩
abbrev main_call4_v0 : Ref sig .tc := ⟨.hbm, 82, rfl⟩
abbrev main_v52 : Ref sig .tc := ⟨.hbm, 83, rfl⟩
abbrev main_v53 : Ref sig .tc := ⟨.hbm, 84, rfl⟩
abbrev main_c_3 : Ref sig .tc := ⟨.hbm, 85, rfl⟩
abbrev main_v54 : Ref sig .tc := ⟨.hbm, 86, rfl⟩
abbrev main_v55 : Ref sig .tc := ⟨.hbm, 87, rfl⟩
abbrev main_c_4 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_call5_cst : Ref sig .tc := ⟨.hbm, 95, rfl⟩
abbrev main_call5_v0 : Ref sig .tc := ⟨.hbm, 96, rfl⟩
abbrev main_v62 : Ref sig .tc := ⟨.hbm, 97, rfl⟩
abbrev main_cst_5 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_6 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_call6_cst : Ref sig .tc := ⟨.hbm, 110, rfl⟩
abbrev main_call6_v0 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_call7_cst : Ref sig .tc := ⟨.hbm, 117, rfl⟩
abbrev main_call7_v0 : Ref sig .tc := ⟨.hbm, 118, rfl⟩
abbrev main_v78 : Ref sig .tc := ⟨.hbm, 119, rfl⟩
abbrev main_v79 : Ref sig .tc := ⟨.hbm, 120, rfl⟩
abbrev main_c_7 : Ref sig .tc := ⟨.hbm, 121, rfl⟩
abbrev main_v80 : Ref sig .tc := ⟨.hbm, 122, rfl⟩
abbrev main_v81 : Ref sig .tc := ⟨.hbm, 123, rfl⟩
abbrev main_c_8 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_call8_cst : Ref sig .tc := ⟨.hbm, 131, rfl⟩
abbrev main_call8_v0 : Ref sig .tc := ⟨.hbm, 132, rfl⟩
abbrev main_v88 : Ref sig .tc := ⟨.hbm, 133, rfl⟩
abbrev main_cst_9 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_cst_10 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_call9_cst : Ref sig .tc := ⟨.hbm, 146, rfl⟩
abbrev main_call9_v0 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S800000x1_S800000x128_0_1 : S800000x1.BroadcastsInDim S800000x128 (![0, 1] : Fin 2 → Fin S800000x128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  dot_S50000x5_S5x128_S50000x128_1_0_0_1_n_n_wf : DotDims.WF S50000x5 S5x128 S50000x128 [1] [0] [0] [1] [] []
  dot_S50000x128_S128x128_S50000x128_1_0_0_1_n_n_wf : DotDims.WF S50000x128 S128x128 S50000x128 [1] [0] [0] [1] [] []
  dot_S800000x128_S128x128_S800000x128_1_0_0_1_n_n_wf : DotDims.WF S800000x128 S128x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x5_S5x128_S50000x128_1_0_0_1_n_n : DotDims S50000x5 S5x128 S50000x128 where
  lhsContracting := [1]
  rhsContracting := [0]
  lhsNonContracting := [0]
  rhsNonContracting := [1]
  lhsBatch := []
  rhsBatch := []
  wf := dot_S50000x5_S5x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Spec.lean ====
/-
  The stage functions of the message-passing network, as plain functions of extended-real arrays, index by index.

  Every dense stage is a two-layer perceptron applied to each ROW of its input on its own: with a row `x` of width `k`,
  weight matrices `wa` (k × 128) and `wb` (128 × 128) and bias rows `ba`, `bb`,
      hidden q = max (Σ_p x p · wa (p, q) + ba q) 0        mlpRow j = Σ_q hidden q · wb (q, j) + bb j.
  The node embedding is that perceptron on the rows of `z`; the edge gate is the perceptron on the rows of the edge
  attributes, each row then scaled by its edge's cutoff mask entry; a node update applies the perceptron to the rows of
  `agg + 1 · h`, optionally clamps at zero, and adds `h` back.

  The two float constants that occur (zero, one) stay the words the programs print: nothing here evaluates them.
-/
import Idealize.ShloMosaic.PureOps.Ideal
import Idealize.ShloMosaic.Lib.ValueIdx

noncomputable section

open scoped BigOperators

namespace Cert.Spec

open Idealize.ShloMosaic Idealize.ShloMosaic.ValueIdx

/-- The shape of an a × b array. -/
abbrev Sh (a b : Nat) : Shape := ⟨2, ![a, b]⟩

/-- An a × b array of extended reals. -/
abbrev Arr (a b : Nat) : Type := (Sh a b).Idx → EReal

/-- The row coordinate of an index of an a × b array. -/
abbrev rowOf {a b : Nat} (i : (Sh a b).Idx) : Fin a := i 0

/-- The column coordinate of an index of an a × b array. -/
abbrev colOf {a b : Nat} (i : (Sh a b).Idx) : Fin b := i 1

/-- The float word of zero, read as an extended real. -/
abbrev zeroW : EReal := Ideal.ofBits .f32 0x00000000#32

/-- The float word of one, read as an extended real. -/
abbrev oneW : EReal := Ideal.ofBits .f32 0x3F800000#32

/-- One affine layer on one row: entry j of `x · w + b`. -/
def lin {k : Nat} (x : Fin k → EReal) (w : Arr k 128) (b : Fin 128 → EReal) (j : Fin 128) : EReal :=
  (∑ p : Fin k, x p * w (ix2 p j)) + b j

/-- The hidden row: the first layer clamped at zero. -/
def hidden {k : Nat} (x : Fin k → EReal) (wa : Arr k 128) (ba : Fin 128 → EReal) (q : Fin 128) : EReal :=
  max (lin x wa ba q) zeroW

/-- The two-layer perceptron on one row. -/
def mlpRow {k : Nat} (x : Fin k → EReal) (wa : Arr k 128) (ba : Fin 128 → EReal) (wb : Arr 128 128) (bb : Fin 128 → EReal)
    (j : Fin 128) : EReal :=
  lin (hidden x wa ba) wb bb j

/-- THE NODE EMBEDDING: the perceptron on every row of `z`. -/
def embed (z : Arr 50000 5) (wa : Arr 5 128) (ba : Fin 128 → EReal) (wb : Arr 128 128) (bb : Fin 128 → EReal) : Arr 50000 128 :=
  fun i => mlpRow (fun p => z (ix2 (rowOf i) p)) wa ba wb bb (colOf i)

/-- THE EDGE GATE: the perceptron on every row of the edge attributes, times that edge's mask entry. -/
def gate (ea : Arr 800000 128) (mask : Fin 800000 → EReal) (wa : Arr 128 128) (ba : Fin 128 → EReal) (wb : Arr 128 128)
    (bb : Fin 128 → EReal) : Arr 800000 128 :=
  fun i => mlpRow (fun p => ea (ix2 (rowOf i) p)) wa ba wb bb (colOf i) * mask (rowOf i)

/-- The perceptron on row i of `agg + 1 · h`, at column j. -/
def updRow (agg h : Arr 50000 128) (wa : Arr 128 128) (ba : Fin 128 → EReal) (wb : Arr 128 128) (bb : Fin 128 → EReal)
    (i : (Sh 50000 128).Idx) : EReal :=
  mlpRow (fun p => agg (ix2 (rowOf i) p) + oneW * h (ix2 (rowOf i) p)) wa ba wb bb (colOf i)

/-- A NODE UPDATE WITH THE ACTIVATION: clamp the perceptron's output at zero, then add `h` back. -/
def updRelu (agg h : Arr 50000 128) (wa : Arr 128 128) (ba : Fin 128 → EReal) (wb : Arr 128 128) (bb : Fin 128 → EReal) :
    Arr 50000 128 :=
  fun i => max (updRow agg h wa ba wb bb i) zeroW + h i

/-- THE LAST NODE UPDATE: no activation; add `h` back. -/
def updLast (agg h : Arr 50000 128) (wa : Arr 128 128) (ba : Fin 128 → EReal) (wb : Arr 128 128) (bb : Fin 128 → EReal) :
    Arr 50000 128 :=
  fun i => updRow agg h wa ba wb bb i + h i

end Cert.Spec

end
-- ==== Proof.KGlue.lean ====
/-
  The host operations between the kernel program's pallas_calls, as functions of arrays.

  Between two node updates the program gathers, for every edge, the node-feature row of the edge's source node, adds
  the edge's gate row, clamps at zero, and sums the result into the row of the edge's destination node. The source words
  are row 0 of the edge index and the destination words row 1. The program's row take first moves a negative source
  word up by 50000 and then replaces by a fill value every gathered row whose moved word is not in 0 … 49999; when
  every source word lies in −50000 … 49999 no row is replaced, and the take is the plain gather at the moved words.
-/
import proofs.«406182_j75024488726862_2_alg».proof.Proof.Gen.KernelIdeal
import Idealize.ShloMosaic.PureOps.Ideal.Laws
import Idealize.ShloMosaic.Lib.Pipeline.Value
import Idealize.ShloMosaic.Lib.ValueIdx
import Idealize.ShloMosaic.Lib.ValueLayout
import Idealize.ShloMosaic.Lib.ReduceAll
import Idealize.ShloMosaic.Lib.StableHlo.Predicate

noncomputable section

namespace Cert.KernelIdeal.Glue

open Cert.KernelIdeal Cert.KernelIdeal.Gen
open Idealize.ShloMosaic Idealize.ShloMosaic.ValueIdx

/-- The cutoff mask as a 0/1 float vector: 1 where the edge length is at most ten. -/
def maskVec (el : FVec Ideal S800000 .f32) : FVec Ideal S800000 .f32 :=
  uitofp .f32 (cmpf .ole el (broadcastInDim S800000 ![] bcast_S_S800000 (constant S_ .f32 0x41200000#32)))

/-- The source words: row 0 of the edge index. -/
def srcOf (ei : IVec S2x800000 32) : IVec S800000 32 :=
  shapeCast S800000 (extractStridedSlice S1x800000 ![0, 0] ei slices_S2x800000_S1x800000_0_0) shapeCasts_S1x800000_S800000

/-- The destination words: row 1 of the edge index. -/
def dstOf (ei : IVec S2x800000 32) : IVec S800000 32 :=
  shapeCast S800000 (extractStridedSlice S1x800000 ![1, 0] ei slices_S2x800000_S1x800000_1_0) shapeCasts_S1x800000_S800000

/-- The destination words as an index column. -/
def dstCol (ei : IVec S2x800000 32) : IVec S800000x1 32 :=
  broadcastInDim S800000x1 ![0] bcast_S800000_S800000x1_0 (dstOf ei)

/-- The index column of the row take: a negative word is moved up by 50000. -/
def wrapCol (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- Which rows the take keeps: those whose moved word is at least 0 and at most 49999. -/
def inRange (src : IVec S800000 32) : IVec S800000 1 :=
  Host.reduce IntOp.andi
    (andi (cmpi .sge (wrapCol src) (broadcastInDim S800000x1 ![] bcast_S_S800000x1 (constantI S_ 32 0#32)))
          (cmpi .sle (wrapCol src) (broadcastInDim S800000x1 ![0, 1] bcast_S1x1_S800000x1_0_1
            (broadcastInDim S1x1 ![1] bcast_S1_S1x1_1 (constantI S1 32 49999#32)))))
    (constantI S_ 1 1#1) reducesTo_S800000x1_S800000_d1 h_S_

/-- The kernel's row take: the gather at the moved words, rows outside the range replaced by the fill word. -/
def takeFn (h : FVec Ideal S50000x128 .f32) (src : IVec S800000 32) : FVec Ideal S800000x128 .f32 :=
  select (broadcastInDim S800000x128 ![0] bcast_S800000_S800000x128_0 (inRange src))
    (Host.gather gather_S50000x128_S800000x1_S800000x128_1_0_n_n_0_1_1128 h (wrapCol src))
    (broadcastInDim S800000x128 ![] bcast_S_S800000x128 (constant S_ .f32 0x7FC00000#32))

/-- The all-zero node array the sums start from. -/
def zerosN : FVec Ideal S50000x128 .f32 := broadcastInDim S50000x128 ![] bcast_S_S50000x128 (constant S_ .f32 0x00000000#32)

/-- The all-zero edge array of the clamp. -/
def zerosE : FVec Ideal S800000x128 .f32 := broadcastInDim S800000x128 ![] bcast_S_S800000x128 (constant S_ .f32 0x00000000#32)

/-- THE AGGREGATION as the kernel program computes it: take, add the gate, clamp, sum into the destination rows. -/
def aggTake (h : FVec Ideal S50000x128 .f32) (g : FVec Ideal S800000x128 .bf16) (ei : IVec S2x800000 32) : FVec Ideal S50000x128 .f32 :=
  Host.scatterAdd scatter_S50000x128_S800000x1_S800000x128_1_0_0_1 zerosN (dstCol ei)
    (maximumf (addf (takeFn h (srcOf ei)) (extf .f32 g bitsLt_bf16_f32)) zerosE)

/-- The same with the plain gather at the moved words. -/
def aggGather (h : FVec Ideal S50000x128 .f32) (g : FVec Ideal S800000x128 .f32) (ei : IVec S2x800000 32) : FVec Ideal S50000x128 .f32 :=
  Host.scatterAdd scatter_S50000x128_S800000x1_S800000x128_1_0_0_1 zerosN (dstCol ei)
    (maximumf (addf (Host.gather gather_S50000x128_S800000x1_S800000x128_1_0_n_n_0_1_1128 h (wrapCol (srcOf ei))) g) zerosE)

/-- Every source word is a legal row index of a 50000-row table, counting from either end. -/
def SrcLegal (src : IVec S800000 32) : Prop :=
  ∀ e : S800000.Idx, (-50000 : ℤ) ≤ (src e).toInt ∧ (src e).toInt < 50000

/-- A 32-bit word whose signed value lies in 0 … 49999 passes both range tests. -/
theorem inRange_word (w : BitVec 32) (h0 : 0 ≤ w.toInt) (h9 : w.toInt ≤ 49999) :
    IntOp.cmpi .sge w 0#32 = 1#1 ∧ IntOp.cmpi .sle w 49999#32 = 1#1 := by
  constructor
  · show BitVec.ofBool ((0#32 : BitVec 32).sle w) = 1#1
    rw [StableHlo.Predicate.ofBool_eq_one_iff]
    simp only [BitVec.sle, decide_eq_true_eq]
    exact h0
  · show BitVec.ofBool (w.sle 49999#32) = 1#1
    rw [StableHlo.Predicate.ofBool_eq_one_iff]
    simp only [BitVec.sle, decide_eq_true_eq]
    exact h9

/-- Moving a negative word up by 50000: a word in −50000 … 49999 lands in 0 … 49999. -/
theorem moved_word (x : BitVec 32) (h1 : (-50000 : ℤ) ≤ x.toInt) (h2 : x.toInt < 50000) :
    IntOp.cmpi .sge (Scalar.select (IntOp.cmpi .slt x 0#32) (IntOp.addi x 50000#32) x) 0#32 = 1#1 ∧
    IntOp.cmpi .sle (Scalar.select (IntOp.cmpi .slt x 0#32) (IntOp.addi x 50000#32) x) 49999#32 = 1#1 := by
  by_cases hx : x.toInt < 0
  · have hc : IntOp.cmpi .slt x 0#32 = 1#1 := by
      show BitVec.ofBool (x.slt 0#32) = 1#1
      rw [StableHlo.Predicate.ofBool_eq_one_iff]
      simp only [BitVec.slt, decide_eq_true_eq]
      exact hx
    rw [hc, select_one]
    have e : (IntOp.addi x 50000#32).toInt = x.toInt + 50000 := by
      show (x + 50000#32).toInt = _
      rw [BitVec.toInt_add]
      have h5 : (50000#32 : BitVec 32).toInt = 50000 := by decide
      rw [h5]
      unfold Int.bmod
      simp only [Nat.reducePow, Nat.cast_ofNat]
      omega
    apply inRange_word <;> rw [e] <;> omega
  · have hc : IntOp.cmpi .slt x 0#32 = 0#1 := by
      show BitVec.ofBool (x.slt 0#32) = 0#1
      have : x.slt 0#32 = false := by
        simp only [BitVec.slt, decide_eq_false_iff_not]
        exact hx
      rw [this]; rfl
    rw [hc]
    show IntOp.cmpi .sge x 0#32 = 1#1 ∧ IntOp.cmpi .sle x 49999#32 = 1#1
    apply inRange_word <;> omega

/-- A left fold by "and" that starts at 1 and meets only 1s is 1. -/
theorem foldl_andi_one {ι : Type} (f : ι → BitVec 1) (hf : ∀ n, f n = 1#1) :
    ∀ l : List ι, l.foldl (fun r n => IntOp.andi r (f n)) 1#1 = 1#1
  | [] => rfl
  | a :: l => by
    have h11 : IntOp.andi (1#1 : BitVec 1) 1#1 = 1#1 := by decide
    rw [List.foldl_cons, hf a, h11]
    exact foldl_andi_one f hf l

/-- An "and"-reduction from 1 of an array that is 1 everywhere is 1 at every result index. -/
theorem reduce_andi_of_all_one {s t u : Shape} {axes : List (Fin s.rank)} (x : s.Idx → BitVec 1) (hx : ∀ i, x i = 1#1)
    (init : u.Idx → BitVec 1) (h : s.ReducesTo axes t) (hu : 0 < u.numel) (hinit : init (Shape.Idx.first hu) = 1#1)
    (j : t.Idx) : Host.reduce IntOp.andi x init h hu j = 1#1 := by
  rw [Host.reduce_eq_foldl, hinit]
  exact foldl_andi_one x hx _

/-- Every entry of the index column is the moved word of some source word. -/
theorem wrapCol_apply (src : IVec S800000 32) (i : S800000x1.Idx) :
    ∃ k : S800000.Idx, wrapCol src i
      = Scalar.select (IntOp.cmpi .slt (src k) 0#32) (IntOp.addi (src k) 50000#32) (src k) := by
  unfold wrapCol broadcastInDim
  exact ⟨_, rfl⟩

/-- With every source word legal, the range mask is 1 at every edge. -/
theorem inRange_one (src : IVec S800000 32) (hs : SrcLegal src) (e : S800000.Idx) : inRange src e = 1#1 := by
  unfold inRange
  refine reduce_andi_of_all_one _ ?_ _ _ _ rfl e
  intro i
  show IntOp.andi (IntOp.cmpi .sge (wrapCol src i) 0#32) (IntOp.cmpi .sle (wrapCol src i) 49999#32) = 1#1
  obtain ⟨k, hk⟩ := wrapCol_apply src i
  rw [hk]
  obtain ⟨ha, hb⟩ := moved_word (src k) (hs k).1 (hs k).2
  rw [ha, hb]
  decide

/-- With every source word legal, every moved word is in 0 … 49999, so the take replaces no row. -/
theorem take_eq_gather (h : FVec Ideal S50000x128 .f32) (src : IVec S800000 32) (hs : SrcLegal src) :
    takeFn h src = Host.gather gather_S50000x128_S800000x1_S800000x128_1_0_n_n_0_1_1128 h (wrapCol src) := by
  funext j
  unfold takeFn
  rw [ValueIdx.select_apply]
  have hm : broadcastInDim S800000x128 ![0] bcast_S800000_S800000x128_0 (inRange src) j = 1#1 :=
    inRange_one src hs _
  rw [hm, ValueIdx.select_one]

/-- With every source word legal the kernel's aggregation is the one with the plain gather. -/
theorem aggTake_eq (h : FVec Ideal S50000x128 .f32) (g : FVec Ideal S800000x128 .bf16) (ei : IVec S2x800000 32)
    (hs : SrcLegal (srcOf ei)) : aggTake h g ei = aggGather h g ei := by
  unfold aggTake aggGather
  rw [take_eq_gather h _ hs]
  rfl

end Cert.KernelIdeal.Glue

end
-- ==== Proof.LibTypedRef.lean ====
/-
  A typed reference's two transports. A function that a module-local function of a host program applies is printed over
  typed references: each operand is read through `ofBuf` (contents of the buffer as contents at the value's type) and
  each result written through `toBuf` (the other way), both transports along the reference's own type equation. Read
  back through a stretch of such operations, a buffer's contents are therefore a tower of `ofBuf (toBuf …)` pairs around
  the operations' own terms. The two transports undo each other, whatever the reference; rewriting with these two
  equations (a `simp only` with both) removes every inner pair and leaves the plain term.
-/
import Idealize.ShloMosaic.Lib.StableHlo

namespace Cert.LibTypedRef

open Idealize.ShloMosaic Idealize.ShloMosaic.StableHlo

/-- Writing a value into a typed reference's buffer and reading it back gives the value. -/
theorem ofBuf_toBuf {sig : RefSig} {Val : EltTy → Type} {T : BufTy} (x : TRef sig T) (v : T.Contents Val) :
    x.ofBuf (x.toBuf v) = v := by
  obtain ⟨r, h, h2, h3⟩ := x
  subst h
  rfl

/-- Reading a typed reference's buffer and writing the value back gives the buffer's contents. -/
theorem toBuf_ofBuf {sig : RefSig} {Val : EltTy → Type} {T : BufTy} (x : TRef sig T) (v : x.ref.ty.Contents Val) :
    x.toBuf (x.ofBuf v) = v := by
  obtain ⟨r, h, h2, h3⟩ := x
  subst h
  rfl

end Cert.LibTypedRef
-- ==== Proof.KFold.lean ====
/-
  The host operations between two pallas_calls of the kernel program, read back as ONE function of the buffers the
  earlier call left: whatever the float values are, the aggregate a node update is given is the aggregation (row take
  at the moved source words, plus the gate, clamped at zero, summed into the destination rows) of the node features, the
  widened gate, the source words and the destination words found in the buffers when the stretch begins.
-/
import proofs.«406182_j75024488726862_2_alg».proof.Proof.Gen.KernelIdeal.Frame
import proofs.«406182_j75024488726862_2_alg».proof.Proof.KGlue
import proofs.«406182_j75024488726862_2_alg».proof.Proof.LibTypedRef
import Idealize.ShloMosaic.Lib.StableHlo.Run

set_option maxRecDepth 16384

noncomputable section

namespace Cert.KernelIdeal.Fold

open Cert.KernelIdeal Cert.KernelIdeal.Gen Cert.KernelIdeal.Glue
open Idealize.ShloMosaic Idealize.ShloMosaic.TcCoe Idealize.SL.Sem Idealize.ShloMosaic.StableHlo

/-! ## At a reference named with its own type a transport is the identity -/

open Cert.LibTypedRef

section Boundary
variable {F : FTy → Type} [FloatOps F]
theorem of_v11 (v : (⟨S800000, .i32⟩ : BufTy).Contents (Elt F)) : (TRef.of (T := ⟨S800000, .i32⟩) main_v11).ofBuf v = v := rfl
theorem of_v2 (v : (⟨S50000x128, .f32⟩ : BufTy).Contents (Elt F)) : (TRef.of (T := ⟨S50000x128, .f32⟩) main_v2).ofBuf v = v := rfl
theorem to_v15 (v : (⟨S800000x128, .f32⟩ : BufTy).Contents (Elt F)) : (TRef.of (T := ⟨S800000x128, .f32⟩) main_v15).toBuf v = v := rfl
theorem of_v16 (v : (⟨S800000x128, .f32⟩ : BufTy).Contents (Elt F)) : (TRef.of (T := ⟨S800000x128, .f32⟩) main_v16).ofBuf v = v := rfl
theorem to_v17 (v : (⟨S800000x128, .f32⟩ : BufTy).Contents (Elt F)) : (TRef.of (T := ⟨S800000x128, .f32⟩) main_v17).toBuf v = v := rfl
theorem of_v23 (v : (⟨S50000x128, .f32⟩ : BufTy).Contents (Elt F)) : (TRef.of (T := ⟨S50000x128, .f32⟩) main_v23).ofBuf v = v := rfl
theorem to_v24 (v : (⟨S800000x128, .f32⟩ : BufTy).Contents (Elt F)) : (TRef.of (T := ⟨S800000x128, .f32⟩) main_v24).toBuf v = v := rfl
theorem of_v25 (v : (⟨S800000x128, .f32⟩ : BufTy).Contents (Elt F)) : (TRef.of (T := ⟨S800000x128, .f32⟩) main_v25).ofBuf v = v := rfl
theorem to_v26 (v : (⟨S800000x128, .f32⟩ : BufTy).Contents (Elt F)) : (TRef.of (T := ⟨S800000x128, .f32⟩) main_v26).toBuf v = v := rfl
theorem of_v32 (v : (⟨S50000x128, .f32⟩ : BufTy).Contents (Elt F)) : (TRef.of (T := ⟨S50000x128, .f32⟩) main_v32).ofBuf v = v := rfl
theorem to_v33 (v : (⟨S800000x128, .f32⟩ : BufTy).Contents (Elt F)) : (TRef.of (T := ⟨S800000x128, .f32⟩) main_v33).toBuf v = v := rfl
theorem of_v34 (v : (⟨S800000x128, .f32⟩ : BufTy).Contents (Elt F)) : (TRef.of (T := ⟨S800000x128, .f32⟩) main_v34).ofBuf v = v := rfl
theorem to_v35 (v : (⟨S800000x128, .f32⟩ : BufTy).Contents (Elt F)) : (TRef.of (T := ⟨S800000x128, .f32⟩) main_v35).toBuf v = v := rfl
end Boundary

variable {F : FTy → Type} [FloatOps F]

/-- The row take over any float values: the gather at the moved words, rows outside the range replaced by the fill word. -/
def takeF (h : FVec F S50000x128 .f32) (src : IVec S800000 32) : FVec F S800000x128 .f32 :=
  select (broadcastInDim S800000x128 ![0] bcast_S800000_S800000x128_0 (inRange src))
    (Host.gather gather_S50000x128_S800000x1_S800000x128_1_0_n_n_0_1_1128 h (wrapCol src))
    (broadcastInDim S800000x128 ![] bcast_S_S800000x128 (constant S_ .f32 0x7FC00000#32))

/-- The aggregation over any float values, from the node features, the widened gate, the source and destination words. -/
def aggCore (h : FVec F S50000x128 .f32) (g : FVec F S800000x128 .f32) (src dst : IVec S800000 32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (maximumf (addf (takeF h src) g) (broadcastInDim S800000x128 ![] bcast_S_S800000x128 (constant S_ .f32 0x00000000#32)))

variable (m : (ℓ : Loc nD τ sig) → Buf (Elt F) ℓ) (ρ : Dev nD → PrngReg)

set_option maxHeartbeats 4000000 in
/-- The first aggregate, from what the second pallas_call left. -/
theorem agg1 (c : Dev nD) : W9 m ρ c (Proc.devRef .tc main_v20)
    = aggCore (W4 m ρ c (Proc.devRef .tc main_v2)) (extf .f32 (W4 m ρ c (Proc.devRef .tc main_v9)) bitsLt_bf16_f32)
        (srcOf (W4 m ρ c (Proc.devRef .tc main_arg1))) (dstOf (W4 m ρ c (Proc.devRef .tc main_arg1))) := by
  show StableHlo.after hostOps2_4 (W8 m ρ c) (Proc.devRef .tc main_v20) = _
  after_results_simp
  simp only [ofBuf_toBuf, toBuf_ofBuf, of_v11, of_v2, to_v15, of_v16, to_v17]
  rfl

set_option maxHeartbeats 4000000 in
/-- The second aggregate, from what the third pallas_call left: the node features in its output array, the widened
    gate, the source words and the destination words still in their buffers. -/
theorem agg2 (c : Dev nD) : W14 m ρ c (Proc.devRef .tc main_v29)
    = aggCore (W10 m ρ c (Proc.devRef .tc main_v23)) (W10 m ρ c (Proc.devRef .tc main_v14))
        (W10 m ρ c (Proc.devRef .tc main_v11)) (W10 m ρ c (Proc.devRef .tc main_v13)) := by
  show StableHlo.after hostOps3_3 (W13 m ρ c) (Proc.devRef .tc main_v29) = _
  after_results_simp
  simp only [ofBuf_toBuf, toBuf_ofBuf, of_v11, of_v23, to_v24, of_v25, to_v26]
  rfl

set_option maxHeartbeats 4000000 in
/-- The third aggregate, from what the fourth pallas_call left. -/
theorem agg3 (c : Dev nD) : W19 m ρ c (Proc.devRef .tc main_v38)
    = aggCore (W15 m ρ c (Proc.devRef .tc main_v32)) (W15 m ρ c (Proc.devRef .tc main_v14))
        (W15 m ρ c (Proc.devRef .tc main_v11)) (W15 m ρ c (Proc.devRef .tc main_v13)) := by
  show StableHlo.after hostOps4_3 (W18 m ρ c) (Proc.devRef .tc main_v38) = _
  after_results_simp
  simp only [ofBuf_toBuf, toBuf_ofBuf, of_v11, of_v32, to_v33, of_v34, to_v35]
  rfl

end Cert.KernelIdeal.Fold

end
-- ==== Proof.KRegion0.lean ====
/-
  The first pallas_call, read as a value: ten grid points, point t computing rows 5000·t … 5000·t + 4999 of the node
  embedding from the same rows of `z` and the whole weight and bias arrays. After the run the output array is the
  perceptron applied to every row of `z`.
-/
import proofs.«406182_j75024488726862_2_alg».proof.Proof.Gen.KernelIdeal.Frame
import proofs.«406182_j75024488726862_2_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region0

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)
/-! ## The first product: rows of width 5 against the 5 × 128 weights -/

theorem layer1_lhs_row (i : S5000x128.Idx) (q : dot_S5000x5_S5x128_S5000x128_1_0_0_1_n_n.contr.Idx) :
    (dot_S5000x5_S5x128_S5000x128_1_0_0_1_n_n.lhsIdx i q 0).val = (i 0).val := by
  unfold DotDims.lhsIdx
  rw [dif_neg (show ¬(0 : Fin S5000x5.rank) ∈ dot_S5000x5_S5x128_S5000x128_1_0_0_1_n_n.lhsBatch by decide), dif_pos (show (0 : Fin S5000x5.rank) ∈ dot_S5000x5_S5x128_S5000x128_1_0_0_1_n_n.lhsNonContracting by decide)]
  rfl
theorem layer1_lhs_col (i : S5000x128.Idx) (q : dot_S5000x5_S5x128_S5000x128_1_0_0_1_n_n.contr.Idx) :
    (dot_S5000x5_S5x128_S5000x128_1_0_0_1_n_n.lhsIdx i q 1).val = (q ⟨0, by decide⟩).val :=
  dot_S5000x5_S5x128_S5000x128_1_0_0_1_n_n.lhsIdx_val_of_single rfl i q
theorem layer1_rhs_row (i : S5000x128.Idx) (q : dot_S5000x5_S5x128_S5000x128_1_0_0_1_n_n.contr.Idx) :
    (dot_S5000x5_S5x128_S5000x128_1_0_0_1_n_n.rhsIdx i q 0).val = (q ⟨0, by decide⟩).val :=
  dot_S5000x5_S5x128_S5000x128_1_0_0_1_n_n.rhsIdx_val_of_single rfl i q
theorem layer1_rhs_col (i : S5000x128.Idx) (q : dot_S5000x5_S5x128_S5000x128_1_0_0_1_n_n.contr.Idx) :
    (dot_S5000x5_S5x128_S5000x128_1_0_0_1_n_n.rhsIdx i q 1).val = (i 1).val := by
  unfold DotDims.rhsIdx
  rw [dif_neg (show ¬(1 : Fin S5x128.rank) ∈ dot_S5000x5_S5x128_S5000x128_1_0_0_1_n_n.rhsBatch by decide), dif_pos (show (1 : Fin S5x128.rank) ∈ dot_S5000x5_S5x128_S5000x128_1_0_0_1_n_n.rhsNonContracting by decide)]
  rfl

/-- Entry (p, q) of the first product into the zero accumulator is the sum over the 5 columns. -/
theorem layer1_apply (a : FVec Ideal S5000x5 .bf16) (b : FVec Ideal S5x128 .bf16) (p : Fin 5000) (q : Fin 128) :
    matmul dot_S5000x5_S5x128_S5000x128_1_0_0_1_n_n none a b (constant S5000x128 .f32 0x00000000#32) (ix2 p q)
      = ∑ k : Fin 5, a (ix2 p k) * b (ix2 k q) := by
  simp only [matmul]
  rw [Ideal.matmul_constant_zero_apply, ← Equiv.sum_comp (contrEquiv1 dot_S5000x5_S5x128_S5000x128_1_0_0_1_n_n 5 rfl rfl).symm]
  refine Finset.sum_congr rfl fun k _ => ?_
  have hk := contrEquiv1_symm_val dot_S5000x5_S5x128_S5000x128_1_0_0_1_n_n 5 rfl rfl k
  have el : dot_S5000x5_S5x128_S5000x128_1_0_0_1_n_n.lhsIdx (ix2 p q) ((contrEquiv1 dot_S5000x5_S5x128_S5000x128_1_0_0_1_n_n 5 rfl rfl).symm k) = ix2 p k := funext fun a => Fin.ext (by
    match a with
    | ⟨0, _⟩ => exact layer1_lhs_row _ _
    | ⟨1, _⟩ => exact (layer1_lhs_col _ _).trans hk)
  have er : dot_S5000x5_S5x128_S5000x128_1_0_0_1_n_n.rhsIdx (ix2 p q) ((contrEquiv1 dot_S5000x5_S5x128_S5000x128_1_0_0_1_n_n 5 rfl rfl).symm k) = ix2 k q := funext fun a => Fin.ext (by
    match a with
    | ⟨0, _⟩ => exact (layer1_rhs_row _ _).trans hk
    | ⟨1, _⟩ => exact layer1_rhs_col _ _)
  rw [el, er]

/-! ## The second product: hidden rows of width 128 against the 128 × 128 weights -/

theorem layer2_lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem layer2_lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem layer2_rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem layer2_rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of the second product into the zero accumulator is the sum over the 128 hidden columns. -/
theorem layer2_apply (a : FVec Ideal S5000x128 .bf16) (b : FVec Ideal S128x128 .bf16) (p : Fin 5000) (q : Fin 128) :
    matmul dot_S5000x128_S128x128_S5000x128_1_0_0_1_n_n none a b (constant S5000x128 .f32 0x00000000#32) (ix2 p q)
      = ∑ k : Fin 128, a (ix2 p k) * b (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact layer2_lhs_row _ _
    | ⟨1, _⟩ => exact (layer2_lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (layer2_rhs_row _ _).trans hk
    | ⟨1, _⟩ => exact layer2_rhs_col _ _)
  rw [el, er]

/-! ## A bias row spread over the 5000 rows of a block -/

/-- The 1 × 128 bias, cast to its own shape and repeated down the rows, reads its column's entry in every row. -/
theorem bias_row_apply (b : Vec Ideal S1x128 .f32) (h1 : S1x128.ShapeCasts S1x128) (h2 : S1x128.Broadcasts S5000x128)
    (p : Fin 5000) (q : Fin 128) :
    broadcastTo S5000x128 (shapeCast S1x128 b h1) h2 (ix2 p q) = b (ix2 0 q) := by
  rw [shapeCast_self]
  refine broadcastTo_apply b h2 (ix2 p q) (ix2 0 q) fun a => ?_
  match a with
  | ⟨0, _⟩ => rfl
  | ⟨1, _⟩ => rfl

/-! ## The body's arithmetic at an entry of the output block -/

/-- Entry (p, q) of what the body stores is the two-layer perceptron of row p of the loaded rows, at column q. -/
theorem stored_entry (x0 : Vec Ideal S5000x5 .f32) (x1 : Vec Ideal S5x128 .f32) (x2 : Vec Ideal S1x128 .f32)
    (x3 : Vec Ideal S128x128 .f32) (x4 : Vec Ideal S1x128 .f32) (p : Fin 5000) (q : Fin 128) :
    k0_pay1 (F := Ideal) x0 x1 x2 x3 x4 (ix2 p q)
      = mlpRow (fun k => x0 (ix2 p k)) x1 (fun j => x2 (ix2 0 j)) x3 (fun j => x4 (ix2 0 j)) q := by
  unfold k0_pay1
  unfold mlpRow lin
  rw [addf_apply, layer2_apply, bias_row_apply]
  refine congrArg (· + x4 (ix2 0 q)) (Finset.sum_congr rfl fun k _ => ?_)
  rw [truncf_apply, truncf_apply, maximumf_apply, addf_apply, layer1_apply, bias_row_apply, broadcast_apply]
  rfl

/-! ## From the ten blocks to the array -/

/-- A whole-buffer access sits at offset zero on both axes. -/
theorem offsets_zero : (![0, 0] : Fin 2 → Nat) = fun _ => 0 := funext fun a => by fin_cases a <;> rfl

/-- The printed index maps, decided once over the ten points: the row-tiled windows (`z` and the output) sit at block
    t of the row axis, the weight and bias windows at block 0 on both axes. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- One entry of a block against one entry of the array: if the loaded rows are rows of `z` (row p of the block is the
    array index's row), the other loaded blocks are the whole weight and bias arrays, and the block's column is the
    array index's column, then what the body stores there is the node embedding at that array index. -/
theorem entry_of_block (z : Arr 50000 5) (wa : Arr 5 128) (ba : Arr 1 128) (wb : Arr 128 128) (bb : Arr 1 128)
    (x0 : Vec Ideal S5000x5 .f32) (x1 : Vec Ideal S5x128 .f32) (x2 : Vec Ideal S1x128 .f32)
    (x3 : Vec Ideal S128x128 .f32) (x4 : Vec Ideal S1x128 .f32) (p : Fin 5000) (q : Fin 128) (i : (Sh 50000 128).Idx)
    (h0 : ∀ k : Fin 5, x0 (ix2 p k) = z (ix2 (rowOf i) k)) (h1 : x1 = wa) (h2 : x2 = ba) (h3 : x3 = wb) (h4 : x4 = bb)
    (hc : colOf i = q) :
    k0_pay1 (F := Ideal) x0 x1 x2 x3 x4 (ix2 p q)
      = embed z wa (fun j => ba (ix2 0 j)) wb (fun j => bb (ix2 0 j)) i := by
  subst h1 h2 h3 h4
  rw [stored_entry, (funext h0 : (fun k => x0 (ix2 p k)) = fun k => z (ix2 (rowOf i) k))]
  unfold embed
  exact congrArg _ hc.symm

-- the TensorCore's buffer contents when the region is entered: any
variable (V : (c : Dev nD) → (b : Ref sig .tc) → Buf (Elt Ideal) ((c : Thread nD τ).loc b))

/-- What point t writes back is block t of the node embedding of the arrays as the region found them: an element of
    a block sits in its array, on each axis, at block index × block size + 1 × its coordinate in the block. -/
theorem point_writes_block (c : Dev nD) (t : Fin cfg0.N) :
    (dat0 (F := Ideal) V c).flushed 5 t = ((cfg0.win 5).blk t).view.read (Elt Ideal)
      (embed (V c main_arg0) (V c main_arg4) (fun j => V c main_v0 (ix2 0 j)) (V c main_arg6) (fun j => V c main_v1 (ix2 0 j))) := by
  show (cfg0.win 5).cut (grid0.coords t) ((dat0 V c).after 5 t) = _
  rw [after0_5]
  unfold out0_5
  rw [View.canon_unit_zero offsets_zero]
  simp only [View.ld_unit_zero (S := S5000x5) offsets_zero, View.ld_unit_zero (S := S5x128) offsets_zero,
    View.ld_unit_zero (S := S1x128) offsets_zero, View.ld_unit_zero (S := S128x128) offsets_zero]
  obtain ⟨e00, e01, e10, e11, e20, e21, e30, e31, e40, e41, e50, e51⟩ := block_indices t
  funext j
  show k0_pay1 (F := Ideal) (iblk0 V c 0 t) (iblk0 V c 1 t) (iblk0 V c 2 t) (iblk0 V c 3 t) (iblk0 V c 4 t)
      ((cfg0.win 5).xinj (grid0.coords t) j)
    = embed (V c main_arg0) (V c main_arg4) (fun j => V c main_v0 (ix2 0 j)) (V c main_arg6) (fun j => V c main_v1 (ix2 0 j))
        (((cfg0.win 5).blk t).view.emb j)
  refine (congrArg (k0_pay1 (F := Ideal) (iblk0 V c 0 t) (iblk0 V c 1 t) (iblk0 V c 2 t) (iblk0 V c 3 t) (iblk0 V c 4 t))
    (eq_ix2 (n0 := 5000) (n1 := 128) ((cfg0.win 5).xinj (grid0.coords t) j))).trans ?_
  refine entry_of_block (V c main_arg0) (V c main_arg4) (V c main_v0) (V c main_arg6) (V c main_v1) _ _ _ _ _ _ _ _ ?_ ?_ ?_ ?_ ?_ ?_
  · intro k
    show V c main_arg0 (((cfg0.win 0).blk t).view.emb (ix2 _ k)) = V c main_arg0 _
    refine congrArg _ (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 5 + 1 * k.val = k.val; omega
  · funext y
    show V c main_arg4 (((cfg0.win 1).blk t).view.emb y) = V c main_arg4 y
    refine congrArg _ (funext fun a => Fin.ext ?_)
    match a with
    | ⟨0, _⟩ => show win0_1.index t (0 : Fin 2) * 5 + 1 * (y 0).val = (y 0).val; omega
    | ⟨1, _⟩ => show win0_1.index t (1 : Fin 2) * 128 + 1 * (y 1).val = (y 1).val; omega
  · funext y
    show V c main_v0 (((cfg0.win 2).blk t).view.emb y) = V c main_v0 y
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega
  · funext y
    show V c main_arg6 (((cfg0.win 3).blk t).view.emb y) = V c main_arg6 y
    refine congrArg _ (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  · funext y
    show V c main_v1 (((cfg0.win 4).blk t).view.emb y) = V c main_v1 y
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 128 + 1 * (y 1).val = (y 1).val; omega
  · refine Fin.ext ?_
    show win0_5.index t (1 : Fin 2) * 128 + 1 * (j 1).val = (j 1).val
    omega

/-- An index of the output array is in point t's block iff each coordinate is in the block's range on its axis. -/
theorem mem_block (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v2).slice (win0_5.rect t)).set ↔ _
  rw [View.set_slice_whole, Rect.mem_set_unit]
  exact Iff.rfl

/-- The ten blocks of 5000 rows cover the 50000 rows: row r lies in the block of point r / 5000. -/
theorem rows_covered (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : grid0.N = 10 := N_0
  obtain ⟨t, ht⟩ : ∃ t : Fin cfg0.N, t.val = (i 0).val / 5000 :=
    ⟨⟨(i 0).val / 5000, by show (i 0).val / 5000 < grid0.N; omega⟩, rfl⟩
  obtain ⟨-, -, -, -, -, -, -, -, -, -, e50, e51⟩ := block_indices t
  refine ⟨t, flush0_5 t, ?_⟩
  rw [mem_block]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- After the ten points the output array is the node embedding of the arrays as the region found them. -/
theorem value (c : Dev nD) :
    (dat0 (F := Ideal) V c).arrAt 5 cfg0.N
      = Spec.embed (V c main_arg0) (V c main_arg4) (fun j => V c main_v0 (ix2 0 j)) (V c main_arg6) (fun j => V c main_v1 (ix2 0 j)) :=
  (dat0 V c).arrAt_eq_of_cover 5 _ (fun t _ => point_writes_block V c t) rows_covered

end Cert.KernelIdeal.Region0

end
-- ==== Proof.KRegion1.lean ====
/-
  The second pallas_call, read as a value: 125 grid points, point t computing rows 6400·t … 6400·t + 6399 of the edge
  gate from the same rows of the edge attributes and of the mask column. After the run the output array is the
  perceptron applied to every row of the edge attributes, each row times its mask entry.
-/
import proofs.«406182_j75024488726862_2_alg».proof.Proof.Gen.KernelIdeal.Frame
import proofs.«406182_j75024488726862_2_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region1

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

/-! ## The body's arithmetic at an entry -/

/-- The operand indices of the gate's matrix products, axis by axis: the left operand is read at (row, k), the right at
    (k, column). -/
theorem lhs_gate_0 (i : S6400x128.Idx) (q : dot_S6400x128_S128x128_S6400x128_1_0_0_1_n_n.contr.Idx) :
    (dot_S6400x128_S128x128_S6400x128_1_0_0_1_n_n.lhsIdx i q 0).val = (i 0).val := by
  unfold DotDims.lhsIdx
  rw [dif_neg (show ¬(0 : Fin S6400x128.rank) ∈ dot_S6400x128_S128x128_S6400x128_1_0_0_1_n_n.lhsBatch by decide), dif_pos (show (0 : Fin S6400x128.rank) ∈ dot_S6400x128_S128x128_S6400x128_1_0_0_1_n_n.lhsNonContracting by decide)]
  rfl
theorem lhs_gate_1 (i : S6400x128.Idx) (q : dot_S6400x128_S128x128_S6400x128_1_0_0_1_n_n.contr.Idx) :
    (dot_S6400x128_S128x128_S6400x128_1_0_0_1_n_n.lhsIdx i q 1).val = (q ⟨0, by decide⟩).val :=
  dot_S6400x128_S128x128_S6400x128_1_0_0_1_n_n.lhsIdx_val_of_single rfl i q
theorem rhs_gate_0 (i : S6400x128.Idx) (q : dot_S6400x128_S128x128_S6400x128_1_0_0_1_n_n.contr.Idx) :
    (dot_S6400x128_S128x128_S6400x128_1_0_0_1_n_n.rhsIdx i q 0).val = (q ⟨0, by decide⟩).val :=
  dot_S6400x128_S128x128_S6400x128_1_0_0_1_n_n.rhsIdx_val_of_single rfl i q
theorem rhs_gate_1 (i : S6400x128.Idx) (q : dot_S6400x128_S128x128_S6400x128_1_0_0_1_n_n.contr.Idx) :
    (dot_S6400x128_S128x128_S6400x128_1_0_0_1_n_n.rhsIdx i q 1).val = (i 1).val := by
  unfold DotDims.rhsIdx
  rw [dif_neg (show ¬(1 : Fin S128x128.rank) ∈ dot_S6400x128_S128x128_S6400x128_1_0_0_1_n_n.rhsBatch by decide), dif_pos (show (1 : Fin S128x128.rank) ∈ dot_S6400x128_S128x128_S6400x128_1_0_0_1_n_n.rhsNonContracting by decide)]
  rfl

/-- A block's rows against a matrix, into the zero accumulator: entry (p, q) is the sum over k of a (p, k) · b (k, q). -/
theorem matmul_gate_apply {φ₁ φ₂ : FTy} (a : FVec Ideal S6400x128 φ₁) (b : FVec Ideal S128x128 φ₂) (p : Fin 6400) (q : Fin 128) :
    matmul dot_S6400x128_S128x128_S6400x128_1_0_0_1_n_n none a b (constant S6400x128 .f32 0x00000000#32) (ix2 p q)
      = ∑ k : Fin 128, a (ix2 p k) * b (ix2 k q) := by
  simp only [matmul]
  rw [Ideal.matmul_constant_zero_apply, ← Equiv.sum_comp (ValueIdx.contrEquiv1 dot_S6400x128_S128x128_S6400x128_1_0_0_1_n_n 128 rfl rfl).symm]
  refine Finset.sum_congr rfl fun k _ => ?_
  have hk := ValueIdx.contrEquiv1_symm_val dot_S6400x128_S128x128_S6400x128_1_0_0_1_n_n 128 rfl rfl k
  have el : dot_S6400x128_S128x128_S6400x128_1_0_0_1_n_n.lhsIdx (ix2 p q) ((ValueIdx.contrEquiv1 dot_S6400x128_S128x128_S6400x128_1_0_0_1_n_n 128 rfl rfl).symm k) = ix2 p k := funext fun a => Fin.ext (by
    match a with
    | ⟨0, _⟩ => exact lhs_gate_0 _ _
    | ⟨1, _⟩ => exact (lhs_gate_1 _ _).trans hk)
  have er : dot_S6400x128_S128x128_S6400x128_1_0_0_1_n_n.rhsIdx (ix2 p q) ((ValueIdx.contrEquiv1 dot_S6400x128_S128x128_S6400x128_1_0_0_1_n_n 128 rfl rfl).symm k) = ix2 k q := funext fun a => Fin.ext (by
    match a with
    | ⟨0, _⟩ => exact (rhs_gate_0 _ _).trans hk
    | ⟨1, _⟩ => exact rhs_gate_1 _ _)
  rw [el, er]

/-- A column [a, 1] broadcast to [a, b] reads, at (p, c), the column's entry p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- THE BODY'S ARITHMETIC AT AN ENTRY. Entry (p, q) of what a grid point stores is the perceptron on row p of its block of
    edge attributes, at column q, times entry p of its block of the mask column: the narrowing casts are the identity on
    the extended reals, each matrix product into the zero accumulator is the plain sum, the two bias rows are broadcast
    down the rows and the mask column across the columns. -/
theorem pay_apply (x0 : Vec Ideal S6400x128 .f32) (wa : Vec Ideal S128x128 .f32) (ba : Vec Ideal S1x128 .f32)
    (wb : Vec Ideal S128x128 .f32) (bb : Vec Ideal S1x128 .f32) (mk : Vec Ideal S6400x1 .f32) (p : Fin 6400) (q : Fin 128) :
    k1_pay1 (F := Ideal) x0 wa ba wb bb mk (ix2 p q)
      = Spec.mlpRow (fun k => x0 (ix2 p k)) wa (fun j => ba (ix2 0 j)) wb (fun j => bb (ix2 0 j)) q * mk (ix2 p 0) := by
  unfold k1_pay1
  simp only [shapeCast_self]
  rw [truncf_apply, mulf_apply, addf_apply, broadcastTo_a1_ab_apply, broadcastTo_1b_ab_apply, matmul_gate_apply]
  unfold Spec.mlpRow Spec.lin
  refine congrArg (· * mk (ix2 p 0)) (congrArg (· + bb (ix2 0 q)) (Finset.sum_congr rfl fun k _ => ?_))
  rw [truncf_apply, truncf_apply, maximumf_apply, addf_apply, matmul_gate_apply, broadcastTo_1b_ab_apply, broadcast_apply]
  unfold Spec.hidden Spec.lin
  rfl

/-! ## From blocks to the array -/

-- the TensorCore's buffer contents when the region is entered: any
variable (V : (c : Dev nD) → (b : Ref sig .tc) → Buf (Elt Ideal) ((c : Thread nD τ).loc b))

/-- The zero block offsets, however they are spelt. -/
theorem zero_offsets : (![0, 0] : Fin 2 → Nat) = fun _ => 0 := funext fun a => by fin_cases a <;> rfl

/-- The printed index maps over the 125 points: the row-tiled operands (edge attributes, mask column) and the output are
    at block (t, 0) at point t; the weights and bias rows stay at block (0, 0). -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Window 0's block at point t: rows 6400·t … 6400·t + 6399 of the edge attributes. -/
theorem attr_blk_apply (c : Dev nD) (t : Fin cfg1.N) (p : Fin 6400) (k : Fin 128) (i : S800000x128.Idx)
    (hi0 : (i 0).val = 6400 * t.val + p.val) (hi1 : (i 1).val = k.val) :
    (iblk1 V c 0 t : Vec Ideal S6400x128 .f32) (ix2 p k) = (V c main_arg2 : S800000x128.Idx → EReal) i := by
  obtain ⟨e0, e1, -⟩ := block_indices t
  show V c main_arg2 (((cfg1.win 0).blk t).view.emb (ix2 p k)) = V c main_arg2 i
  refine congrArg _ (funext fun a => Fin.ext ?_)
  match a with
  | ⟨0, _⟩ => show win1_0.index t (0 : Fin 2) * 6400 + 1 * p.val = (i 0).val; omega
  | ⟨1, _⟩ => show win1_0.index t (1 : Fin 2) * 128 + 1 * k.val = (i 1).val; omega

/-- Window 1's block at point t: entries 6400·t … 6400·t + 6399 of the mask column. -/
theorem mask_blk_apply (c : Dev nD) (t : Fin cfg1.N) (p : Fin 6400) (i : S800000x1.Idx)
    (hi0 : (i 0).val = 6400 * t.val + p.val) :
    (iblk1 V c 1 t : Vec Ideal S6400x1 .f32) (ix2 p 0) = (V c main_v6 : S800000x1.Idx → EReal) i := by
  obtain ⟨-, -, e0, e1, -⟩ := block_indices t
  have hi1 : (i 1).val < 1 := (i 1).isLt
  show V c main_v6 (((cfg1.win 1).blk t).view.emb (ix2 p 0)) = V c main_v6 i
  refine congrArg _ (funext fun a => Fin.ext ?_)
  match a with
  | ⟨0, _⟩ => show win1_1.index t (0 : Fin 2) * 6400 + 1 * p.val = (i 0).val; omega
  | ⟨1, _⟩ => show win1_1.index t (1 : Fin 2) * 1 + 1 * 0 = (i 1).val; omega

/-- The weight and bias windows stage their whole array at every point. -/
theorem wa_blk_eq (c : Dev nD) (t : Fin cfg1.N) :
    (iblk1 V c 2 t : Vec Ideal S128x128 .f32) = (V c main_arg12 : S128x128.Idx → EReal) := by
  obtain ⟨-, -, -, -, e0, e1, -⟩ := block_indices t
  funext y
  show V c main_arg12 (((cfg1.win 2).blk t).view.emb y) = V c main_arg12 y
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega
theorem ba_blk_eq (c : Dev nD) (t : Fin cfg1.N) :
    (iblk1 V c 3 t : Vec Ideal S1x128 .f32) = (V c main_v7 : S1x128.Idx → EReal) := by
  obtain ⟨-, -, -, -, -, -, e0, e1, -⟩ := block_indices t
  funext y
  show V c main_v7 (((cfg1.win 3).blk t).view.emb y) = V c main_v7 y
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega
theorem wb_blk_eq (c : Dev nD) (t : Fin cfg1.N) :
    (iblk1 V c 4 t : Vec Ideal S128x128 .f32) = (V c main_arg14 : S128x128.Idx → EReal) := by
  obtain ⟨-, -, -, -, -, -, -, -, e0, e1, -⟩ := block_indices t
  funext y
  show V c main_arg14 (((cfg1.win 4).blk t).view.emb y) = V c main_arg14 y
  refine congrArg _ (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega
theorem bb_blk_eq (c : Dev nD) (t : Fin cfg1.N) :
    (iblk1 V c 5 t : Vec Ideal S1x128 .f32) = (V c main_v8 : S1x128.Idx → EReal) := by
  obtain ⟨-, -, -, -, -, -, -, -, -, -, e0, e1, -⟩ := block_indices t
  funext y
  show V c main_v8 (((cfg1.win 5).blk t).view.emb y) = V c main_v8 y
  refine congrArg _ (funext fun a => Fin.ext ?_)
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- The edge gate of the operand arrays as the region finds them. -/
abbrev gateOf (c : Dev nD) : Spec.Arr 800000 128 :=
  Spec.gate (V c main_arg2) (fun e => V c main_v6 (ix2 e 0)) (V c main_arg12) (fun j => V c main_v7 (ix2 0 j)) (V c main_arg14) (fun j => V c main_v8 (ix2 0 j))

/-- Entry (p, q) of what point t computes is the gate at row 6400·t + p, column q. -/
theorem point_entry (c : Dev nD) (t : Fin cfg1.N) (p : Fin 6400) (q : Fin 128) (i : S800000x128.Idx)
    (hi0 : (i 0).val = 6400 * t.val + p.val) (hi1 : (i 1).val = q.val) :
    k1_pay1 (F := Ideal) (iblk1 V c 0 t) (iblk1 V c 2 t) (iblk1 V c 3 t) (iblk1 V c 4 t) (iblk1 V c 5 t) (iblk1 V c 1 t) (ix2 p q)
      = gateOf V c i := by
  refine (pay_apply _ _ _ _ _ _ p q).trans ?_
  have hq : Spec.colOf i = q := Fin.ext hi1
  have h0 : (fun k => (iblk1 V c 0 t : Vec Ideal S6400x128 .f32) (ix2 p k)) = fun k => V c main_arg2 (ix2 (Spec.rowOf i) k) :=
    funext fun k => attr_blk_apply V c t p k _ hi0 rfl
  have h1 : (iblk1 V c 1 t : Vec Ideal S6400x1 .f32) (ix2 p 0) = V c main_v6 (ix2 (Spec.rowOf i) 0) :=
    mask_blk_apply V c t p _ hi0
  rw [h0, h1, wa_blk_eq, ba_blk_eq, wb_blk_eq, bb_blk_eq]
  unfold gateOf Spec.gate
  rw [hq]

/-- WHAT POINT t WRITES BACK is block t of the gate: the body's one store through the whole staging buffer leaves its
    payload, each load through a whole block reads the block, and the payload at an entry is the gate at that entry's place
    in the array. -/
theorem point_writes_gate_block (c : Dev nD) (t : Fin cfg1.N) :
    (dat1 (F := Ideal) V c).flushed 6 t = ((cfg1.win 6).blk t).view.read (Elt Ideal) (gateOf V c) := by
  show (cfg1.win 6).cut (grid1.coords t) ((dat1 V c).after 6 t) = _
  rw [after1_6]
  unfold out1_6
  rw [View.canon_unit_zero zero_offsets]
  simp only [View.ld_unit_zero (S := S6400x128) zero_offsets, View.ld_unit_zero (S := S128x128) zero_offsets,
    View.ld_unit_zero (S := S1x128) zero_offsets, View.ld_unit_zero (S := S6400x1) zero_offsets]
  obtain ⟨-, -, -, -, -, -, -, -, -, -, -, -, e0, e1⟩ := block_indices t
  funext j
  obtain ⟨p, q, rfl⟩ : ∃ (p : Fin 6400) (q : Fin 128), j = ix2 p q := ⟨j 0, j 1, eq_ix2 j⟩
  show k1_pay1 (F := Ideal) (iblk1 V c 0 t) (iblk1 V c 2 t) (iblk1 V c 3 t) (iblk1 V c 4 t) (iblk1 V c 5 t) (iblk1 V c 1 t) (ix2 p q)
    = gateOf V c (((cfg1.win 6).blk t).view.emb (ix2 p q))
  refine point_entry V c t p q _ ?_ ?_
  · show win1_6.index t (0 : Fin 2) * 6400 + 1 * p.val = 6400 * t.val + p.val; omega
  · show win1_6.index t (1 : Fin 2) * 128 + 1 * q.val = q.val; omega

/-- An index of the output array is in point t's block iff each coordinate is in the block's range on its axis. -/
theorem mem_out_block (t : Fin cfg1.N) (i : S800000x128.Idx) :
    i ∈ ((cfg1.win 6).blk t).view.set ↔ ∀ a : Fin 2, win1_6.index t a * S6400x128.size a ≤ (i a).val ∧ (i a).val < win1_6.index t a * S6400x128.size a + S6400x128.size a := by
  show i ∈ ((View.whole main_v9).slice (win1_6.rect t)).set ↔ _
  rw [View.set_slice_whole, Rect.mem_set_unit]
  exact Iff.rfl

/-- The 125 blocks of 6400 rows tile the 800000 rows: row r is in the block of point r / 6400. -/
theorem out_blocks_cover (i : S800000x128.Idx) :
    ∃ t : Fin cfg1.N, (cfg1.win 6).flush t = true ∧ i ∈ ((cfg1.win 6).blk t).view.set := by
  have hi0 : (i 0).val < 800000 := (i 0).isLt
  have hi1 : (i 1).val < 128 := (i 1).isLt
  have hN : grid1.N = 125 := N_1
  obtain ⟨t, ht⟩ : ∃ t : Fin cfg1.N, t.val = (i 0).val / 6400 := ⟨⟨(i 0).val / 6400, by show _ < grid1.N; rw [hN]; omega⟩, rfl⟩
  obtain ⟨-, -, -, -, -, -, -, -, -, -, -, -, e0, e1⟩ := block_indices t
  refine ⟨t, flush1_6 t, ?_⟩
  rw [mem_out_block]
  intro a
  match a with
  | ⟨0, _⟩ => show win1_6.index t (0 : Fin 2) * 6400 ≤ (i 0).val ∧ (i 0).val < win1_6.index t (0 : Fin 2) * 6400 + 6400; omega
  | ⟨1, _⟩ => show win1_6.index t (1 : Fin 2) * 128 ≤ (i 1).val ∧ (i 1).val < win1_6.index t (1 : Fin 2) * 128 + 128; omega

/-- THE OUTPUT ARRAY AFTER THE RUN is the edge gate of the operand arrays as the region finds them: every point writes back
    its block of the gate, and the blocks cover the array. -/
theorem value (c : Dev nD) :
    (dat1 (F := Ideal) V c).arrAt 6 cfg1.N
      = Spec.gate (V c main_arg2) (fun e => V c main_v6 (ix2 e 0)) (V c main_arg12) (fun j => V c main_v7 (ix2 0 j)) (V c main_arg14) (fun j => V c main_v8 (ix2 0 j)) :=
  (dat1 V c).arrAt_eq_of_cover 6 (gateOf V c) (fun t _ => point_writes_gate_block V c t) out_blocks_cover

end Cert.KernelIdeal.Region1

end
-- ==== Proof.KRegion2.lean ====
/-
  The third pallas_call (the first node update), read as a value: ten grid points, point t computing rows
  5000·t … 5000·t + 4999 from the same rows of the aggregate and of the node features. After the run the output array
  is the activated node update of the two arrays.
-/
import proofs.«406182_j75024488726862_2_alg».proof.Proof.Gen.KernelIdeal.Frame
import proofs.«406182_j75024488726862_2_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region2

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

/-! ## The contraction of a [5000,128] block with a [128,128] matrix, at an index -/

theorem dotL0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem dotL1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem dotR0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem dotR1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of the product into the zero accumulator: row p of the left block against column q of the matrix. -/
theorem matmul_at {φ₁ φ₂ : FTy} (a : FVec Ideal S5000x128 φ₁) (w : FVec Ideal S128x128 φ₂) (p : Fin 5000) (q : Fin 128) :
    matmul dot_S5000x128_S128x128_S5000x128_1_0_0_1_n_n none a w (constant S5000x128 .f32 0x00000000#32) (ix2 p q)
      = ∑ k : Fin 128, a (ix2 p k) * w (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact dotL0 _ _
    | ⟨1, _⟩ => exact (dotL1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (dotR0 _ _).trans hk
    | ⟨1, _⟩ => exact dotR1 _ _)
  rw [el, er]

/-! ## The body's arithmetic at an index -/

/-- A [1,128] bias row broadcast over the 5000 rows, read at (p, q): entry q of the row. -/
theorem bias_at (b : FVec Ideal S1x128 .f32) (h : S1x128.Broadcasts S5000x128) (p : Fin 5000) (q : Fin 128) :
    broadcastTo S5000x128 b h (ix2 p q) = b (ix2 0 q) :=
  broadcastTo_apply b h (ix2 p q) (ix2 0 q) (fun a => by
    match a with
    | ⟨0, _⟩ => rfl
    | ⟨1, _⟩ => rfl)

set_option maxHeartbeats 400000 in
/-- The stored block at (p, q): the perceptron on row p of `agg + 1 · h`, clamped at zero, plus `h` at (p, q). -/
theorem payload_at (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k2_pay1 (F := Ideal) x0 x1 x2 x3 x4 x5 x1 (ix2 p q)
      = max (Spec.mlpRow (fun k => x0 (ix2 p k) + oneW * x1 (ix2 p k)) x2 (fun j => x3 (ix2 0 j)) x4 (fun j => x5 (ix2 0 j)) q) zeroW
        + x1 (ix2 p q) := by
  unfold k2_pay1
  simp only [shapeCast_self, addf_apply, maximumf_apply, mulf_apply, truncf_apply, broadcast_apply, matmul_at, bias_at]
  rfl

/-! ## From blocks to the array -/

/-- The body's arithmetic on blocks that are row p ↦ row r of the two row-tiled arrays, and the whole weight and bias arrays:
    the node update of the arrays at (r, q). -/
theorem block_row (A H : Arr 50000 128) (Wa : Arr 128 128) (Ba : Arr 1 128) (Wb : Arr 128 128) (Bb : Arr 1 128)
    (x0 x1 : Vec Ideal S5000x128 .f32) (x2 : Vec Ideal S128x128 .f32) (x3 : Vec Ideal S1x128 .f32)
    (x4 : Vec Ideal S128x128 .f32) (x5 : Vec Ideal S1x128 .f32) (r : Fin 50000) (p : Fin 5000) (q : Fin 128)
    (h0 : ∀ k, x0 (ix2 p k) = A (ix2 r k)) (h1 : ∀ k, x1 (ix2 p k) = H (ix2 r k))
    (h2 : x2 = Wa) (h3 : x3 = Ba) (h4 : x4 = Wb) (h5 : x5 = Bb) :
    k2_pay1 (F := Ideal) x0 x1 x2 x3 x4 x5 x1 (ix2 p q)
      = Spec.updRelu A H Wa (fun j => Ba (ix2 0 j)) Wb (fun j => Bb (ix2 0 j)) (ix2 r q) := by
  rw [payload_at, h2, h3, h4, h5]
  simp only [h0, h1]
  rfl

-- the TensorCore's buffer contents when the region is entered: any
variable (V : (c : Dev nD) → (b : Ref sig .tc) → Buf (Elt Ideal) ((c : Thread nD τ).loc b))

theorem zeros2 : (![0, 0] : Fin 2 → Nat) = fun _ => 0 := funext fun a => by fin_cases a <;> rfl

/-- The printed index maps over the grid: the row-tiled windows sit at block (t, 0), the whole-operand windows at block (0, 0). -/
theorem index_maps : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Row p of the aggregate's block at point t is row 5000·t + p of the aggregate. -/
theorem agg_block (c : Dev nD) (t : Fin cfg2.N) (p : Fin 5000) (k : Fin 128) (r : Fin 50000) (hr : r.val = t.val * 5000 + p.val) :
    (iblk2 V c 0 t : Vec Ideal S5000x128 .f32) (ix2 p k) = (V c main_v20 : Arr 50000 128) (ix2 r k) := by
  obtain ⟨e0, e1, -⟩ := index_maps t
  unfold iblk2
  rw [View.read_apply]
  show V c main_v20 (((cfg2.win 0).blk t).view.emb (ix2 p k)) = V c main_v20 (ix2 r k)
  refine congrArg _ (funext fun a => Fin.ext ?_)
  match a with
  | ⟨0, _⟩ => show win2_0.index t (0 : Fin 2) * 5000 + 1 * p.val = r.val; omega
  | ⟨1, _⟩ => show win2_0.index t (1 : Fin 2) * 128 + 1 * k.val = k.val; omega

/-- Row p of the node features' block at point t is row 5000·t + p of the node features. -/
theorem feat_block (c : Dev nD) (t : Fin cfg2.N) (p : Fin 5000) (k : Fin 128) (r : Fin 50000) (hr : r.val = t.val * 5000 + p.val) :
    (iblk2 V c 1 t : Vec Ideal S5000x128 .f32) (ix2 p k) = (V c main_v2 : Arr 50000 128) (ix2 r k) := by
  obtain ⟨-, -, e0, e1, -⟩ := index_maps t
  unfold iblk2
  rw [View.read_apply]
  show V c main_v2 (((cfg2.win 1).blk t).view.emb (ix2 p k)) = V c main_v2 (ix2 r k)
  refine congrArg _ (funext fun a => Fin.ext ?_)
  match a with
  | ⟨0, _⟩ => show win2_1.index t (0 : Fin 2) * 5000 + 1 * p.val = r.val; omega
  | ⟨1, _⟩ => show win2_1.index t (1 : Fin 2) * 128 + 1 * k.val = k.val; omega

/-- The first weight matrix is staged whole at every point. -/
theorem wa_block (c : Dev nD) (t : Fin cfg2.N) : (iblk2 V c 2 t : Vec Ideal S128x128 .f32) = (V c main_arg8 : Arr 128 128) := by
  obtain ⟨-, -, -, -, e0, e1, -⟩ := index_maps t
  funext y
  unfold iblk2
  rw [View.read_apply]
  show V c main_arg8 (((cfg2.win 2).blk t).view.emb y) = V c main_arg8 y
  refine congrArg _ (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- The first bias row is staged whole at every point. -/
theorem ba_block (c : Dev nD) (t : Fin cfg2.N) : (iblk2 V c 3 t : Vec Ideal S1x128 .f32) = (V c main_v21 : Arr 1 128) := by
  obtain ⟨-, -, -, -, -, -, e0, e1, -⟩ := index_maps t
  funext y
  unfold iblk2
  rw [View.read_apply]
  show V c main_v21 (((cfg2.win 3).blk t).view.emb y) = V c main_v21 y
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 128 + 1 * (y 1).val = (y 1).val; omega

/-- The second weight matrix is staged whole at every point. -/
theorem wb_block (c : Dev nD) (t : Fin cfg2.N) : (iblk2 V c 4 t : Vec Ideal S128x128 .f32) = (V c main_arg10 : Arr 128 128) := by
  obtain ⟨-, -, -, -, -, -, -, -, e0, e1, -⟩ := index_maps t
  funext y
  unfold iblk2
  rw [View.read_apply]
  show V c main_arg10 (((cfg2.win 4).blk t).view.emb y) = V c main_arg10 y
  refine congrArg _ (funext fun a => Fin.ext ?_)
  match a with
  | ⟨0, _⟩ => show win2_4.index t (0 : Fin 2) * 128 + 1 * (y 0).val = (y 0).val; omega
  | ⟨1, _⟩ => show win2_4.index t (1 : Fin 2) * 128 + 1 * (y 1).val = (y 1).val; omega

/-- The second bias row is staged whole at every point. -/
theorem bb_block (c : Dev nD) (t : Fin cfg2.N) : (iblk2 V c 5 t : Vec Ideal S1x128 .f32) = (V c main_v22 : Arr 1 128) := by
  obtain ⟨-, -, -, -, -, -, -, -, -, -, e0, e1, -⟩ := index_maps t
  funext y
  unfold iblk2
  rw [View.read_apply]
  show V c main_v22 (((cfg2.win 5).blk t).view.emb y) = V c main_v22 y
  refine congrArg _ (funext fun a => Fin.ext ?_)
  match a with
  | ⟨0, _⟩ => show win2_5.index t (0 : Fin 2) * 1 + 1 * (y 0).val = (y 0).val; omega
  | ⟨1, _⟩ => show win2_5.index t (1 : Fin 2) * 128 + 1 * (y 1).val = (y 1).val; omega

/-- WHAT POINT t WRITES BACK is block t of the node update of the arrays as the region finds them. -/
theorem flushed_eq (c : Dev nD) (t : Fin cfg2.N) :
    (dat2 (F := Ideal) V c).flushed 6 t = ((cfg2.win 6).blk t).view.read (Elt Ideal)
      (Spec.updRelu (V c main_v20) (V c main_v2) (V c main_arg8) (fun j => V c main_v21 (ix2 0 j)) (V c main_arg10) (fun j => V c main_v22 (ix2 0 j))) := by
  show (cfg2.win 6).cut (grid2.coords t) ((dat2 V c).after 6 t) = _
  rw [after2_6]
  unfold out2_6
  rw [View.canon_unit_zero zeros2]
  simp only [View.ld_unit_zero (S := S5000x128) zeros2, View.ld_unit_zero (S := S128x128) zeros2, View.ld_unit_zero (S := S1x128) zeros2]
  funext j
  obtain ⟨p, q, rfl⟩ : ∃ (p : Fin 5000) (q : Fin 128), j = ix2 p q := ⟨j 0, j 1, eq_ix2 j⟩
  have hN : cfg2.N = 10 := N_2
  have ht := t.isLt
  obtain ⟨-, -, -, -, -, -, -, -, -, -, -, -, e0, e1⟩ := index_maps t
  have hr : t.val * 5000 + p.val < 50000 := by have := p.isLt; omega
  have hi : ((cfg2.win 6).blk t).view.emb (ix2 p q) = (ix2 ⟨t.val * 5000 + p.val, hr⟩ q : S50000x128.Idx) := by
    funext a; apply Fin.ext
    match a with
    | ⟨0, _⟩ => show win2_6.index t (0 : Fin 2) * 5000 + 1 * p.val = t.val * 5000 + p.val; omega
    | ⟨1, _⟩ => show win2_6.index t (1 : Fin 2) * 128 + 1 * q.val = q.val; omega
  show k2_pay1 (F := Ideal) (iblk2 V c 0 t) (iblk2 V c 1 t) (iblk2 V c 2 t) (iblk2 V c 3 t) (iblk2 V c 4 t) (iblk2 V c 5 t) (iblk2 V c 1 t) (ix2 p q)
    = Spec.updRelu (V c main_v20) (V c main_v2) (V c main_arg8) (fun j => V c main_v21 (ix2 0 j)) (V c main_arg10) (fun j => V c main_v22 (ix2 0 j))
        (((cfg2.win 6).blk t).view.emb (ix2 p q))
  rw [hi]
  exact block_row _ _ _ _ _ _ _ _ _ _ _ _ ⟨_, hr⟩ p q (fun k => agg_block V c t p k _ rfl) (fun k => feat_block V c t p k _ rfl)
    (wa_block V c t) (ba_block V c t) (wb_block V c t) (bb_block V c t)

/-- An index of the output array is in point t's block iff each coordinate is in the block's range on its axis. -/
theorem mem_block (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v23).slice (win2_6.rect t)).set ↔ _
  rw [View.set_slice_whole, Rect.mem_set_unit]
  exact Iff.rfl

/-- Every row lies in the block of the point its number divided by 5000 names. -/
theorem covered (i : S50000x128.Idx) : ∃ t : Fin cfg2.N, (cfg2.win 6).flush t = true ∧ i ∈ ((cfg2.win 6).blk t).view.set := by
  have hN : cfg2.N = 10 := N_2
  have hi0 : (i 0).val < 50000 := (i 0).isLt
  have hi1 : (i 1).val < 128 := (i 1).isLt
  refine ⟨⟨(i 0).val / 5000, by omega⟩, flush2_6 _, ?_⟩
  rw [mem_block]
  obtain ⟨-, -, -, -, -, -, -, -, -, -, -, -, e0, e1⟩ := index_maps ⟨(i 0).val / 5000, by omega⟩
  intro a
  match a with
  | ⟨0, _⟩ => show win2_6.index _ (0 : Fin 2) * 5000 ≤ (i 0).val ∧ (i 0).val < win2_6.index _ (0 : Fin 2) * 5000 + 5000; rw [e0]; show (i 0).val / 5000 * 5000 ≤ (i 0).val ∧ (i 0).val < (i 0).val / 5000 * 5000 + 5000; omega
  | ⟨1, _⟩ => show win2_6.index _ (1 : Fin 2) * 128 ≤ (i 1).val ∧ (i 1).val < win2_6.index _ (1 : Fin 2) * 128 + 128; rw [e1]; omega

theorem value (c : Dev nD) :
    (dat2 (F := Ideal) V c).arrAt 6 cfg2.N
      = Spec.updRelu (V c main_v20) (V c main_v2) (V c main_arg8) (fun j => V c main_v21 (ix2 0 j)) (V c main_arg10) (fun j => V c main_v22 (ix2 0 j)) :=
  (dat2 (F := Ideal) V c).arrAt_eq_of_cover 6 _ (fun t _ => flushed_eq V c t) covered

end Cert.KernelIdeal.Region2

end
-- ==== Proof.KRegion3.lean ====
/-
  The fourth pallas_call (the second node update), read as a value: ten grid points, point t computing rows
  5000·t … 5000·t + 4999 from the same rows of the aggregate and of the node features. After the run the output array
  is the activated node update of the two arrays.
-/
import proofs.«406182_j75024488726862_2_alg».proof.Proof.Gen.KernelIdeal.Frame
import proofs.«406182_j75024488726862_2_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region3

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

/-! ## The contraction of a [5000,128] block with a [128,128] matrix, at an index -/

theorem dotL0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem dotL1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem dotR0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem dotR1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of the product into the zero accumulator: row p of the left block against column q of the matrix. -/
theorem matmul_at {φ₁ φ₂ : FTy} (a : FVec Ideal S5000x128 φ₁) (w : FVec Ideal S128x128 φ₂) (p : Fin 5000) (q : Fin 128) :
    matmul dot_S5000x128_S128x128_S5000x128_1_0_0_1_n_n none a w (constant S5000x128 .f32 0x00000000#32) (ix2 p q)
      = ∑ k : Fin 128, a (ix2 p k) * w (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact dotL0 _ _
    | ⟨1, _⟩ => exact (dotL1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (dotR0 _ _).trans hk
    | ⟨1, _⟩ => exact dotR1 _ _)
  rw [el, er]

/-! ## The body's arithmetic at an index -/

/-- A [1,128] bias row broadcast over the 5000 rows, read at (p, q): entry q of the row. -/
theorem bias_at (b : FVec Ideal S1x128 .f32) (h : S1x128.Broadcasts S5000x128) (p : Fin 5000) (q : Fin 128) :
    broadcastTo S5000x128 b h (ix2 p q) = b (ix2 0 q) :=
  broadcastTo_apply b h (ix2 p q) (ix2 0 q) (fun a => by
    match a with
    | ⟨0, _⟩ => rfl
    | ⟨1, _⟩ => rfl)

set_option maxHeartbeats 400000 in
/-- The stored block at (p, q): the perceptron on row p of `agg + 1 · h`, clamped at zero, plus `h` at (p, q). -/
theorem payload_at (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k3_pay1 (F := Ideal) x0 x1 x2 x3 x4 x5 x1 (ix2 p q)
      = max (Spec.mlpRow (fun k => x0 (ix2 p k) + oneW * x1 (ix2 p k)) x2 (fun j => x3 (ix2 0 j)) x4 (fun j => x5 (ix2 0 j)) q) zeroW
        + x1 (ix2 p q) := by
  unfold k3_pay1
  simp only [shapeCast_self, addf_apply, maximumf_apply, mulf_apply, truncf_apply, broadcast_apply, matmul_at, bias_at]
  rfl

/-! ## From blocks to the array -/

/-- The body's arithmetic on blocks that are row p ↦ row r of the two row-tiled arrays, and the whole weight and bias arrays:
    the node update of the arrays at (r, q). -/
theorem block_row (A H : Arr 50000 128) (Wa : Arr 128 128) (Ba : Arr 1 128) (Wb : Arr 128 128) (Bb : Arr 1 128)
    (x0 x1 : Vec Ideal S5000x128 .f32) (x2 : Vec Ideal S128x128 .f32) (x3 : Vec Ideal S1x128 .f32)
    (x4 : Vec Ideal S128x128 .f32) (x5 : Vec Ideal S1x128 .f32) (r : Fin 50000) (p : Fin 5000) (q : Fin 128)
    (h0 : ∀ k, x0 (ix2 p k) = A (ix2 r k)) (h1 : ∀ k, x1 (ix2 p k) = H (ix2 r k))
    (h2 : x2 = Wa) (h3 : x3 = Ba) (h4 : x4 = Wb) (h5 : x5 = Bb) :
    k3_pay1 (F := Ideal) x0 x1 x2 x3 x4 x5 x1 (ix2 p q)
      = Spec.updRelu A H Wa (fun j => Ba (ix2 0 j)) Wb (fun j => Bb (ix2 0 j)) (ix2 r q) := by
  rw [payload_at, h2, h3, h4, h5]
  simp only [h0, h1]
  rfl

-- the TensorCore's buffer contents when the region is entered: any
variable (V : (c : Dev nD) → (b : Ref sig .tc) → Buf (Elt Ideal) ((c : Thread nD τ).loc b))

theorem zeros2 : (![0, 0] : Fin 2 → Nat) = fun _ => 0 := funext fun a => by fin_cases a <;> rfl

/-- The printed index maps over the grid: the row-tiled windows sit at block (t, 0), the whole-operand windows at block (0, 0). -/
theorem index_maps : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Row p of the aggregate's block at point t is row 5000·t + p of the aggregate. -/
theorem agg_block (c : Dev nD) (t : Fin cfg3.N) (p : Fin 5000) (k : Fin 128) (r : Fin 50000) (hr : r.val = t.val * 5000 + p.val) :
    (iblk3 V c 0 t : Vec Ideal S5000x128 .f32) (ix2 p k) = (V c main_v29 : Arr 50000 128) (ix2 r k) := by
  obtain ⟨e0, e1, -⟩ := index_maps t
  unfold iblk3
  rw [View.read_apply]
  show V c main_v29 (((cfg3.win 0).blk t).view.emb (ix2 p k)) = V c main_v29 (ix2 r k)
  refine congrArg _ (funext fun a => Fin.ext ?_)
  match a with
  | ⟨0, _⟩ => show win3_0.index t (0 : Fin 2) * 5000 + 1 * p.val = r.val; omega
  | ⟨1, _⟩ => show win3_0.index t (1 : Fin 2) * 128 + 1 * k.val = k.val; omega

/-- Row p of the node features' block at point t is row 5000·t + p of the node features. -/
theorem feat_block (c : Dev nD) (t : Fin cfg3.N) (p : Fin 5000) (k : Fin 128) (r : Fin 50000) (hr : r.val = t.val * 5000 + p.val) :
    (iblk3 V c 1 t : Vec Ideal S5000x128 .f32) (ix2 p k) = (V c main_v23 : Arr 50000 128) (ix2 r k) := by
  obtain ⟨-, -, e0, e1, -⟩ := index_maps t
  unfold iblk3
  rw [View.read_apply]
  show V c main_v23 (((cfg3.win 1).blk t).view.emb (ix2 p k)) = V c main_v23 (ix2 r k)
  refine congrArg _ (funext fun a => Fin.ext ?_)
  match a with
  | ⟨0, _⟩ => show win3_1.index t (0 : Fin 2) * 5000 + 1 * p.val = r.val; omega
  | ⟨1, _⟩ => show win3_1.index t (1 : Fin 2) * 128 + 1 * k.val = k.val; omega

/-- The first weight matrix is staged whole at every point. -/
theorem wa_block (c : Dev nD) (t : Fin cfg3.N) : (iblk3 V c 2 t : Vec Ideal S128x128 .f32) = (V c main_arg8 : Arr 128 128) := by
  obtain ⟨-, -, -, -, e0, e1, -⟩ := index_maps t
  funext y
  unfold iblk3
  rw [View.read_apply]
  show V c main_arg8 (((cfg3.win 2).blk t).view.emb y) = V c main_arg8 y
  refine congrArg _ (funext fun a => Fin.ext ?_)
  match a with
  | ⟨0, _⟩ => show win3_2.index t (0 : Fin 2) * 128 + 1 * (y 0).val = (y 0).val; omega
  | ⟨1, _⟩ => show win3_2.index t (1 : Fin 2) * 128 + 1 * (y 1).val = (y 1).val; omega

/-- The first bias row is staged whole at every point. -/
theorem ba_block (c : Dev nD) (t : Fin cfg3.N) : (iblk3 V c 3 t : Vec Ideal S1x128 .f32) = (V c main_v30 : Arr 1 128) := by
  obtain ⟨-, -, -, -, -, -, e0, e1, -⟩ := index_maps t
  funext y
  unfold iblk3
  rw [View.read_apply]
  show V c main_v30 (((cfg3.win 3).blk t).view.emb y) = V c main_v30 y
  refine congrArg _ (funext fun a => Fin.ext ?_)
  match a with
  | ⟨0, _⟩ => show win3_3.index t (0 : Fin 2) * 1 + 1 * (y 0).val = (y 0).val; omega
  | ⟨1, _⟩ => show win3_3.index t (1 : Fin 2) * 128 + 1 * (y 1).val = (y 1).val; omega

/-- The second weight matrix is staged whole at every point. -/
theorem wb_block (c : Dev nD) (t : Fin cfg3.N) : (iblk3 V c 4 t : Vec Ideal S128x128 .f32) = (V c main_arg10 : Arr 128 128) := by
  obtain ⟨-, -, -, -, -, -, -, -, e0, e1, -⟩ := index_maps t
  funext y
  unfold iblk3
  rw [View.read_apply]
  show V c main_arg10 (((cfg3.win 4).blk t).view.emb y) = V c main_arg10 y
  refine congrArg _ (funext fun a => Fin.ext ?_)
  match a with
  | ⟨0, _⟩ => show win3_4.index t (0 : Fin 2) * 128 + 1 * (y 0).val = (y 0).val; omega
  | ⟨1, _⟩ => show win3_4.index t (1 : Fin 2) * 128 + 1 * (y 1).val = (y 1).val; omega

/-- The second bias row is staged whole at every point. -/
theorem bb_block (c : Dev nD) (t : Fin cfg3.N) : (iblk3 V c 5 t : Vec Ideal S1x128 .f32) = (V c main_v31 : Arr 1 128) := by
  obtain ⟨-, -, -, -, -, -, -, -, -, -, e0, e1, -⟩ := index_maps t
  funext y
  unfold iblk3
  rw [View.read_apply]
  show V c main_v31 (((cfg3.win 5).blk t).view.emb y) = V c main_v31 y
  refine congrArg _ (funext fun a => Fin.ext ?_)
  match a with
  | ⟨0, _⟩ => show win3_5.index t (0 : Fin 2) * 1 + 1 * (y 0).val = (y 0).val; omega
  | ⟨1, _⟩ => show win3_5.index t (1 : Fin 2) * 128 + 1 * (y 1).val = (y 1).val; omega

/-- WHAT POINT t WRITES BACK is block t of the node update of the arrays as the region finds them. -/
theorem flushed_eq (c : Dev nD) (t : Fin cfg3.N) :
    (dat3 (F := Ideal) V c).flushed 6 t = ((cfg3.win 6).blk t).view.read (Elt Ideal)
      (Spec.updRelu (V c main_v29) (V c main_v23) (V c main_arg8) (fun j => V c main_v30 (ix2 0 j)) (V c main_arg10) (fun j => V c main_v31 (ix2 0 j))) := by
  show (cfg3.win 6).cut (grid3.coords t) ((dat3 V c).after 6 t) = _
  rw [after3_6]
  unfold out3_6
  rw [View.canon_unit_zero zeros2]
  simp only [View.ld_unit_zero (S := S5000x128) zeros2, View.ld_unit_zero (S := S128x128) zeros2, View.ld_unit_zero (S := S1x128) zeros2]
  funext j
  obtain ⟨p, q, rfl⟩ : ∃ (p : Fin 5000) (q : Fin 128), j = ix2 p q := ⟨j 0, j 1, eq_ix2 j⟩
  have hN : cfg3.N = 10 := N_3
  have ht := t.isLt
  obtain ⟨-, -, -, -, -, -, -, -, -, -, -, -, e0, e1⟩ := index_maps t
  have hr : t.val * 5000 + p.val < 50000 := by have := p.isLt; omega
  have hi : ((cfg3.win 6).blk t).view.emb (ix2 p q) = (ix2 ⟨t.val * 5000 + p.val, hr⟩ q : S50000x128.Idx) := by
    funext a; apply Fin.ext
    match a with
    | ⟨0, _⟩ => show win3_6.index t (0 : Fin 2) * 5000 + 1 * p.val = t.val * 5000 + p.val; omega
    | ⟨1, _⟩ => show win3_6.index t (1 : Fin 2) * 128 + 1 * q.val = q.val; omega
  show k3_pay1 (F := Ideal) (iblk3 V c 0 t) (iblk3 V c 1 t) (iblk3 V c 2 t) (iblk3 V c 3 t) (iblk3 V c 4 t) (iblk3 V c 5 t) (iblk3 V c 1 t) (ix2 p q)
    = Spec.updRelu (V c main_v29) (V c main_v23) (V c main_arg8) (fun j => V c main_v30 (ix2 0 j)) (V c main_arg10) (fun j => V c main_v31 (ix2 0 j))
        (((cfg3.win 6).blk t).view.emb (ix2 p q))
  rw [hi]
  exact block_row _ _ _ _ _ _ _ _ _ _ _ _ ⟨_, hr⟩ p q (fun k => agg_block V c t p k _ rfl) (fun k => feat_block V c t p k _ rfl)
    (wa_block V c t) (ba_block V c t) (wb_block V c t) (bb_block V c t)

/-- An index of the output array is in point t's block iff each coordinate is in the block's range on its axis. -/
theorem mem_block (t : Fin cfg3.N) (i : S50000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v32).slice (win3_6.rect t)).set ↔ _
  rw [View.set_slice_whole, Rect.mem_set_unit]
  exact Iff.rfl

/-- Every row lies in the block of the point its number divided by 5000 names. -/
theorem covered (i : S50000x128.Idx) : ∃ t : Fin cfg3.N, (cfg3.win 6).flush t = true ∧ i ∈ ((cfg3.win 6).blk t).view.set := by
  have hN : cfg3.N = 10 := N_3
  have hi0 : (i 0).val < 50000 := (i 0).isLt
  have hi1 : (i 1).val < 128 := (i 1).isLt
  refine ⟨⟨(i 0).val / 5000, by omega⟩, flush3_6 _, ?_⟩
  rw [mem_block]
  obtain ⟨-, -, -, -, -, -, -, -, -, -, -, -, e0, e1⟩ := index_maps ⟨(i 0).val / 5000, by omega⟩
  intro a
  match a with
  | ⟨0, _⟩ => show win3_6.index _ (0 : Fin 2) * 5000 ≤ (i 0).val ∧ (i 0).val < win3_6.index _ (0 : Fin 2) * 5000 + 5000; rw [e0]; show (i 0).val / 5000 * 5000 ≤ (i 0).val ∧ (i 0).val < (i 0).val / 5000 * 5000 + 5000; omega
  | ⟨1, _⟩ => show win3_6.index _ (1 : Fin 2) * 128 ≤ (i 1).val ∧ (i 1).val < win3_6.index _ (1 : Fin 2) * 128 + 128; rw [e1]; omega

theorem value (c : Dev nD) :
    (dat3 (F := Ideal) V c).arrAt 6 cfg3.N
      = Spec.updRelu (V c main_v29) (V c main_v23) (V c main_arg8) (fun j => V c main_v30 (ix2 0 j)) (V c main_arg10) (fun j => V c main_v31 (ix2 0 j)) :=
  (dat3 (F := Ideal) V c).arrAt_eq_of_cover 6 _ (fun t _ => flushed_eq V c t) covered

end Cert.KernelIdeal.Region3

end
-- ==== Proof.KRegion4.lean ====
/-
  The fifth pallas_call (the last node update), read as a value: ten grid points, point t computing rows
  5000·t … 5000·t + 4999 from the same rows of the aggregate and of the node features. After the run the output array
  is the node update of the two arrays with no activation.
-/
import proofs.«406182_j75024488726862_2_alg».proof.Proof.Gen.KernelIdeal.Frame
import proofs.«406182_j75024488726862_2_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region4

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

/-! ## The contraction of a [5000,128] block with a [128,128] matrix, at an index -/

theorem dotL0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem dotL1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem dotR0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem dotR1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of the product into the zero accumulator: row p of the left block against column q of the matrix. -/
theorem matmul_at {φ₁ φ₂ : FTy} (a : FVec Ideal S5000x128 φ₁) (w : FVec Ideal S128x128 φ₂) (p : Fin 5000) (q : Fin 128) :
    matmul dot_S5000x128_S128x128_S5000x128_1_0_0_1_n_n none a w (constant S5000x128 .f32 0x00000000#32) (ix2 p q)
      = ∑ k : Fin 128, a (ix2 p k) * w (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact dotL0 _ _
    | ⟨1, _⟩ => exact (dotL1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (dotR0 _ _).trans hk
    | ⟨1, _⟩ => exact dotR1 _ _)
  rw [el, er]

/-! ## The body's arithmetic at an index -/

/-- A [1,128] bias row broadcast over the 5000 rows, read at (p, q): entry q of the row. -/
theorem bias_at (b : FVec Ideal S1x128 .f32) (h : S1x128.Broadcasts S5000x128) (p : Fin 5000) (q : Fin 128) :
    broadcastTo S5000x128 b h (ix2 p q) = b (ix2 0 q) :=
  broadcastTo_apply b h (ix2 p q) (ix2 0 q) (fun a => by
    match a with
    | ⟨0, _⟩ => rfl
    | ⟨1, _⟩ => rfl)

set_option maxHeartbeats 400000 in
/-- The stored block at (p, q): the perceptron on row p of `agg + 1 · h`, not clamped, plus `h` at (p, q). -/
theorem payload_at (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k4_pay1 (F := Ideal) x0 x1 x2 x3 x4 x5 x1 (ix2 p q)
      = Spec.mlpRow (fun k => x0 (ix2 p k) + oneW * x1 (ix2 p k)) x2 (fun j => x3 (ix2 0 j)) x4 (fun j => x5 (ix2 0 j)) q
        + x1 (ix2 p q) := by
  unfold k4_pay1
  simp only [shapeCast_self, addf_apply, maximumf_apply, mulf_apply, truncf_apply, broadcast_apply, matmul_at, bias_at]
  rfl

/-! ## From blocks to the array -/

/-- The body's arithmetic on blocks that are row p ↦ row r of the two row-tiled arrays, and the whole weight and bias arrays:
    the last node update of the arrays at (r, q). -/
theorem block_row (A H : Arr 50000 128) (Wa : Arr 128 128) (Ba : Arr 1 128) (Wb : Arr 128 128) (Bb : Arr 1 128)
    (x0 x1 : Vec Ideal S5000x128 .f32) (x2 : Vec Ideal S128x128 .f32) (x3 : Vec Ideal S1x128 .f32)
    (x4 : Vec Ideal S128x128 .f32) (x5 : Vec Ideal S1x128 .f32) (r : Fin 50000) (p : Fin 5000) (q : Fin 128)
    (h0 : ∀ k, x0 (ix2 p k) = A (ix2 r k)) (h1 : ∀ k, x1 (ix2 p k) = H (ix2 r k))
    (h2 : x2 = Wa) (h3 : x3 = Ba) (h4 : x4 = Wb) (h5 : x5 = Bb) :
    k4_pay1 (F := Ideal) x0 x1 x2 x3 x4 x5 x1 (ix2 p q)
      = Spec.updLast A H Wa (fun j => Ba (ix2 0 j)) Wb (fun j => Bb (ix2 0 j)) (ix2 r q) := by
  rw [payload_at, h2, h3, h4, h5]
  simp only [h0, h1]
  rfl

-- the TensorCore's buffer contents when the region is entered: any
variable (V : (c : Dev nD) → (b : Ref sig .tc) → Buf (Elt Ideal) ((c : Thread nD τ).loc b))

theorem zeros2 : (![0, 0] : Fin 2 → Nat) = fun _ => 0 := funext fun a => by fin_cases a <;> rfl

/-- The printed index maps over the grid: the row-tiled windows sit at block (t, 0), the whole-operand windows at block (0, 0). -/
theorem index_maps : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- Row p of the aggregate's block at point t is row 5000·t + p of the aggregate. -/
theorem agg_block (c : Dev nD) (t : Fin cfg4.N) (p : Fin 5000) (k : Fin 128) (r : Fin 50000) (hr : r.val = t.val * 5000 + p.val) :
    (iblk4 V c 0 t : Vec Ideal S5000x128 .f32) (ix2 p k) = (V c main_v38 : Arr 50000 128) (ix2 r k) := by
  obtain ⟨e0, e1, -⟩ := index_maps t
  unfold iblk4
  rw [View.read_apply]
  show V c main_v38 (((cfg4.win 0).blk t).view.emb (ix2 p k)) = V c main_v38 (ix2 r k)
  refine congrArg _ (funext fun a => Fin.ext ?_)
  match a with
  | ⟨0, _⟩ => show win4_0.index t (0 : Fin 2) * 5000 + 1 * p.val = r.val; omega
  | ⟨1, _⟩ => show win4_0.index t (1 : Fin 2) * 128 + 1 * k.val = k.val; omega

/-- Row p of the node features' block at point t is row 5000·t + p of the node features. -/
theorem feat_block (c : Dev nD) (t : Fin cfg4.N) (p : Fin 5000) (k : Fin 128) (r : Fin 50000) (hr : r.val = t.val * 5000 + p.val) :
    (iblk4 V c 1 t : Vec Ideal S5000x128 .f32) (ix2 p k) = (V c main_v32 : Arr 50000 128) (ix2 r k) := by
  obtain ⟨-, -, e0, e1, -⟩ := index_maps t
  unfold iblk4
  rw [View.read_apply]
  show V c main_v32 (((cfg4.win 1).blk t).view.emb (ix2 p k)) = V c main_v32 (ix2 r k)
  refine congrArg _ (funext fun a => Fin.ext ?_)
  match a with
  | ⟨0, _⟩ => show win4_1.index t (0 : Fin 2) * 5000 + 1 * p.val = r.val; omega
  | ⟨1, _⟩ => show win4_1.index t (1 : Fin 2) * 128 + 1 * k.val = k.val; omega

/-- The first weight matrix is staged whole at every point. -/
theorem wa_block (c : Dev nD) (t : Fin cfg4.N) : (iblk4 V c 2 t : Vec Ideal S128x128 .f32) = (V c main_arg8 : Arr 128 128) := by
  obtain ⟨-, -, -, -, e0, e1, -⟩ := index_maps t
  funext y
  unfold iblk4
  rw [View.read_apply]
  show V c main_arg8 (((cfg4.win 2).blk t).view.emb y) = V c main_arg8 y
  refine congrArg _ (funext fun a => Fin.ext ?_)
  match a with
  | ⟨0, _⟩ => show win4_2.index t (0 : Fin 2) * 128 + 1 * (y 0).val = (y 0).val; omega
  | ⟨1, _⟩ => show win4_2.index t (1 : Fin 2) * 128 + 1 * (y 1).val = (y 1).val; omega

/-- The first bias row is staged whole at every point. -/
theorem ba_block (c : Dev nD) (t : Fin cfg4.N) : (iblk4 V c 3 t : Vec Ideal S1x128 .f32) = (V c main_v39 : Arr 1 128) := by
  obtain ⟨-, -, -, -, -, -, e0, e1, -⟩ := index_maps t
  funext y
  unfold iblk4
  rw [View.read_apply]
  show V c main_v39 (((cfg4.win 3).blk t).view.emb y) = V c main_v39 y
  refine congrArg _ (funext fun a => Fin.ext ?_)
  match a with
  | ⟨0, _⟩ => show win4_3.index t (0 : Fin 2) * 1 + 1 * (y 0).val = (y 0).val; omega
  | ⟨1, _⟩ => show win4_3.index t (1 : Fin 2) * 128 + 1 * (y 1).val = (y 1).val; omega

/-- The second weight matrix is staged whole at every point. -/
theorem wb_block (c : Dev nD) (t : Fin cfg4.N) : (iblk4 V c 4 t : Vec Ideal S128x128 .f32) = (V c main_arg10 : Arr 128 128) := by
  obtain ⟨-, -, -, -, -, -, -, -, e0, e1, -⟩ := index_maps t
  funext y
  unfold iblk4
  rw [View.read_apply]
  show V c main_arg10 (((cfg4.win 4).blk t).view.emb y) = V c main_arg10 y
  refine congrArg _ (funext fun a => Fin.ext ?_)
  match a with
  | ⟨0, _⟩ => show win4_4.index t (0 : Fin 2) * 128 + 1 * (y 0).val = (y 0).val; omega
  | ⟨1, _⟩ => show win4_4.index t (1 : Fin 2) * 128 + 1 * (y 1).val = (y 1).val; omega

/-- The second bias row is staged whole at every point. -/
theorem bb_block (c : Dev nD) (t : Fin cfg4.N) : (iblk4 V c 5 t : Vec Ideal S1x128 .f32) = (V c main_v40 : Arr 1 128) := by
  obtain ⟨-, -, -, -, -, -, -, -, -, -, e0, e1, -⟩ := index_maps t
  funext y
  unfold iblk4
  rw [View.read_apply]
  show V c main_v40 (((cfg4.win 5).blk t).view.emb y) = V c main_v40 y
  refine congrArg _ (funext fun a => Fin.ext ?_)
  match a with
  | ⟨0, _⟩ => show win4_5.index t (0 : Fin 2) * 1 + 1 * (y 0).val = (y 0).val; omega
  | ⟨1, _⟩ => show win4_5.index t (1 : Fin 2) * 128 + 1 * (y 1).val = (y 1).val; omega

/-- WHAT POINT t WRITES BACK is block t of the last node update of the arrays as the region finds them. -/
theorem flushed_eq (c : Dev nD) (t : Fin cfg4.N) :
    (dat4 (F := Ideal) V c).flushed 6 t = ((cfg4.win 6).blk t).view.read (Elt Ideal)
      (Spec.updLast (V c main_v38) (V c main_v32) (V c main_arg8) (fun j => V c main_v39 (ix2 0 j)) (V c main_arg10) (fun j => V c main_v40 (ix2 0 j))) := by
  show (cfg4.win 6).cut (grid4.coords t) ((dat4 V c).after 6 t) = _
  rw [after4_6]
  unfold out4_6
  rw [View.canon_unit_zero zeros2]
  simp only [View.ld_unit_zero (S := S5000x128) zeros2, View.ld_unit_zero (S := S128x128) zeros2, View.ld_unit_zero (S := S1x128) zeros2]
  funext j
  obtain ⟨p, q, rfl⟩ : ∃ (p : Fin 5000) (q : Fin 128), j = ix2 p q := ⟨j 0, j 1, eq_ix2 j⟩
  have hN : cfg4.N = 10 := N_4
  have ht := t.isLt
  obtain ⟨-, -, -, -, -, -, -, -, -, -, -, -, e0, e1⟩ := index_maps t
  have hr : t.val * 5000 + p.val < 50000 := by have := p.isLt; omega
  have hi : ((cfg4.win 6).blk t).view.emb (ix2 p q) = (ix2 ⟨t.val * 5000 + p.val, hr⟩ q : S50000x128.Idx) := by
    funext a; apply Fin.ext
    match a with
    | ⟨0, _⟩ => show win4_6.index t (0 : Fin 2) * 5000 + 1 * p.val = t.val * 5000 + p.val; omega
    | ⟨1, _⟩ => show win4_6.index t (1 : Fin 2) * 128 + 1 * q.val = q.val; omega
  show k4_pay1 (F := Ideal) (iblk4 V c 0 t) (iblk4 V c 1 t) (iblk4 V c 2 t) (iblk4 V c 3 t) (iblk4 V c 4 t) (iblk4 V c 5 t) (iblk4 V c 1 t) (ix2 p q)
    = Spec.updLast (V c main_v38) (V c main_v32) (V c main_arg8) (fun j => V c main_v39 (ix2 0 j)) (V c main_arg10) (fun j => V c main_v40 (ix2 0 j))
        (((cfg4.win 6).blk t).view.emb (ix2 p q))
  rw [hi]
  exact block_row _ _ _ _ _ _ _ _ _ _ _ _ ⟨_, hr⟩ p q (fun k => agg_block V c t p k _ rfl) (fun k => feat_block V c t p k _ rfl)
    (wa_block V c t) (ba_block V c t) (wb_block V c t) (bb_block V c t)

/-- An index of the output array is in point t's block iff each coordinate is in the block's range on its axis. -/
theorem mem_block (t : Fin cfg4.N) (i : S50000x128.Idx) :
    i ∈ ((cfg4.win 6).blk t).view.set ↔ ∀ a : Fin 2, win4_6.index t a * S5000x128.size a ≤ (i a).val ∧ (i a).val < win4_6.index t a * S5000x128.size a + S5000x128.size a := by
  show i ∈ ((View.whole main_v41).slice (win4_6.rect t)).set ↔ _
  rw [View.set_slice_whole, Rect.mem_set_unit]
  exact Iff.rfl

/-- Every row lies in the block of the point its number divided by 5000 names. -/
theorem covered (i : S50000x128.Idx) : ∃ t : Fin cfg4.N, (cfg4.win 6).flush t = true ∧ i ∈ ((cfg4.win 6).blk t).view.set := by
  have hN : cfg4.N = 10 := N_4
  have hi0 : (i 0).val < 50000 := (i 0).isLt
  have hi1 : (i 1).val < 128 := (i 1).isLt
  refine ⟨⟨(i 0).val / 5000, by omega⟩, flush4_6 _, ?_⟩
  rw [mem_block]
  obtain ⟨-, -, -, -, -, -, -, -, -, -, -, -, e0, e1⟩ := index_maps ⟨(i 0).val / 5000, by omega⟩
  intro a
  match a with
  | ⟨0, _⟩ => show win4_6.index _ (0 : Fin 2) * 5000 ≤ (i 0).val ∧ (i 0).val < win4_6.index _ (0 : Fin 2) * 5000 + 5000; rw [e0]; show (i 0).val / 5000 * 5000 ≤ (i 0).val ∧ (i 0).val < (i 0).val / 5000 * 5000 + 5000; omega
  | ⟨1, _⟩ => show win4_6.index _ (1 : Fin 2) * 128 ≤ (i 1).val ∧ (i 1).val < win4_6.index _ (1 : Fin 2) * 128 + 128; rw [e1]; omega

theorem value (c : Dev nD) :
    (dat4 (F := Ideal) V c).arrAt 6 cfg4.N
      = Spec.updLast (V c main_v38) (V c main_v32) (V c main_arg8) (fun j => V c main_v39 (ix2 0 j)) (V c main_arg10) (fun j => V c main_v40 (ix2 0 j)) :=
  (dat4 (F := Ideal) V c).arrAt_eq_of_cover 6 _ (fun t _ => flushed_eq V c t) covered

end Cert.KernelIdeal.Region4

end
-- ==== Proof.KChain.lean ====
/-
  The kernel program's buffers at the end of each of its five pallas_calls, as functions of the launch memory.

  @main is twenty segments: stretches of host operations and the five pallas_calls. A buffer's contents at a boundary
  are read back through the stretches before it: an operation's result is its function of its operands' contents, a
  buffer no operation of a stretch writes keeps its contents, and a pallas_call leaves every buffer but its own windows'
  arrays as it found them. So the node embedding is the embedding function of the launch arrays; the edge gate the gate
  function of them; and each node update the update function of the aggregate computed between the calls (take, add the
  gate, clamp, sum into the destination rows) and of the previous node features.
-/
import proofs.«406182_j75024488726862_2_alg».proof.Proof.Gen.KernelIdeal.Frame
import proofs.«406182_j75024488726862_2_alg».proof.Proof.Spec
import proofs.«406182_j75024488726862_2_alg».proof.Proof.KGlue
import proofs.«406182_j75024488726862_2_alg».proof.Proof.KFold
import proofs.«406182_j75024488726862_2_alg».proof.Proof.KRegion0
import proofs.«406182_j75024488726862_2_alg».proof.Proof.KRegion1
import proofs.«406182_j75024488726862_2_alg».proof.Proof.KRegion2
import proofs.«406182_j75024488726862_2_alg».proof.Proof.KRegion3
import proofs.«406182_j75024488726862_2_alg».proof.Proof.KRegion4
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Chain

open Cert.KernelIdeal Cert.KernelIdeal.Gen Cert.KernelIdeal.Glue Cert.Spec
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- No operation of a stretch writes the buffer: each operation's written reference is another one. -/
macro "not_written" : tactic => `(tactic| (
  refine List.forall_iff_forall_mem.mp ?_
  simp only [hostOps0, hostOps1, hostOps2, hostOps2_1, hostOps2_2, hostOps2_3, hostOps2_4, hostOps3, hostOps3_1, hostOps3_2, hostOps3_3,
    hostOps4, hostOps4_1, hostOps4_2, hostOps4_3, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)))

/-! ## A pallas_call leaves a buffer that is none of its windows' arrays as it found it -/

theorem cross0 (c : Dev nD) (b : Ref sig .tc) (hb : ∀ w, Pipeline.arrRef spec0 w ≠ b) :
    W2 m ρ c (no_index (Proc.devRef .tc b)) = W1 m ρ c (Proc.devRef .tc b) := W2_of_ne m ρ c b hb
theorem cross1 (c : Dev nD) (b : Ref sig .tc) (hb : ∀ w, Pipeline.arrRef spec1 w ≠ b) :
    W4 m ρ c (no_index (Proc.devRef .tc b)) = W3 m ρ c (Proc.devRef .tc b) := W4_of_ne m ρ c b hb
theorem cross2 (c : Dev nD) (b : Ref sig .tc) (hb : ∀ w, Pipeline.arrRef spec2 w ≠ b) :
    W10 m ρ c (no_index (Proc.devRef .tc b)) = W9 m ρ c (Proc.devRef .tc b) := W10_of_ne m ρ c b hb
theorem cross3 (c : Dev nD) (b : Ref sig .tc) (hb : ∀ w, Pipeline.arrRef spec3 w ≠ b) :
    W15 m ρ c (no_index (Proc.devRef .tc b)) = W14 m ρ c (Proc.devRef .tc b) := W15_of_ne m ρ c b hb

/-! ## A pallas_call leaves the array of an INPUT window as it found it -/

theorem cross2_w1a (c : Dev nD) : W10 m ρ c (no_index (Proc.devRef .tc main_arg8)) = W9 m ρ c (Proc.devRef .tc main_arg8) :=
  (W10_arr m ρ c 2).trans (((dat2 (V9 m ρ) c).arrAt_in 2 rfl _).trans (A_eq2 (V9 m ρ) c 2))
theorem cross2_w1b (c : Dev nD) : W10 m ρ c (no_index (Proc.devRef .tc main_arg10)) = W9 m ρ c (Proc.devRef .tc main_arg10) :=
  (W10_arr m ρ c 4).trans (((dat2 (V9 m ρ) c).arrAt_in 4 rfl _).trans (A_eq2 (V9 m ρ) c 4))
theorem cross3_w1a (c : Dev nD) : W15 m ρ c (no_index (Proc.devRef .tc main_arg8)) = W14 m ρ c (Proc.devRef .tc main_arg8) :=
  (W15_arr m ρ c 2).trans (((dat3 (V14 m ρ) c).arrAt_in 2 rfl _).trans (A_eq3 (V14 m ρ) c 2))
theorem cross3_w1b (c : Dev nD) : W15 m ρ c (no_index (Proc.devRef .tc main_arg10)) = W14 m ρ c (Proc.devRef .tc main_arg10) :=
  (W15_arr m ρ c 4).trans (((dat3 (V14 m ρ) c).arrAt_in 4 rfl _).trans (A_eq3 (V14 m ρ) c 4))

/-- Walk a buffer's contents back through the stretches and calls that do not write it. -/
macro "walk_back" : tactic => `(tactic|
  simp (disch := first | not_written | decide) only [StableHlo.after_of_forall_not_mem, cross0, cross1, cross2, cross3,
    cross2_w1a, cross2_w1b, cross3_w1a, cross3_w1b])

/-! ## Layout reads -/

/-- A vector reshaped to a one-row matrix reads, at (0, j), the vector at j. -/
theorem row_of_vec {n : Nat} (x : (⟨1, ![n]⟩ : Shape).Idx → EReal) (h : (⟨1, ![n]⟩ : Shape).ShapeCasts ⟨2, ![1, n]⟩) (j : Fin n) :
    shapeCast ⟨2, ![1, n]⟩ x h (ix2 0 j) = x (ix1 j) := shapeCast_a_1a_apply x h 0 j

/-- A vector reshaped to a one-column matrix reads, at (e, 0), the vector at e. -/
theorem col_of_vec {n : Nat} (x : (⟨1, ![n]⟩ : Shape).Idx → EReal) (h : (⟨1, ![n]⟩ : Shape).ShapeCasts ⟨2, ![n, 1]⟩) (e : Fin n) :
    shapeCast ⟨2, ![n, 1]⟩ x h (ix2 e 0) = x (ix1 e) :=
  shapeCast_apply x h _ _ (by
    rw [Shape.rowMajor_val_two, Shape.rowMajor_val_one]
    show e.val = e.val * 1 + 0
    omega)

/-! ## The first pallas_call: the node embedding -/

/-- The node embedding of the launch arrays. -/
abbrev X0 (c : Dev nD) : Arr 50000 128 :=
  Spec.embed (m ((c : Thread nD τ).loc main_arg0)) (m ((c : Thread nD τ).loc main_arg4)) (fun j => m ((c : Thread nD τ).loc main_arg5) (ix1 j))
    (m ((c : Thread nD τ).loc main_arg6)) (fun j => m ((c : Thread nD τ).loc main_arg7) (ix1 j))

theorem V1_arg0 (c : Dev nD) : V1 m ρ c main_arg0 = m ((c : Thread nD τ).loc main_arg0) := by
  show W1 m ρ c (Proc.devRef .tc main_arg0) = _
  walk_back
theorem V1_arg4 (c : Dev nD) : V1 m ρ c main_arg4 = m ((c : Thread nD τ).loc main_arg4) := by
  show W1 m ρ c (Proc.devRef .tc main_arg4) = _
  walk_back
theorem V1_arg6 (c : Dev nD) : V1 m ρ c main_arg6 = m ((c : Thread nD τ).loc main_arg6) := by
  show W1 m ρ c (Proc.devRef .tc main_arg6) = _
  walk_back
theorem V1_b0a (c : Dev nD) (j : Fin 128) : V1 m ρ c main_v0 (ix2 0 j) = m ((c : Thread nD τ).loc main_arg5) (ix1 j) := by
  show StableHlo.after hostOps0 (W0 m ρ c) (Proc.devRef .tc main_v0) (ix2 0 j) = _
  after_results
  exact row_of_vec _ _ j
theorem V1_b0b (c : Dev nD) (j : Fin 128) : V1 m ρ c main_v1 (ix2 0 j) = m ((c : Thread nD τ).loc main_arg7) (ix1 j) := by
  show StableHlo.after hostOps0 (W0 m ρ c) (Proc.devRef .tc main_v1) (ix2 0 j) = _
  after_results
  exact row_of_vec _ _ j

/-- After the first pallas_call its output array holds the node embedding of the launch arrays. -/
theorem W2_x0 (c : Dev nD) : W2 m ρ c (Proc.devRef .tc main_v2) = X0 m c := by
  refine (W2_arr m ρ c 5).trans ((Region0.value (V1 m ρ) c).trans ?_)
  rw [V1_arg0, V1_arg4, V1_arg6,
    show (fun j => V1 m ρ c main_v0 (ix2 0 j)) = fun j => m ((c : Thread nD τ).loc main_arg5) (ix1 j) from funext (V1_b0a m ρ c),
    show (fun j => V1 m ρ c main_v1 (ix2 0 j)) = fun j => m ((c : Thread nD τ).loc main_arg7) (ix1 j) from funext (V1_b0b m ρ c)]

/-! ## The second pallas_call: the edge gate -/

/-- The edge gate of the launch arrays. -/
abbrev G0 (c : Dev nD) : Arr 800000 128 :=
  Spec.gate (m ((c : Thread nD τ).loc main_arg2)) (fun e => maskVec (m ((c : Thread nD τ).loc main_arg3)) (ix1 e)) (m ((c : Thread nD τ).loc main_arg12)) (fun j => m ((c : Thread nD τ).loc main_arg13) (ix1 j))
    (m ((c : Thread nD τ).loc main_arg14)) (fun j => m ((c : Thread nD τ).loc main_arg15) (ix1 j))

theorem W2_arg3 (c : Dev nD) : W2 m ρ c (Proc.devRef .tc main_arg3) = m ((c : Thread nD τ).loc main_arg3) := by walk_back
theorem V3_arg2 (c : Dev nD) : V3 m ρ c main_arg2 = m ((c : Thread nD τ).loc main_arg2) := by
  show W3 m ρ c (Proc.devRef .tc main_arg2) = _
  walk_back
theorem V3_arg12 (c : Dev nD) : V3 m ρ c main_arg12 = m ((c : Thread nD τ).loc main_arg12) := by
  show W3 m ρ c (Proc.devRef .tc main_arg12) = _
  walk_back
theorem V3_arg14 (c : Dev nD) : V3 m ρ c main_arg14 = m ((c : Thread nD τ).loc main_arg14) := by
  show W3 m ρ c (Proc.devRef .tc main_arg14) = _
  walk_back
theorem V3_b2a (c : Dev nD) (j : Fin 128) : V3 m ρ c main_v7 (ix2 0 j) = m ((c : Thread nD τ).loc main_arg13) (ix1 j) := by
  show StableHlo.after hostOps1 (W2 m ρ c) (Proc.devRef .tc main_v7) (ix2 0 j) = _
  after_results
  refine (row_of_vec _ _ j).trans ?_
  walk_back
theorem V3_b2b (c : Dev nD) (j : Fin 128) : V3 m ρ c main_v8 (ix2 0 j) = m ((c : Thread nD τ).loc main_arg15) (ix1 j) := by
  show StableHlo.after hostOps1 (W2 m ρ c) (Proc.devRef .tc main_v8) (ix2 0 j) = _
  after_results
  refine (row_of_vec _ _ j).trans ?_
  walk_back
theorem V3_mask (c : Dev nD) (e : Fin 800000) : V3 m ρ c main_v6 (ix2 e 0) = maskVec (m ((c : Thread nD τ).loc main_arg3)) (ix1 e) := by
  show StableHlo.after hostOps1 (W2 m ρ c) (Proc.devRef .tc main_v6) (ix2 e 0) = _
  after_results
  refine (col_of_vec _ _ e).trans ?_
  rw [W2_arg3 m ρ c]
  rfl

/-- After the second pallas_call its output array holds the edge gate of the launch arrays. -/
theorem W4_gate (c : Dev nD) : W4 m ρ c (Proc.devRef .tc main_v9) = G0 m c := by
  refine (W4_arr m ρ c 6).trans ((Region1.value (V3 m ρ) c).trans ?_)
  rw [V3_arg2, V3_arg12, V3_arg14,
    show (fun e => V3 m ρ c main_v6 (ix2 e 0)) = fun e => maskVec (m ((c : Thread nD τ).loc main_arg3)) (ix1 e) from funext (V3_mask m ρ c),
    show (fun j => V3 m ρ c main_v7 (ix2 0 j)) = fun j => m ((c : Thread nD τ).loc main_arg13) (ix1 j) from funext (V3_b2a m ρ c),
    show (fun j => V3 m ρ c main_v8 (ix2 0 j)) = fun j => m ((c : Thread nD τ).loc main_arg15) (ix1 j) from funext (V3_b2b m ρ c)]

/-! ## The values the three aggregations share -/

theorem W4_x0 (c : Dev nD) : W4 m ρ c (Proc.devRef .tc main_v2) = X0 m c := by
  walk_back
  exact W2_x0 m ρ c
theorem W4_arg1 (c : Dev nD) : W4 m ρ c (Proc.devRef .tc main_arg1) = m ((c : Thread nD τ).loc main_arg1) := by walk_back

/-- The source words, once the edge index has been cut into its rows. -/
theorem W5_src (c : Dev nD) : W5 m ρ c (Proc.devRef .tc main_v11) = srcOf (m ((c : Thread nD τ).loc main_arg1)) := by
  show StableHlo.after hostOps2 (W4 m ρ c) (Proc.devRef .tc main_v11) = _
  after_results
  rw [W4_arg1 m ρ c]
  rfl
/-- The destination words. -/
theorem W5_dst (c : Dev nD) : W5 m ρ c (Proc.devRef .tc main_v13) = dstOf (m ((c : Thread nD τ).loc main_arg1)) := by
  show StableHlo.after hostOps2 (W4 m ρ c) (Proc.devRef .tc main_v13) = _
  after_results
  rw [W4_arg1 m ρ c]
  rfl
/-- The edge gate widened to f32. -/
theorem W5_gate (c : Dev nD) : W5 m ρ c (Proc.devRef .tc main_v14) = (extf .f32 (G0 m c : FVec Ideal S800000x128 .bf16) bitsLt_bf16_f32 : FVec Ideal S800000x128 .f32) := by
  show StableHlo.after hostOps2 (W4 m ρ c) (Proc.devRef .tc main_v14) = _
  after_results
  rw [W4_gate m ρ c]

/-! ## The third pallas_call: the first node update -/

/-- The node features after the first update. -/
abbrev H1 (c : Dev nD) : Arr 50000 128 :=
  Spec.updRelu (aggTake (X0 m c) (G0 m c) (m ((c : Thread nD τ).loc main_arg1))) (X0 m c) (m ((c : Thread nD τ).loc main_arg8)) (fun j => m ((c : Thread nD τ).loc main_arg9) (ix1 j))
    (m ((c : Thread nD τ).loc main_arg10)) (fun j => m ((c : Thread nD τ).loc main_arg11) (ix1 j))

theorem V9_h (c : Dev nD) : V9 m ρ c main_v2 = X0 m c := by
  show W9 m ρ c (Proc.devRef .tc main_v2) = _
  walk_back
  exact W2_x0 m ρ c
theorem V9_arg8 (c : Dev nD) : V9 m ρ c main_arg8 = m ((c : Thread nD τ).loc main_arg8) := by
  show W9 m ρ c (Proc.devRef .tc main_arg8) = _
  walk_back
theorem V9_arg10 (c : Dev nD) : V9 m ρ c main_arg10 = m ((c : Thread nD τ).loc main_arg10) := by
  show W9 m ρ c (Proc.devRef .tc main_arg10) = _
  walk_back
theorem W8_arg9 (c : Dev nD) : W8 m ρ c (Proc.devRef .tc main_arg9) = m ((c : Thread nD τ).loc main_arg9) := by walk_back
theorem W8_arg11 (c : Dev nD) : W8 m ρ c (Proc.devRef .tc main_arg11) = m ((c : Thread nD τ).loc main_arg11) := by walk_back
theorem V9_b1a (c : Dev nD) (j : Fin 128) : V9 m ρ c main_v21 (ix2 0 j) = m ((c : Thread nD τ).loc main_arg9) (ix1 j) := by
  show StableHlo.after hostOps2_4 (W8 m ρ c) (Proc.devRef .tc main_v21) (ix2 0 j) = _
  have h9 := W8_arg9 m ρ c
  generalize W8 m ρ c = V at h9 ⊢
  after_results
  refine (row_of_vec _ _ j).trans ?_
  rw [h9]
theorem V9_b1b (c : Dev nD) (j : Fin 128) : V9 m ρ c main_v22 (ix2 0 j) = m ((c : Thread nD τ).loc main_arg11) (ix1 j) := by
  show StableHlo.after hostOps2_4 (W8 m ρ c) (Proc.devRef .tc main_v22) (ix2 0 j) = _
  have h11 := W8_arg11 m ρ c
  generalize W8 m ρ c = V at h11 ⊢
  after_results
  refine (row_of_vec _ _ j).trans ?_
  rw [h11]

/-- The first aggregate: the kernel's aggregation of the node embedding. -/
theorem V9_agg (c : Dev nD) : V9 m ρ c main_v20 = aggTake (X0 m c) (G0 m c) (m ((c : Thread nD τ).loc main_arg1)) := by
  show W9 m ρ c (Proc.devRef .tc main_v20) = _
  rw [Fold.agg1 m ρ c, W4_x0 m ρ c, W4_gate m ρ c, W4_arg1 m ρ c]
  rfl

/-- After the third pallas_call its output array holds the first node update. -/
theorem W10_h1 (c : Dev nD) : W10 m ρ c (Proc.devRef .tc main_v23) = H1 m c := by
  refine (W10_arr m ρ c 6).trans ((Region2.value (V9 m ρ) c).trans ?_)
  rw [V9_agg, V9_h, V9_arg8, V9_arg10,
    show (fun j => V9 m ρ c main_v21 (ix2 0 j)) = fun j => m ((c : Thread nD τ).loc main_arg9) (ix1 j) from funext (V9_b1a m ρ c),
    show (fun j => V9 m ρ c main_v22 (ix2 0 j)) = fun j => m ((c : Thread nD τ).loc main_arg11) (ix1 j) from funext (V9_b1b m ρ c)]

/-! ## The fourth pallas_call: the second node update -/

theorem W10_src (c : Dev nD) : W10 m ρ c (Proc.devRef .tc main_v11) = srcOf (m ((c : Thread nD τ).loc main_arg1)) := by
  walk_back
  exact W5_src m ρ c
theorem W10_dst (c : Dev nD) : W10 m ρ c (Proc.devRef .tc main_v13) = dstOf (m ((c : Thread nD τ).loc main_arg1)) := by
  walk_back
  exact W5_dst m ρ c
theorem W10_gate (c : Dev nD) : W10 m ρ c (Proc.devRef .tc main_v14) = (extf .f32 (G0 m c : FVec Ideal S800000x128 .bf16) bitsLt_bf16_f32 : FVec Ideal S800000x128 .f32) := by
  walk_back
  exact W5_gate m ρ c

/-- The node features after the second update. -/
abbrev H2 (c : Dev nD) : Arr 50000 128 :=
  Spec.updRelu (aggTake (H1 m c) (G0 m c) (m ((c : Thread nD τ).loc main_arg1))) (H1 m c) (m ((c : Thread nD τ).loc main_arg8)) (fun j => m ((c : Thread nD τ).loc main_arg9) (ix1 j))
    (m ((c : Thread nD τ).loc main_arg10)) (fun j => m ((c : Thread nD τ).loc main_arg11) (ix1 j))

theorem V14_h (c : Dev nD) : V14 m ρ c main_v23 = H1 m c := by
  show W14 m ρ c (Proc.devRef .tc main_v23) = _
  walk_back
  exact W10_h1 m ρ c
theorem V14_arg8 (c : Dev nD) : V14 m ρ c main_arg8 = m ((c : Thread nD τ).loc main_arg8) := by
  show W14 m ρ c (Proc.devRef .tc main_arg8) = _
  walk_back
theorem V14_arg10 (c : Dev nD) : V14 m ρ c main_arg10 = m ((c : Thread nD τ).loc main_arg10) := by
  show W14 m ρ c (Proc.devRef .tc main_arg10) = _
  walk_back
theorem W13_arg9 (c : Dev nD) : W13 m ρ c (Proc.devRef .tc main_arg9) = m ((c : Thread nD τ).loc main_arg9) := by walk_back
theorem W13_arg11 (c : Dev nD) : W13 m ρ c (Proc.devRef .tc main_arg11) = m ((c : Thread nD τ).loc main_arg11) := by walk_back
theorem V14_b1a (c : Dev nD) (j : Fin 128) : V14 m ρ c main_v30 (ix2 0 j) = m ((c : Thread nD τ).loc main_arg9) (ix1 j) := by
  show StableHlo.after hostOps3_3 (W13 m ρ c) (Proc.devRef .tc main_v30) (ix2 0 j) = _
  have h9 := W13_arg9 m ρ c
  generalize W13 m ρ c = V at h9 ⊢
  after_results
  refine (row_of_vec _ _ j).trans ?_
  rw [h9]
theorem V14_b1b (c : Dev nD) (j : Fin 128) : V14 m ρ c main_v31 (ix2 0 j) = m ((c : Thread nD τ).loc main_arg11) (ix1 j) := by
  show StableHlo.after hostOps3_3 (W13 m ρ c) (Proc.devRef .tc main_v31) (ix2 0 j) = _
  have h11 := W13_arg11 m ρ c
  generalize W13 m ρ c = V at h11 ⊢
  after_results
  refine (row_of_vec _ _ j).trans ?_
  rw [h11]

/-- The second aggregate: the kernel's aggregation of the first update's result. -/
theorem V14_agg (c : Dev nD) : V14 m ρ c main_v29 = aggTake (H1 m c) (G0 m c) (m ((c : Thread nD τ).loc main_arg1)) := by
  show W14 m ρ c (Proc.devRef .tc main_v29) = _
  rw [Fold.agg2 m ρ c, W10_h1 m ρ c, W10_gate m ρ c, W10_src m ρ c, W10_dst m ρ c]
  rfl

/-- After the fourth pallas_call its output array holds the second node update. -/
theorem W15_h2 (c : Dev nD) : W15 m ρ c (Proc.devRef .tc main_v32) = H2 m c := by
  refine (W15_arr m ρ c 6).trans ((Region3.value (V14 m ρ) c).trans ?_)
  rw [V14_agg, V14_h, V14_arg8, V14_arg10,
    show (fun j => V14 m ρ c main_v30 (ix2 0 j)) = fun j => m ((c : Thread nD τ).loc main_arg9) (ix1 j) from funext (V14_b1a m ρ c),
    show (fun j => V14 m ρ c main_v31 (ix2 0 j)) = fun j => m ((c : Thread nD τ).loc main_arg11) (ix1 j) from funext (V14_b1b m ρ c)]

/-! ## The fifth pallas_call: the last node update -/

theorem W15_src (c : Dev nD) : W15 m ρ c (Proc.devRef .tc main_v11) = srcOf (m ((c : Thread nD τ).loc main_arg1)) := by
  walk_back
  exact W5_src m ρ c
theorem W15_dst (c : Dev nD) : W15 m ρ c (Proc.devRef .tc main_v13) = dstOf (m ((c : Thread nD τ).loc main_arg1)) := by
  walk_back
  exact W5_dst m ρ c
theorem W15_gate (c : Dev nD) : W15 m ρ c (Proc.devRef .tc main_v14) = (extf .f32 (G0 m c : FVec Ideal S800000x128 .bf16) bitsLt_bf16_f32 : FVec Ideal S800000x128 .f32) := by
  walk_back
  exact W5_gate m ρ c

/-- The kernel program's result: the node features after the last update. -/
abbrev H3 (c : Dev nD) : Arr 50000 128 :=
  Spec.updLast (aggTake (H2 m c) (G0 m c) (m ((c : Thread nD τ).loc main_arg1))) (H2 m c) (m ((c : Thread nD τ).loc main_arg8)) (fun j => m ((c : Thread nD τ).loc main_arg9) (ix1 j))
    (m ((c : Thread nD τ).loc main_arg10)) (fun j => m ((c : Thread nD τ).loc main_arg11) (ix1 j))

theorem V19_h (c : Dev nD) : V19 m ρ c main_v32 = H2 m c := by
  show W19 m ρ c (Proc.devRef .tc main_v32) = _
  walk_back
  exact W15_h2 m ρ c
theorem V19_arg8 (c : Dev nD) : V19 m ρ c main_arg8 = m ((c : Thread nD τ).loc main_arg8) := by
  show W19 m ρ c (Proc.devRef .tc main_arg8) = _
  walk_back
theorem V19_arg10 (c : Dev nD) : V19 m ρ c main_arg10 = m ((c : Thread nD τ).loc main_arg10) := by
  show W19 m ρ c (Proc.devRef .tc main_arg10) = _
  walk_back
theorem W18_arg9 (c : Dev nD) : W18 m ρ c (Proc.devRef .tc main_arg9) = m ((c : Thread nD τ).loc main_arg9) := by walk_back
theorem W18_arg11 (c : Dev nD) : W18 m ρ c (Proc.devRef .tc main_arg11) = m ((c : Thread nD τ).loc main_arg11) := by walk_back
theorem V19_b1a (c : Dev nD) (j : Fin 128) : V19 m ρ c main_v39 (ix2 0 j) = m ((c : Thread nD τ).loc main_arg9) (ix1 j) := by
  show StableHlo.after hostOps4_3 (W18 m ρ c) (Proc.devRef .tc main_v39) (ix2 0 j) = _
  have h9 := W18_arg9 m ρ c
  generalize W18 m ρ c = V at h9 ⊢
  after_results
  refine (row_of_vec _ _ j).trans ?_
  rw [h9]
theorem V19_b1b (c : Dev nD) (j : Fin 128) : V19 m ρ c main_v40 (ix2 0 j) = m ((c : Thread nD τ).loc main_arg11) (ix1 j) := by
  show StableHlo.after hostOps4_3 (W18 m ρ c) (Proc.devRef .tc main_v40) (ix2 0 j) = _
  have h11 := W18_arg11 m ρ c
  generalize W18 m ρ c = V at h11 ⊢
  after_results
  refine (row_of_vec _ _ j).trans ?_
  rw [h11]

/-- The third aggregate: the kernel's aggregation of the second update's result. -/
theorem V19_agg (c : Dev nD) : V19 m ρ c main_v38 = aggTake (H2 m c) (G0 m c) (m ((c : Thread nD τ).loc main_arg1)) := by
  show W19 m ρ c (Proc.devRef .tc main_v38) = _
  rw [Fold.agg3 m ρ c, W15_h2 m ρ c, W15_gate m ρ c, W15_src m ρ c, W15_dst m ρ c]
  rfl

/-- After the fifth pallas_call its output array, the program's result, holds the last node update. -/
theorem W20_h3 (c : Dev nD) : W20 m ρ c (Proc.devRef .tc main_v41) = H3 m c := by
  refine (W20_arr m ρ c 6).trans ((Region4.value (V19 m ρ) c).trans ?_)
  rw [V19_agg, V19_h, V19_arg8, V19_arg10,
    show (fun j => V19 m ρ c main_v39 (ix2 0 j)) = fun j => m ((c : Thread nD τ).loc main_arg9) (ix1 j) from funext (V19_b1a m ρ c),
    show (fun j => V19 m ρ c main_v40 (ix2 0 j)) = fun j => m ((c : Thread nD τ).loc main_arg11) (ix1 j) from funext (V19_b1b m ρ c)]

end Cert.KernelIdeal.Chain

end
-- ==== Proof.PreDecode.lean ====
/-
  What the precondition says about the source words. The precondition is a conjunction of "all" tests, one per float
  input (every entry finite) and two on row 0 of the edge index (every word at least −50000; every word below 50000),
  and it holds when the conjunction is the bit 1. From it: every source word, read as a signed integer, lies in
  −50000 … 49999, that is, is a legal row index of a 50000-row table counting from either end.
-/
import proofs.«406182_j75024488726862_2_alg».proof.Pre_finite_inputs
import proofs.«406182_j75024488726862_2_alg».proof.Proof.Gen.Pre_finite_inputs
import proofs.«406182_j75024488726862_2_alg».proof.Proof.KGlue
import Idealize.ShloMosaic.Lib.ReduceAll
import Idealize.ShloMosaic.Lib.StableHlo.Predicate
import Idealize.ShloMosaic.Lib.ValueIdx

noncomputable section

namespace Cert.PreDecode

open Idealize.ShloMosaic Idealize.ShloMosaic.ValueIdx

/-- An array with no axes has one index. -/
instance : Subsingleton Cert.Pre_finite_inputs.S_.Idx := ⟨fun a b => funext fun d => d.elim0⟩

/-- The word 4294917296, read as a signed integer, is −50000. -/
theorem lo_toInt : (4294917296#32 : BitVec 32).toInt = -50000 := by decide

/-- The word 50000, read as a signed integer, is 50000. -/
theorem hi_toInt : (50000#32 : BitVec 32).toInt = 50000 := by decide

/-- When the precondition holds of the argument arrays, every source word (row 0 of the edge index) is legal. -/
theorem srcLegal_of_pre (a0 : FVec Ideal Cert.Pre_finite_inputs.S50000x5 .f32) (a1 : IVec Cert.Pre_finite_inputs.S2x800000 32) (a2 : FVec Ideal Cert.Pre_finite_inputs.S800000x128 .f32) (a3 : FVec Ideal Cert.Pre_finite_inputs.S800000 .f32) (a4 : FVec Ideal Cert.Pre_finite_inputs.S5x128 .f32) (a5 : FVec Ideal Cert.Pre_finite_inputs.S128 .f32) (a6 : FVec Ideal Cert.Pre_finite_inputs.S128x128 .f32) (a7 : FVec Ideal Cert.Pre_finite_inputs.S128 .f32) (a8 : FVec Ideal Cert.Pre_finite_inputs.S128x128 .f32) (a9 : FVec Ideal Cert.Pre_finite_inputs.S128 .f32) (a10 : FVec Ideal Cert.Pre_finite_inputs.S128x128 .f32) (a11 : FVec Ideal Cert.Pre_finite_inputs.S128 .f32) (a12 : FVec Ideal Cert.Pre_finite_inputs.S128x128 .f32) (a13 : FVec Ideal Cert.Pre_finite_inputs.S128 .f32) (a14 : FVec Ideal Cert.Pre_finite_inputs.S128x128 .f32) (a15 : FVec Ideal Cert.Pre_finite_inputs.S128 .f32)
    (h : Cert.Pre_finite_inputs.fn (F := Ideal) a0 a1 a2 a3 a4 a5 a6 a7 a8 a9 a10 a11 a12 a13 a14 a15 = fun _ => 1#1) :
    Cert.KernelIdeal.Glue.SrcLegal (Cert.KernelIdeal.Glue.srcOf a1) := by
  have h0 := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4] at h0
  -- the conjunction is a chain of `and`s; its last two members are the two tests on the source words
  obtain ⟨h1, hlt⟩ := IntOp.andi_eq_one.1 h0
  obtain ⟨_, hge⟩ := IntOp.andi_eq_one.1 h1
  intro e
  -- an `all` that is 1 had a 1 at every index; a comparison that is 1 says its relation of the signed readings
  have ege := IntOp.cmpi_sge.1 (Host.reduce_andi_all _ _ _ _ _ hge e)
  have elt := IntOp.cmpi_slt.1 (Host.reduce_andi_all _ _ _ _ _ hlt e)
  -- each bound is one word laid over every index
  rw [broadcastInDim_apply _ _ _ e ValueIdx.ix0 (fun a => a.elim0)] at ege elt
  exact ⟨lo_toInt ▸ ege, hi_toInt ▸ elt⟩

end Cert.PreDecode

end
-- ==== Proof.Net.lean ====
/-
  The whole network as one function of its input arrays and of an aggregation operator.

  With `A` the operator that turns node features into the per-node aggregate (gather the source rows, add the gate,
  clamp, sum into the destination rows), the network is three node updates: h₁ = update (A x) x, h₂ = update (A h₁) h₁
  with the activation, and h₃ = update (A h₂) h₂ without it, from the node embedding x. Both programs compute this
  function: the kernel program with its row take as the gather, the reference with the plain gather.
-/
import proofs.«406182_j75024488726862_2_alg».proof.Proof.Spec
import proofs.«406182_j75024488726862_2_alg».proof.Proof.KGlue

noncomputable section

namespace Cert.Net

open Cert.Spec Cert.KernelIdeal Cert.KernelIdeal.Glue
open Idealize.ShloMosaic Idealize.ShloMosaic.ValueIdx

/-- The node embedding of the input arrays. -/
def x0 (z : Arr 50000 5) (w0a : Arr 5 128) (b0a : FVec Ideal S128 .f32) (w0b : Arr 128 128) (b0b : FVec Ideal S128 .f32) : Arr 50000 128 :=
  Spec.embed z w0a (fun j => b0a (ix1 j)) w0b (fun j => b0b (ix1 j))

/-- The edge gate of the input arrays. -/
def g0 (ea : Arr 800000 128) (el : FVec Ideal S800000 .f32) (w2a : Arr 128 128) (b2a : FVec Ideal S128 .f32) (w2b : Arr 128 128)
    (b2b : FVec Ideal S128 .f32) : Arr 800000 128 :=
  Spec.gate ea (fun e => maskVec el (ix1 e)) w2a (fun j => b2a (ix1 j)) w2b (fun j => b2b (ix1 j))

section
variable (A : Arr 50000 128 → Arr 50000 128) (x : Arr 50000 128)
  (w1a : Arr 128 128) (b1a : FVec Ideal S128 .f32) (w1b : Arr 128 128) (b1b : FVec Ideal S128 .f32)

/-- The node features after the first update. -/
def h1 : Arr 50000 128 := Spec.updRelu (A x) x w1a (fun j => b1a (ix1 j)) w1b (fun j => b1b (ix1 j))

/-- The node features after the second update. -/
def h2 : Arr 50000 128 :=
  Spec.updRelu (A (h1 A x w1a b1a w1b b1b)) (h1 A x w1a b1a w1b b1b) w1a (fun j => b1a (ix1 j)) w1b (fun j => b1b (ix1 j))

/-- The network's result: the node features after the last update. -/
def h3 : Arr 50000 128 :=
  Spec.updLast (A (h2 A x w1a b1a w1b b1b)) (h2 A x w1a b1a w1b b1b) w1a (fun j => b1a (ix1 j)) w1b (fun j => b1b (ix1 j))

end

/-- The network's result depends on the aggregation operator only through its values. -/
theorem h3_congr {A B : Arr 50000 128 → Arr 50000 128} (hAB : ∀ h, A h = B h) (x : Arr 50000 128)
    (w1a : Arr 128 128) (b1a : FVec Ideal S128 .f32) (w1b : Arr 128 128) (b1b : FVec Ideal S128 .f32) :
    h3 A x w1a b1a w1b b1b = h3 B x w1a b1a w1b b1b := by
  have e : A = B := funext hAB
  rw [e]

end Cert.Net

end
-- ==== Proof.RefDense.lean ====
/-
  The reference program's two input stages are row-wise perceptrons. The node embedding and the edge gate, as the
  reference computes them on the host (a product of whole matrices, a bias row laid over every row, a clamp at zero, a
  second product and bias, and for the gate the mask column laid over every column), are, index by index, the stage
  functions of the same arrays.
-/
import proofs.«406182_j75024488726862_2_alg».proof.Proof.Gen.ReferenceIdeal.Read
import proofs.«406182_j75024488726862_2_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.ReferenceIdeal.Dense

open Cert.ReferenceIdeal Cert.ReferenceIdeal.Read Cert.Spec
open Idealize.ShloMosaic Idealize.ShloMosaic.ValueIdx

/-! ### The node embedding: where each stage reads its operands, at the index (p, q) -/

/-- The first product reads row p of its left operand. -/
theorem embed_lidx0 (p : Fin 50000) (q : Fin 128) (k : Fin 5) : lidx_main_v0 (ix2 p q) k = ix2 p k :=
  funext fun a => Fin.ext (by match a with | ⟨0, _⟩ => rfl | ⟨1, _⟩ => rfl)

/-- The first product reads column q of its right operand. -/
theorem embed_ridx0 (p : Fin 50000) (q : Fin 128) (k : Fin 5) : ridx_main_v0 (ix2 p q) k = ix2 k q :=
  funext fun a => Fin.ext (by match a with | ⟨0, _⟩ => rfl | ⟨1, _⟩ => rfl)

/-- The first bias row, laid over the rows, is read at q. -/
theorem embed_bidx0 (p : Fin 50000) (q : Fin 128) : idx_main_v1 (idx_main_v2 (ix2 p q)) = ix1 q :=
  funext fun a => Fin.ext (by match a with | ⟨0, _⟩ => rfl)

/-- The second product reads row p of its left operand. -/
theorem embed_lidx5 (p : Fin 50000) (q : Fin 128) (k : Fin 128) : lidx_main_v5 (ix2 p q) k = ix2 p k :=
  funext fun a => Fin.ext (by match a with | ⟨0, _⟩ => rfl | ⟨1, _⟩ => rfl)

/-- The second product reads column q of its right operand. -/
theorem embed_ridx5 (p : Fin 50000) (q : Fin 128) (k : Fin 128) : ridx_main_v5 (ix2 p q) k = ix2 k q :=
  funext fun a => Fin.ext (by match a with | ⟨0, _⟩ => rfl | ⟨1, _⟩ => rfl)

/-- The second bias row, laid over the rows, is read at q. -/
theorem embed_bidx5 (p : Fin 50000) (q : Fin 128) : idx_main_v6 (idx_main_v7 (ix2 p q)) = ix1 q :=
  funext fun a => Fin.ext (by match a with | ⟨0, _⟩ => rfl)

/-- The clamped first layer at (p, k) is the hidden row of row p of `z`, at k. -/
theorem embed_hidden (x0 : (⟨S50000x5, .f32⟩ : BufTy).Contents (Elt Ideal)) (x4 : (⟨S5x128, .f32⟩ : BufTy).Contents (Elt Ideal)) (x5 : (⟨S128, .f32⟩ : BufTy).Contents (Elt Ideal)) (p : Fin 50000) (k : Fin 128) :
    val_main_v4 (F := Ideal) x0 x4 x5 (ix2 p k) = Spec.hidden (fun a => x0 (ix2 p a)) x4 (fun j => x5 (ix1 j)) k := by
  rw [val_main_v4_apply, val_main_v3_apply, val_main_v0_apply, val_main_v2_apply, val_main_v1_apply,
    val_main_call0_v0_apply, val_main_call0_cst_apply]
  unfold Spec.hidden Spec.lin
  simp only [embed_lidx0, embed_ridx0, embed_bidx0, Ideal.addf_def, Ideal.maximumf_def]
  rfl

/-- The reference's node embedding is the perceptron on every row of `z`. -/
theorem embed_eq (x0 : (⟨S50000x5, .f32⟩ : BufTy).Contents (Elt Ideal)) (x4 : (⟨S5x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    val_main_v8 (F := Ideal) x0 x4 x5 x6 x7 = Spec.embed x0 x4 (fun j => x5 (ix1 j)) x6 (fun j => x7 (ix1 j)) := by
  funext i
  obtain ⟨p, q, rfl⟩ : ∃ (p : Fin 50000) (q : Fin 128), i = ix2 p q := ⟨i 0, i 1, eq_ix2 i⟩
  rw [val_main_v8_apply, val_main_v5_apply, val_main_v7_apply, val_main_v6_apply]
  unfold Spec.embed Spec.mlpRow Spec.lin
  simp only [embed_lidx5, embed_ridx5, embed_bidx5, embed_hidden, Ideal.addf_def]

/-! ### The edge gate: where each stage reads its operands, at the index (e, q) -/

/-- The first product reads row e of its left operand. -/
theorem gate_lidx13 (e : Fin 800000) (q : Fin 128) (k : Fin 128) : lidx_main_v13 (ix2 e q) k = ix2 e k :=
  funext fun a => Fin.ext (by match a with | ⟨0, _⟩ => rfl | ⟨1, _⟩ => rfl)

/-- The first product reads column q of its right operand. -/
theorem gate_ridx13 (e : Fin 800000) (q : Fin 128) (k : Fin 128) : ridx_main_v13 (ix2 e q) k = ix2 k q :=
  funext fun a => Fin.ext (by match a with | ⟨0, _⟩ => rfl | ⟨1, _⟩ => rfl)

/-- The first bias row, laid over the rows, is read at q. -/
theorem gate_bidx13 (e : Fin 800000) (q : Fin 128) : idx_main_v14 (idx_main_v15 (ix2 e q)) = ix1 q :=
  funext fun a => Fin.ext (by match a with | ⟨0, _⟩ => rfl)

/-- The second product reads row e of its left operand. -/
theorem gate_lidx18 (e : Fin 800000) (q : Fin 128) (k : Fin 128) : lidx_main_v18 (ix2 e q) k = ix2 e k :=
  funext fun a => Fin.ext (by match a with | ⟨0, _⟩ => rfl | ⟨1, _⟩ => rfl)

/-- The second product reads column q of its right operand. -/
theorem gate_ridx18 (e : Fin 800000) (q : Fin 128) (k : Fin 128) : ridx_main_v18 (ix2 e q) k = ix2 k q :=
  funext fun a => Fin.ext (by match a with | ⟨0, _⟩ => rfl | ⟨1, _⟩ => rfl)

/-- The second bias row, laid over the rows, is read at q. -/
theorem gate_bidx18 (e : Fin 800000) (q : Fin 128) : idx_main_v19 (idx_main_v20 (ix2 e q)) = ix1 q :=
  funext fun a => Fin.ext (by match a with | ⟨0, _⟩ => rfl)

/-- The mask vector, laid along the columns, is read at e. -/
theorem gate_midx (e : Fin 800000) (q : Fin 128) : idx_main_v12 (idx_main_v22 (ix2 e q)) = ix1 e :=
  funext fun a => Fin.ext (by match a with | ⟨0, _⟩ => rfl)

/-- The clamped first layer at (e, k) is the hidden row of row e of the edge attributes, at k. -/
theorem gate_hidden (x2 : (⟨S800000x128, .f32⟩ : BufTy).Contents (Elt Ideal)) (x12 : (⟨S128x128, .f32⟩ : BufTy).Contents (Elt Ideal)) (x13 : (⟨S128, .f32⟩ : BufTy).Contents (Elt Ideal)) (e : Fin 800000) (k : Fin 128) :
    val_main_v17 (F := Ideal) x2 x12 x13 (ix2 e k) = Spec.hidden (fun a => x2 (ix2 e a)) x12 (fun j => x13 (ix1 j)) k := by
  rw [val_main_v17_apply, val_main_v16_apply, val_main_v13_apply, val_main_v15_apply, val_main_v14_apply,
    val_main_call1_v0_apply, val_main_call1_cst_apply]
  unfold Spec.hidden Spec.lin
  simp only [gate_lidx13, gate_ridx13, gate_bidx13, Ideal.addf_def, Ideal.maximumf_def]
  rfl

/-- The reference's edge gate is the perceptron on every row of the edge attributes times the row's mask entry, the
    mask being the reference's own 0/1 vector of the cutoff test. -/
theorem gate_eq (x2 : (⟨S800000x128, .f32⟩ : BufTy).Contents (Elt Ideal)) (x3 : (⟨S800000, .f32⟩ : BufTy).Contents (Elt Ideal)) (x12 : (⟨S128x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) :
    val_main_v23 (F := Ideal) x2 x3 x12 x13 x14 x15
      = Spec.gate x2 (fun e => val_main_v11 (F := Ideal) x3 (ix1 e)) x12 (fun j => x13 (ix1 j)) x14 (fun j => x15 (ix1 j)) := by
  funext i
  obtain ⟨e, q, rfl⟩ : ∃ (e : Fin 800000) (q : Fin 128), i = ix2 e q := ⟨i 0, i 1, eq_ix2 i⟩
  rw [val_main_v23_apply, val_main_v21_apply, val_main_v18_apply, val_main_v20_apply, val_main_v19_apply,
    val_main_v22_apply, val_main_v12_apply]
  unfold Spec.gate Spec.mlpRow Spec.lin
  simp only [gate_lidx18, gate_ridx18, gate_bidx18, gate_midx, gate_hidden, Ideal.addf_def, Ideal.mulf_def]

end Cert.ReferenceIdeal.Dense

end
-- ==== Proof.RefUpdates.lean ====
/-
  The reference program's three node updates are row-wise perceptrons. Each, as the reference computes it on the host
  (the aggregate plus one times the node features, a product of whole matrices, a bias row laid over every row, a clamp
  at zero, a second product and bias, for the first two a second clamp, and the node features added back), is, index by
  index, the update function of whatever aggregate and node features the stretch is given. The gathers and
  scatter-adds that make the aggregates are not opened here.
-/
import proofs.«406182_j75024488726862_2_alg».proof.Proof.Gen.ReferenceIdeal.Read
import proofs.«406182_j75024488726862_2_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.ReferenceIdeal.Updates

open Cert.ReferenceIdeal Cert.ReferenceIdeal.Read Cert.Spec
open Idealize.ShloMosaic Idealize.ShloMosaic.ValueIdx

/-- Update 1, first product at (p, q) with running index k: the left factor is read at (p, k). -/
theorem left1a (p : Fin 50000) (q k : Fin 128) : lidx_main_v43 (ix2 p q) k = ix2 p k :=
  funext fun a => Fin.ext (by match a with | ⟨0, _⟩ => rfl | ⟨1, _⟩ => rfl)

/-- Update 1, first product at (p, q) with running index k: the weight is read at (k, q). -/
theorem right1a (p : Fin 50000) (q k : Fin 128) : ridx_main_v43 (ix2 p q) k = ix2 k q :=
  funext fun a => Fin.ext (by match a with | ⟨0, _⟩ => rfl | ⟨1, _⟩ => rfl)

/-- Update 1, second product at (p, q) with running index k: the left factor is read at (p, k). -/
theorem left1b (p : Fin 50000) (q k : Fin 128) : lidx_main_v48 (ix2 p q) k = ix2 p k :=
  funext fun a => Fin.ext (by match a with | ⟨0, _⟩ => rfl | ⟨1, _⟩ => rfl)

/-- Update 1, second product at (p, q) with running index k: the weight is read at (k, q). -/
theorem right1b (p : Fin 50000) (q k : Fin 128) : ridx_main_v48 (ix2 p q) k = ix2 k q :=
  funext fun a => Fin.ext (by match a with | ⟨0, _⟩ => rfl | ⟨1, _⟩ => rfl)

/-- Update 1: the first bias row, laid over every row, is read at its entry q at (p, q). -/
theorem bias1a (p : Fin 50000) (q : Fin 128) : idx_main_v44 (idx_main_v45 (ix2 p q)) = ix1 q :=
  funext fun a => Fin.ext (by match a with | ⟨0, _⟩ => rfl)

/-- Update 1: the second bias row, laid over every row, is read at its entry q at (p, q). -/
theorem bias1b (p : Fin 50000) (q : Fin 128) : idx_main_v49 (idx_main_v50 (ix2 p q)) = ix1 q :=
  funext fun a => Fin.ext (by match a with | ⟨0, _⟩ => rfl)

/-- Update 1: the clamped first layer at (p, k) is the hidden row of row p of the aggregate plus one times the node
    features: the product's k-th column sum plus the bias entry k, clamped at zero. -/
theorem hidden1 (x0 : (⟨S50000x5, .f32⟩ : BufTy).Contents (Elt Ideal)) (x1 : (⟨S2x800000, .i32⟩ : BufTy).Contents (Elt Ideal)) (x2 : (⟨S800000x128, .f32⟩ : BufTy).Contents (Elt Ideal)) (x3 : (⟨S800000, .f32⟩ : BufTy).Contents (Elt Ideal)) (x4 : (⟨S5x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x12 : (⟨S128x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (p : Fin 50000) (k : Fin 128) :
    val_main_v47 (F := Ideal) x0 x1 x2 x3 x4 x5 x6 x7 x8 x9 x12 x13 x14 x15 (ix2 p k)
      = Spec.hidden (fun c => val_main_v39 (F := Ideal) x0 x1 x2 x3 x4 x5 x6 x7 x12 x13 x14 x15 (ix2 p c)
            + Spec.oneW * val_main_v8 (F := Ideal) x0 x4 x5 x6 x7 (ix2 p c)) x8 (fun j => x9 (ix1 j)) k := by
  rw [val_main_v47_apply, val_main_v46_apply, val_main_v43_apply, val_main_v45_apply, val_main_v44_apply,
    val_main_call3_v0_apply, val_main_call3_cst_apply, bias1a]
  unfold Spec.hidden Spec.lin
  refine congrArg (fun s : EReal => max (s + x9 (ix1 k)) Spec.zeroW) (Finset.sum_congr rfl fun c _ => ?_)
  rw [left1a, right1a, val_main_v42_apply, val_main_v41_apply, val_main_v40_apply, val_main_cst_2_apply]
  rfl

/-- The reference's first node update, over its first aggregate and the node embedding. -/
theorem upd1_eq (x0 : (⟨S50000x5, .f32⟩ : BufTy).Contents (Elt Ideal)) (x1 : (⟨S2x800000, .i32⟩ : BufTy).Contents (Elt Ideal)) (x2 : (⟨S800000x128, .f32⟩ : BufTy).Contents (Elt Ideal)) (x3 : (⟨S800000, .f32⟩ : BufTy).Contents (Elt Ideal)) (x4 : (⟨S5x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) :
    val_main_v53 (F := Ideal) x0 x1 x2 x3 x4 x5 x6 x7 x8 x9 x10 x11 x12 x13 x14 x15
      = Spec.updRelu (val_main_v39 (F := Ideal) x0 x1 x2 x3 x4 x5 x6 x7 x12 x13 x14 x15) (val_main_v8 (F := Ideal) x0 x4 x5 x6 x7)
          x8 (fun j => x9 (ix1 j)) x10 (fun j => x11 (ix1 j)) := by
  funext i
  obtain ⟨p, q, rfl⟩ : ∃ (p : Fin 50000) (q : Fin 128), i = ix2 p q := ⟨i 0, i 1, eq_ix2 i⟩
  rw [val_main_v53_apply, val_main_v52_apply, val_main_v51_apply, val_main_v48_apply, val_main_v50_apply,
    val_main_v49_apply, val_main_call4_v0_apply, val_main_call4_cst_apply, bias1b]
  unfold Spec.updRelu Spec.updRow Spec.mlpRow Spec.lin
  refine congrArg (fun s : EReal => max (s + x11 (ix1 q)) Spec.zeroW + val_main_v8 (F := Ideal) x0 x4 x5 x6 x7 (ix2 p q))
    (Finset.sum_congr rfl fun k _ => ?_)
  rw [left1b, right1b, hidden1]

/-- Update 2, first product at (p, q) with running index k: the left factor is read at (p, k). -/
theorem left2a (p : Fin 50000) (q k : Fin 128) : lidx_main_v69 (ix2 p q) k = ix2 p k :=
  funext fun a => Fin.ext (by match a with | ⟨0, _⟩ => rfl | ⟨1, _⟩ => rfl)

/-- Update 2, first product at (p, q) with running index k: the weight is read at (k, q). -/
theorem right2a (p : Fin 50000) (q k : Fin 128) : ridx_main_v69 (ix2 p q) k = ix2 k q :=
  funext fun a => Fin.ext (by match a with | ⟨0, _⟩ => rfl | ⟨1, _⟩ => rfl)

/-- Update 2, second product at (p, q) with running index k: the left factor is read at (p, k). -/
theorem left2b (p : Fin 50000) (q k : Fin 128) : lidx_main_v74 (ix2 p q) k = ix2 p k :=
  funext fun a => Fin.ext (by match a with | ⟨0, _⟩ => rfl | ⟨1, _⟩ => rfl)

/-- Update 2, second product at (p, q) with running index k: the weight is read at (k, q). -/
theorem right2b (p : Fin 50000) (q k : Fin 128) : ridx_main_v74 (ix2 p q) k = ix2 k q :=
  funext fun a => Fin.ext (by match a with | ⟨0, _⟩ => rfl | ⟨1, _⟩ => rfl)

/-- Update 2: the first bias row, laid over every row, is read at its entry q at (p, q). -/
theorem bias2a (p : Fin 50000) (q : Fin 128) : idx_main_v70 (idx_main_v71 (ix2 p q)) = ix1 q :=
  funext fun a => Fin.ext (by match a with | ⟨0, _⟩ => rfl)

/-- Update 2: the second bias row, laid over every row, is read at its entry q at (p, q). -/
theorem bias2b (p : Fin 50000) (q : Fin 128) : idx_main_v75 (idx_main_v76 (ix2 p q)) = ix1 q :=
  funext fun a => Fin.ext (by match a with | ⟨0, _⟩ => rfl)

/-- Update 2: the clamped first layer at (p, k) is the hidden row of row p of the aggregate plus one times the node
    features: the product's k-th column sum plus the bias entry k, clamped at zero. -/
theorem hidden2 (x0 : (⟨S50000x5, .f32⟩ : BufTy).Contents (Elt Ideal)) (x1 : (⟨S2x800000, .i32⟩ : BufTy).Contents (Elt Ideal)) (x2 : (⟨S800000x128, .f32⟩ : BufTy).Contents (Elt Ideal)) (x3 : (⟨S800000, .f32⟩ : BufTy).Contents (Elt Ideal)) (x4 : (⟨S5x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (p : Fin 50000) (k : Fin 128) :
    val_main_v73 (F := Ideal) x0 x1 x2 x3 x4 x5 x6 x7 x8 x9 x10 x11 x12 x13 x14 x15 (ix2 p k)
      = Spec.hidden (fun c => val_main_v65 (F := Ideal) x0 x1 x2 x3 x4 x5 x6 x7 x8 x9 x10 x11 x12 x13 x14 x15 (ix2 p c)
            + Spec.oneW * val_main_v53 (F := Ideal) x0 x1 x2 x3 x4 x5 x6 x7 x8 x9 x10 x11 x12 x13 x14 x15 (ix2 p c)) x8 (fun j => x9 (ix1 j)) k := by
  rw [val_main_v73_apply, val_main_v72_apply, val_main_v69_apply, val_main_v71_apply, val_main_v70_apply,
    val_main_call6_v0_apply, val_main_call6_cst_apply, bias2a]
  unfold Spec.hidden Spec.lin
  refine congrArg (fun s : EReal => max (s + x9 (ix1 k)) Spec.zeroW) (Finset.sum_congr rfl fun c _ => ?_)
  rw [left2a, right2a, val_main_v68_apply, val_main_v67_apply, val_main_v66_apply, val_main_cst_6_apply]
  rfl

/-- The reference's second node update, over its second aggregate and the first update's result. -/
theorem upd2_eq (x0 : (⟨S50000x5, .f32⟩ : BufTy).Contents (Elt Ideal)) (x1 : (⟨S2x800000, .i32⟩ : BufTy).Contents (Elt Ideal)) (x2 : (⟨S800000x128, .f32⟩ : BufTy).Contents (Elt Ideal)) (x3 : (⟨S800000, .f32⟩ : BufTy).Contents (Elt Ideal)) (x4 : (⟨S5x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) :
    val_main_v79 (F := Ideal) x0 x1 x2 x3 x4 x5 x6 x7 x8 x9 x10 x11 x12 x13 x14 x15
      = Spec.updRelu (val_main_v65 (F := Ideal) x0 x1 x2 x3 x4 x5 x6 x7 x8 x9 x10 x11 x12 x13 x14 x15) (val_main_v53 (F := Ideal) x0 x1 x2 x3 x4 x5 x6 x7 x8 x9 x10 x11 x12 x13 x14 x15)
          x8 (fun j => x9 (ix1 j)) x10 (fun j => x11 (ix1 j)) := by
  funext i
  obtain ⟨p, q, rfl⟩ : ∃ (p : Fin 50000) (q : Fin 128), i = ix2 p q := ⟨i 0, i 1, eq_ix2 i⟩
  rw [val_main_v79_apply, val_main_v78_apply, val_main_v77_apply, val_main_v74_apply, val_main_v76_apply,
    val_main_v75_apply, val_main_call7_v0_apply, val_main_call7_cst_apply, bias2b]
  unfold Spec.updRelu Spec.updRow Spec.mlpRow Spec.lin
  refine congrArg (fun s : EReal => max (s + x11 (ix1 q)) Spec.zeroW + val_main_v53 (F := Ideal) x0 x1 x2 x3 x4 x5 x6 x7 x8 x9 x10 x11 x12 x13 x14 x15 (ix2 p q))
    (Finset.sum_congr rfl fun k _ => ?_)
  rw [left2b, right2b, hidden2]

/-- Update 3, first product at (p, q) with running index k: the left factor is read at (p, k). -/
theorem left3a (p : Fin 50000) (q k : Fin 128) : lidx_main_v95 (ix2 p q) k = ix2 p k :=
  funext fun a => Fin.ext (by match a with | ⟨0, _⟩ => rfl | ⟨1, _⟩ => rfl)

/-- Update 3, first product at (p, q) with running index k: the weight is read at (k, q). -/
theorem right3a (p : Fin 50000) (q k : Fin 128) : ridx_main_v95 (ix2 p q) k = ix2 k q :=
  funext fun a => Fin.ext (by match a with | ⟨0, _⟩ => rfl | ⟨1, _⟩ => rfl)

/-- Update 3, second product at (p, q) with running index k: the left factor is read at (p, k). -/
theorem left3b (p : Fin 50000) (q k : Fin 128) : lidx_main_v100 (ix2 p q) k = ix2 p k :=
  funext fun a => Fin.ext (by match a with | ⟨0, _⟩ => rfl | ⟨1, _⟩ => rfl)

/-- Update 3, second product at (p, q) with running index k: the weight is read at (k, q). -/
theorem right3b (p : Fin 50000) (q k : Fin 128) : ridx_main_v100 (ix2 p q) k = ix2 k q :=
  funext fun a => Fin.ext (by match a with | ⟨0, _⟩ => rfl | ⟨1, _⟩ => rfl)

/-- Update 3: the first bias row, laid over every row, is read at its entry q at (p, q). -/
theorem bias3a (p : Fin 50000) (q : Fin 128) : idx_main_v96 (idx_main_v97 (ix2 p q)) = ix1 q :=
  funext fun a => Fin.ext (by match a with | ⟨0, _⟩ => rfl)

/-- Update 3: the second bias row, laid over every row, is read at its entry q at (p, q). -/
theorem bias3b (p : Fin 50000) (q : Fin 128) : idx_main_v101 (idx_main_v102 (ix2 p q)) = ix1 q :=
  funext fun a => Fin.ext (by match a with | ⟨0, _⟩ => rfl)

/-- Update 3: the clamped first layer at (p, k) is the hidden row of row p of the aggregate plus one times the node
    features: the product's k-th column sum plus the bias entry k, clamped at zero. -/
theorem hidden3 (x0 : (⟨S50000x5, .f32⟩ : BufTy).Contents (Elt Ideal)) (x1 : (⟨S2x800000, .i32⟩ : BufTy).Contents (Elt Ideal)) (x2 : (⟨S800000x128, .f32⟩ : BufTy).Contents (Elt Ideal)) (x3 : (⟨S800000, .f32⟩ : BufTy).Contents (Elt Ideal)) (x4 : (⟨S5x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (p : Fin 50000) (k : Fin 128) :
    val_main_v99 (F := Ideal) x0 x1 x2 x3 x4 x5 x6 x7 x8 x9 x10 x11 x12 x13 x14 x15 (ix2 p k)
      = Spec.hidden (fun c => val_main_v91 (F := Ideal) x0 x1 x2 x3 x4 x5 x6 x7 x8 x9 x10 x11 x12 x13 x14 x15 (ix2 p c)
            + Spec.oneW * val_main_v79 (F := Ideal) x0 x1 x2 x3 x4 x5 x6 x7 x8 x9 x10 x11 x12 x13 x14 x15 (ix2 p c)) x8 (fun j => x9 (ix1 j)) k := by
  rw [val_main_v99_apply, val_main_v98_apply, val_main_v95_apply, val_main_v97_apply, val_main_v96_apply,
    val_main_call9_v0_apply, val_main_call9_cst_apply, bias3a]
  unfold Spec.hidden Spec.lin
  refine congrArg (fun s : EReal => max (s + x9 (ix1 k)) Spec.zeroW) (Finset.sum_congr rfl fun c _ => ?_)
  rw [left3a, right3a, val_main_v94_apply, val_main_v93_apply, val_main_v92_apply, val_main_cst_10_apply]
  rfl

/-- The reference's last node update, over its third aggregate and the second update's result; no activation. -/
theorem upd3_eq (x0 : (⟨S50000x5, .f32⟩ : BufTy).Contents (Elt Ideal)) (x1 : (⟨S2x800000, .i32⟩ : BufTy).Contents (Elt Ideal)) (x2 : (⟨S800000x128, .f32⟩ : BufTy).Contents (Elt Ideal)) (x3 : (⟨S800000, .f32⟩ : BufTy).Contents (Elt Ideal)) (x4 : (⟨S5x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) :
    val_main_v104 (F := Ideal) x0 x1 x2 x3 x4 x5 x6 x7 x8 x9 x10 x11 x12 x13 x14 x15
      = Spec.updLast (val_main_v91 (F := Ideal) x0 x1 x2 x3 x4 x5 x6 x7 x8 x9 x10 x11 x12 x13 x14 x15) (val_main_v79 (F := Ideal) x0 x1 x2 x3 x4 x5 x6 x7 x8 x9 x10 x11 x12 x13 x14 x15)
          x8 (fun j => x9 (ix1 j)) x10 (fun j => x11 (ix1 j)) := by
  funext i
  obtain ⟨p, q, rfl⟩ : ∃ (p : Fin 50000) (q : Fin 128), i = ix2 p q := ⟨i 0, i 1, eq_ix2 i⟩
  rw [val_main_v104_apply, val_main_v103_apply, val_main_v100_apply, val_main_v102_apply, val_main_v101_apply, bias3b]
  unfold Spec.updLast Spec.updRow Spec.mlpRow Spec.lin
  refine congrArg (fun s : EReal => s + x11 (ix1 q) + val_main_v79 (F := Ideal) x0 x1 x2 x3 x4 x5 x6 x7 x8 x9 x10 x11 x12 x13 x14 x15 (ix2 p q))
    (Finset.sum_congr rfl fun k _ => ?_)
  rw [left3b, right3b, hidden3]

end Cert.ReferenceIdeal.Updates

end
-- ==== Proof.RefFinal.lean ====
/-
  The reference program's result is the network function with the plain gather as its aggregation.

  The reference computes, between its dense stages, exactly the host operations the kernel program does (cut the edge
  index into its rows, move negative source words up by 50000, gather, add the gate, clamp, sum into the destination
  rows) except that it gathers without replacing any row. So each of its three aggregates is the aggregation with the
  plain gather applied to the node features before it, and with the five dense stages read as the stage functions its
  result is the network function of the input arrays.
-/
import proofs.«406182_j75024488726862_2_alg».proof.Proof.Gen.ReferenceIdeal.Read
import proofs.«406182_j75024488726862_2_alg».proof.Proof.RefDense
import proofs.«406182_j75024488726862_2_alg».proof.Proof.RefUpdates
import proofs.«406182_j75024488726862_2_alg».proof.Proof.Net

set_option maxRecDepth 16384

noncomputable section

namespace Cert.ReferenceIdeal.Final

open Cert.ReferenceIdeal Cert.ReferenceIdeal.Read Cert.Spec
open Idealize.ShloMosaic Idealize.ShloMosaic.ValueIdx

variable (x0 : (⟨S50000x5, .f32⟩ : BufTy).Contents (Elt Ideal)) (x1 : (⟨S2x800000, .i32⟩ : BufTy).Contents (Elt Ideal)) (x2 : (⟨S800000x128, .f32⟩ : BufTy).Contents (Elt Ideal)) (x3 : (⟨S800000, .f32⟩ : BufTy).Contents (Elt Ideal)) (x4 : (⟨S5x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal))

/-- The reference's cutoff mask is the kernel program's. -/
theorem mask_eq : val_main_v11 (F := Ideal) x3 = Cert.KernelIdeal.Glue.maskVec x3 := rfl

/-- The reference's three index columns of moved source words are the kernel program's. -/
theorem wrap1_eq : val_main_v33 (F := Ideal) x1 = Cert.KernelIdeal.Glue.wrapCol (Cert.KernelIdeal.Glue.srcOf x1) := rfl
theorem wrap2_eq : val_main_v59 (F := Ideal) x1 = Cert.KernelIdeal.Glue.wrapCol (Cert.KernelIdeal.Glue.srcOf x1) := rfl
theorem wrap3_eq : val_main_v85 (F := Ideal) x1 = Cert.KernelIdeal.Glue.wrapCol (Cert.KernelIdeal.Glue.srcOf x1) := rfl

/-- The reference's three destination columns are the kernel program's. -/
theorem dst1_eq : val_main_v38 (F := Ideal) x1 = Cert.KernelIdeal.Glue.dstCol x1 := rfl
theorem dst2_eq : val_main_v64 (F := Ideal) x1 = Cert.KernelIdeal.Glue.dstCol x1 := rfl
theorem dst3_eq : val_main_v90 (F := Ideal) x1 = Cert.KernelIdeal.Glue.dstCol x1 := rfl

/-- The reference's first aggregate: the plain-gather aggregation of the node embedding. -/
theorem agg1_eq : val_main_v39 (F := Ideal) x0 x1 x2 x3 x4 x5 x6 x7 x12 x13 x14 x15
    = Cert.KernelIdeal.Glue.aggGather (val_main_v8 (F := Ideal) x0 x4 x5 x6 x7) (val_main_v23 (F := Ideal) x2 x3 x12 x13 x14 x15) x1 := by
  unfold val_main_v39 val_main_v36 val_main_v35 val_main_v34 Cert.KernelIdeal.Glue.aggGather
  rw [wrap1_eq, dst1_eq]
  rfl

/-- The reference's second aggregate: the same aggregation of the first update's result. -/
theorem agg2_eq : val_main_v65 (F := Ideal) x0 x1 x2 x3 x4 x5 x6 x7 x8 x9 x10 x11 x12 x13 x14 x15
    = Cert.KernelIdeal.Glue.aggGather (val_main_v53 (F := Ideal) x0 x1 x2 x3 x4 x5 x6 x7 x8 x9 x10 x11 x12 x13 x14 x15) (val_main_v23 (F := Ideal) x2 x3 x12 x13 x14 x15) x1 := by
  unfold val_main_v65 val_main_v62 val_main_v61 val_main_v60 Cert.KernelIdeal.Glue.aggGather
  rw [wrap2_eq, dst2_eq]
  rfl

/-- The reference's third aggregate: the same aggregation of the second update's result. -/
theorem agg3_eq : val_main_v91 (F := Ideal) x0 x1 x2 x3 x4 x5 x6 x7 x8 x9 x10 x11 x12 x13 x14 x15
    = Cert.KernelIdeal.Glue.aggGather (val_main_v79 (F := Ideal) x0 x1 x2 x3 x4 x5 x6 x7 x8 x9 x10 x11 x12 x13 x14 x15) (val_main_v23 (F := Ideal) x2 x3 x12 x13 x14 x15) x1 := by
  unfold val_main_v91 val_main_v88 val_main_v87 val_main_v86 Cert.KernelIdeal.Glue.aggGather
  rw [wrap3_eq, dst3_eq]
  rfl

/-- THE REFERENCE'S RESULT is the network function of the input arrays, its aggregation the plain gather one. -/
theorem final_eq : val_main_v104 (F := Ideal) x0 x1 x2 x3 x4 x5 x6 x7 x8 x9 x10 x11 x12 x13 x14 x15
    = Cert.Net.h3 (fun h => Cert.KernelIdeal.Glue.aggGather h (Cert.Net.g0 x2 x3 x12 x13 x14 x15) x1) (Cert.Net.x0 x0 x4 x5 x6 x7) x8 x9 x10 x11 := by
  rw [Cert.ReferenceIdeal.Updates.upd3_eq, agg3_eq, Cert.ReferenceIdeal.Updates.upd2_eq, agg2_eq,
    Cert.ReferenceIdeal.Updates.upd1_eq, agg1_eq, Cert.ReferenceIdeal.Dense.embed_eq, Cert.ReferenceIdeal.Dense.gate_eq, mask_eq]
  rfl

end Cert.ReferenceIdeal.Final

end
-- ==== Proof.Bridge.lean ====
/-
  The two programs compute the network function of the same arrays.

  The kernel program's result buffer ends holding the last node update, each of whose aggregates uses the row take;
  the precondition makes every source word a legal row index, so the take replaces no row and each aggregate is the one
  with the plain gather. The reference's result is that same network function by its own stages. Both are stated here
  against ONE term, the network function of the kernel memory's argument arrays.
-/
import proofs.«406182_j75024488726862_2_alg».proof.Proof.KChain
import proofs.«406182_j75024488726862_2_alg».proof.Proof.PreDecode
import proofs.«406182_j75024488726862_2_alg».proof.Proof.Net
import proofs.«406182_j75024488726862_2_alg».proof.Proof.RefFinal
import proofs.«406182_j75024488726862_2_alg».proof.Defs

set_option maxRecDepth 16384

noncomputable section

namespace Cert.Bridge

open Idealize.ShloMosaic Idealize.ShloMosaic.TcCoe Idealize.SL.Sem

/-- The network function of the kernel memory's argument arrays on core `c`. -/
def result (m : (ℓ : Loc Cert.KernelIdeal.nD Cert.KernelIdeal.τ Cert.KernelIdeal.sig) → Buf (Elt Ideal) ℓ) (c : Dev Cert.KernelIdeal.nD) : Cert.Spec.Arr 50000 128 :=
  Cert.Net.h3 (fun h => Cert.KernelIdeal.Glue.aggGather h (Cert.Net.g0 (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) (m ((c.tc : Thread Cert.KernelIdeal.nD Cert.KernelIdeal.τ).loc Cert.KernelIdeal.main_arg1)))
    (Cert.Net.x0 (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))

/-- THE KERNEL PROGRAM'S VALUE: under the precondition the last boundary's contents of the result buffer are the network
    function of the argument arrays. -/
theorem kernel_value (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) (c : Dev Cert.KernelIdeal.nD) :
    Cert.KernelIdeal.Gen.W20 m ρ c (Proc.devRef .tc Cert.KernelIdeal.main_v41) = result m c := by
  have hs : Cert.KernelIdeal.Glue.SrcLegal (Cert.KernelIdeal.Glue.srcOf (m ((c.tc : Thread Cert.KernelIdeal.nD Cert.KernelIdeal.τ).loc Cert.KernelIdeal.main_arg1))) :=
    Cert.PreDecode.srcLegal_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (hpre c)
  rw [Cert.KernelIdeal.Chain.W20_h3 m ρ c]
  show Cert.Net.h3 (fun h => Cert.KernelIdeal.Glue.aggTake h (Cert.KernelIdeal.Chain.G0 m c) (m ((c.tc : Thread Cert.KernelIdeal.nD Cert.KernelIdeal.τ).loc Cert.KernelIdeal.main_arg1))) (Cert.KernelIdeal.Chain.X0 m c) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) = _
  exact Cert.Net.h3_congr (fun h => Cert.KernelIdeal.Glue.aggTake_eq h _ _ hs) _ _ _ _ _

/-- THE REFERENCE'S VALUE: its run's result term is the network function of its own argument arrays. -/
theorem reference_value (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v104 m' c
      = Cert.Net.h3 (fun h => Cert.KernelIdeal.Glue.aggGather h (Cert.Net.g0 (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))) (m' ((c.tc : Thread Cert.ReferenceIdeal.nD Cert.ReferenceIdeal.τ).loc Cert.ReferenceIdeal.main_arg1)))
          (Cert.Net.x0 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) := by
  rw [Cert.ReferenceIdeal.Read.val_main_v104_eq, Cert.ReferenceIdeal.Final.final_eq]

end Cert.Bridge

end
-- ==== Proof.lean ====
/-
  A three-layer message-passing network on a graph of 50000 nodes and 800000 edges, computed two ways: by a program of
  five pallas_calls (the node embedding, the edge gate, three node updates) with the gathers and scatter-adds between
  them on the host, and by a plain host program. Over the extended reals both compute ONE function of the input arrays:
      x  = perceptron (z)                                   the node embedding,
      g  = perceptron (edge_attr) · [edge_length ≤ 10]      the edge gate,
      h' = (clamp) perceptron (agg h + 1 · h) + h,   agg h = Σ over edges into a node of max (h[src] + g, 0),
  applied three times from h = x, the clamp left out the last time. Every dense stage is row-wise, so a row-tiled
  pallas_call and a whole-matrix host product give each row the same sums; the host operations between the calls are the
  same in the two programs except that the kernel program's row take replaces by a fill value a gathered row whose
  source word is out of range. The precondition, beside finiteness of the float inputs, says that every source word
  is a legal index of the 50000 node rows (−50000 ≤ src < 50000): then no row is replaced and the two agree.

  Nothing is rewritten by the ideal pass, so the idealized kernel program is the kernel program's own text read over the
  extended reals. The kernel programs' frames and the reference's run are the generated ones.
-/
import proofs.«406182_j75024488726862_2_alg».proof.Defs
import proofs.«406182_j75024488726862_2_alg».proof.Proof.Gen.Kernel
import proofs.«406182_j75024488726862_2_alg».proof.Proof.Gen.Kernel.Frame
import proofs.«406182_j75024488726862_2_alg».proof.Proof.Gen.KernelIdeal
import proofs.«406182_j75024488726862_2_alg».proof.Proof.Gen.KernelIdeal.Frame
import proofs.«406182_j75024488726862_2_alg».proof.Proof.Gen.ReferenceIdeal
import proofs.«406182_j75024488726862_2_alg».proof.Proof.Gen.ReferenceIdeal.Run
import proofs.«406182_j75024488726862_2_alg».proof.Proof.Gen.ReferenceIdeal.Read
import proofs.«406182_j75024488726862_2_alg».proof.Proof.Gen.Pre_finite_inputs
import proofs.«406182_j75024488726862_2_alg».proof.Proof.KernelIdealRun
import proofs.«406182_j75024488726862_2_alg».proof.Proof.Bridge
import Idealize.ShloMosaic.Adequacy
import Idealize.ShloMosaic.Init

noncomputable section

namespace Cert.Proof

open Idealize.ShloMosaic Idealize.ShloMosaic.TcCoe Idealize.SL.Sem

/-- The kernel program, word for word: every execution ends, nothing faults, the arguments are unchanged. -/
theorem frame_kernel : Cert.frame_Kernel := fun m ρ _ => Cert.Kernel.Gen.frame m ρ

/-- The same of the kernel program read over the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments, under the precondition, both programs end with the network function
    of the argument arrays in their result buffers. -/
theorem algebraic : Cert.algebraic_KernelIdeal_ReferenceIdeal := by
  intro m ρ m' ρ' hpre hagree
  refine ⟨fun c => Cert.Bridge.result m c, ?_, ?_⟩
  · exact (θ_run Cert.KernelIdeal.defs _ _).mono
      (fun r h c => ⟨(h c).1.trans (Cert.Bridge.kernel_value m ρ hpre c), (h c).2⟩)
      (Cert.KernelIdeal.RunNamed.run_named m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15⟩ := hagree c
    rw [Cert.Bridge.reference_value m' c, e0, e1, e2, e3, e4, e5, e6, e7, e8, e9, e10, e11, e12, e13, e14, e15]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
